-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000 : Shape := ⟨1, ![200000]⟩
abbrev S200000x32 : Shape := ⟨2, ![200000, 32]⟩
abbrev S50000 : Shape := ⟨1, ![50000]⟩
abbrev S50000x64 : Shape := ⟨2, ![50000, 64]⟩
abbrev S600000 : Shape := ⟨1, ![600000]⟩
abbrev S500000x128 : Shape := ⟨2, ![500000, 128]⟩
abbrev S100000x128 : Shape := ⟨2, ![100000, 128]⟩
abbrev S128x32 : Shape := ⟨2, ![128, 32]⟩
abbrev S128 : Shape := ⟨1, ![128]⟩
abbrev S128x64 : Shape := ⟨2, ![128, 64]⟩
abbrev S128x128 : Shape := ⟨2, ![128, 128]⟩
abbrev S64x128 : Shape := ⟨2, ![64, 128]⟩
abbrev S64 : Shape := ⟨1, ![64]⟩
abbrev S_ : Shape := ⟨0, ![]⟩

class Facts : Prop where
  bcast_S_S200000x32 : S_.BroadcastsInDim S200000x32 (![] : Fin 0 → Fin S200000x32.rank)
  reducesTo_S200000x32_S_d0_1 : S200000x32.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S500000x128 : S_.BroadcastsInDim S500000x128 (![] : Fin 0 → Fin S500000x128.rank)
  reducesTo_S500000x128_S_d0_1 : S500000x128.ReducesTo [0, 1] S_
  bcast_S_S100000x128 : S_.BroadcastsInDim S100000x128 (![] : Fin 0 → Fin S100000x128.rank)
  reducesTo_S100000x128_S_d0_1 : S100000x128.ReducesTo [0, 1] S_
  bcast_S_S128x32 : S_.BroadcastsInDim S128x32 (![] : Fin 0 → Fin S128x32.rank)
  reducesTo_S128x32_S_d0_1 : S128x32.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S200000 : S_.BroadcastsInDim S200000 (![] : Fin 0 → Fin S200000.rank)
  reducesTo_S200000_S_d0 : S200000.ReducesTo [0] S_
  bcast_S_S50000 : S_.BroadcastsInDim S50000 (![] : Fin 0 → Fin S50000.rank)
  reducesTo_S50000_S_d0 : S50000.ReducesTo [0] S_
  bcast_S_S600000 : S_.BroadcastsInDim S600000 (![] : Fin 0 → Fin S600000.rank)
  reducesTo_S600000_S_d0 : S600000.ReducesTo [0] S_

variable [Facts]

def fn_part8 {F : FTy → Type} [FloatOps F] (main_arg6 : IVec S200000 32) (main_arg7 : IVec S200000 32) (main_v130 : IVec S_ 1) (main_v133 : IVec S_ 1) : IVec S_ 1 :=
  let main_v134 : IVec S_ 1 := andi main_v130 main_v133
  let main_c_56 : IVec S_ 32 := constantI S_ 32 200000#32
  let main_v135 : IVec S200000 32 := broadcastInDim S200000 ![] bcast_S_S200000 main_c_56
  let main_v136 : IVec S200000 1 := cmpi .slt main_arg6 main_v135
  let main_c_57 : IVec S_ 1 := constantI S_ 1 1#1
  let main_v137 : IVec S_ 1 := (fun x v => Host.reduce IntOp.andi x v reducesTo_S200000_S_d0 h_S_) main_v136 main_c_57
  let main_v138 : IVec S_ 1 := andi main_v134 main_v137
  let main_c_58 : IVec S_ 32 := constantI S_ 32 0#32
  let main_v139 : IVec S200000 32 := broadcastInDim S200000 ![] bcast_S_S200000 main_c_58
  let main_v140 : IVec S200000 1 := cmpi .sge main_arg7 main_v139
  let main_c_59 : IVec S_ 1 := constantI S_ 1 1#1
  let main_v141 : IVec S_ 1 := (fun x v => Host.reduce IntOp.andi x v reducesTo_S200000_S_d0 h_S_) main_v140 main_c_59
  let main_v142 : IVec S_ 1 := andi main_v138 main_v141
  let main_c_60 : IVec S_ 32 := constantI S_ 32 50000#32
  let main_v143 : IVec S200000 32 := broadcastInDim S200000 ![] bcast_S_S200000 main_c_60
  let main_v144 : IVec S200000 1 := cmpi .slt main_arg7 main_v143
  let main_c_61 : IVec S_ 1 := constantI S_ 1 1#1
  let main_v145 : IVec S_ 1 := (fun x v => Host.reduce IntOp.andi x v reducesTo_S200000_S_d0 h_S_) main_v144 main_c_61
  let main_v146 : IVec S_ 1 := andi main_v142 main_v145
  main_v146

def fn_part7 {F : FTy → Type} [FloatOps F] (main_arg4 : IVec S600000 32) (main_arg5 : IVec S600000 32) (main_arg6 : IVec S200000 32) (main_arg7 : IVec S200000 32) (main_v114 : IVec S_ 1) (main_v117 : IVec S_ 1) : IVec S_ 1 :=
  let main_v118 : IVec S_ 1 := andi main_v114 main_v117
  let main_c_48 : IVec S_ 32 := constantI S_ 32 200000#32
  let main_v119 : IVec S600000 32 := broadcastInDim S600000 ![] bcast_S_S600000 main_c_48
  let main_v120 : IVec S600000 1 := cmpi .slt main_arg4 main_v119
  let main_c_49 : IVec S_ 1 := constantI S_ 1 1#1
  let main_v121 : IVec S_ 1 := (fun x v => Host.reduce IntOp.andi x v reducesTo_S600000_S_d0 h_S_) main_v120 main_c_49
  let main_v122 : IVec S_ 1 := andi main_v118 main_v121
  let main_c_50 : IVec S_ 32 := constantI S_ 32 0#32
  let main_v123 : IVec S600000 32 := broadcastInDim S600000 ![] bcast_S_S600000 main_c_50
  let main_v124 : IVec S600000 1 := cmpi .sge main_arg5 main_v123
  let main_c_51 : IVec S_ 1 := constantI S_ 1 1#1
  let main_v125 : IVec S_ 1 := (fun x v => Host.reduce IntOp.andi x v reducesTo_S600000_S_d0 h_S_) main_v124 main_c_51
  let main_v126 : IVec S_ 1 := andi main_v122 main_v125
  let main_c_52 : IVec S_ 32 := constantI S_ 32 50000#32
  let main_v127 : IVec S600000 32 := broadcastInDim S600000 ![] bcast_S_S600000 main_c_52
  let main_v128 : IVec S600000 1 := cmpi .slt main_arg5 main_v127
  let main_c_53 : IVec S_ 1 := constantI S_ 1 1#1
  let main_v129 : IVec S_ 1 := (fun x v => Host.reduce IntOp.andi x v reducesTo_S600000_S_d0 h_S_) main_v128 main_c_53
  let main_v130 : IVec S_ 1 := andi main_v126 main_v129
  let main_c_54 : IVec S_ 32 := constantI S_ 32 0#32
  let main_v131 : IVec S200000 32 := broadcastInDim S200000 ![] bcast_S_S200000 main_c_54
  let main_v132 : IVec S200000 1 := cmpi .sge main_arg6 main_v131
  let main_c_55 : IVec S_ 1 := constantI S_ 1 1#1
  let main_v133 : IVec S_ 1 := (fun x v => Host.reduce IntOp.andi x v reducesTo_S200000_S_d0 h_S_) main_v132 main_c_55
  fn_part8 (F := F) main_arg6 main_arg7 main_v130 main_v133

def fn_part6 {F : FTy → Type} [FloatOps F] (main_arg0 : IVec S200000 32) (main_arg2 : IVec S50000 32) (main_arg4 : IVec S600000 32) (main_arg5 : IVec S600000 32) (main_arg6 : IVec S200000 32) (main_arg7 : IVec S200000 32) (main_v98 : IVec S_ 1) (main_v101 : IVec S_ 1) : IVec S_ 1 :=
  let main_v102 : IVec S_ 1 := andi main_v98 main_v101
  let main_c_40 : IVec S_ 32 := constantI S_ 32 500000#32
  let main_v103 : IVec S200000 32 := broadcastInDim S200000 ![] bcast_S_S200000 main_c_40
  let main_v104 : IVec S200000 1 := cmpi .slt main_arg0 main_v103
  let main_c_41 : IVec S_ 1 := constantI S_ 1 1#1
  let main_v105 : IVec S_ 1 := (fun x v => Host.reduce IntOp.andi x v reducesTo_S200000_S_d0 h_S_) main_v104 main_c_41
  let main_v106 : IVec S_ 1 := andi main_v102 main_v105
  let main_c_42 : IVec S_ 32 := constantI S_ 32 0#32
  let main_v107 : IVec S50000 32 := broadcastInDim S50000 ![] bcast_S_S50000 main_c_42
  let main_v108 : IVec S50000 1 := cmpi .sge main_arg2 main_v107
  let main_c_43 : IVec S_ 1 := constantI S_ 1 1#1
  let main_v109 : IVec S_ 1 := (fun x v => Host.reduce IntOp.andi x v reducesTo_S50000_S_d0 h_S_) main_v108 main_c_43
  let main_v110 : IVec S_ 1 := andi main_v106 main_v109
  let main_c_44 : IVec S_ 32 := constantI S_ 32 100000#32
  let main_v111 : IVec S50000 32 := broadcastInDim S50000 ![] bcast_S_S50000 main_c_44
  let main_v112 : IVec S50000 1 := cmpi .slt main_arg2 main_v111
  let main_c_45 : IVec S_ 1 := constantI S_ 1 1#1
  let main_v113 : IVec S_ 1 := (fun x v => Host.reduce IntOp.andi x v reducesTo_S50000_S_d0 h_S_) main_v112 main_c_45
  let main_v114 : IVec S_ 1 := andi main_v110 main_v113
  let main_c_46 : IVec S_ 32 := constantI S_ 32 0#32
  let main_v115 : IVec S600000 32 := broadcastInDim S600000 ![] bcast_S_S600000 main_c_46
  let main_v116 : IVec S600000 1 := cmpi .sge main_arg4 main_v115
  let main_c_47 : IVec S_ 1 := constantI S_ 1 1#1
  let main_v117 : IVec S_ 1 := (fun x v => Host.reduce IntOp.andi x v reducesTo_S600000_S_d0 h_S_) main_v116 main_c_47
  fn_part7 (F := F) main_arg4 main_arg5 main_arg6 main_arg7 main_v114 main_v117

def fn_part5 {F : FTy → Type} [FloatOps F] (main_arg0 : IVec S200000 32) (main_arg2 : IVec S50000 32) (main_arg4 : IVec S600000 32) (main_arg5 : IVec S600000 32) (main_arg6 : IVec S200000 32) (main_arg7 : IVec S200000 32) (main_arg24 : FVec F S64 .f32) (main_arg25 : FVec F S64x128 .f32) (main_v83 : IVec S_ 1) (main_v84 : FVec F S64x128 .f32) (main_cst_32 : FVec F S_ .f32) : IVec S_ 1 :=
  let main_v85 : FVec F S64x128 .f32 := broadcastInDim S64x128 ![] bcast_S_S64x128 main_cst_32
  let main_v86 : IVec S64x128 1 := cmpf .olt main_v84 main_v85
  let main_c_33 : IVec S_ 1 := constantI S_ 1 1#1
  let main_v87 : IVec S_ 1 := (fun x v => Host.reduce IntOp.andi x v reducesTo_S64x128_S_d0_1 h_S_) main_v86 main_c_33
  let main_v88 : IVec S_ 1 := andi main_v83 main_v87
  let main_v89 : FVec F S64 .f32 := Host.absf main_arg24
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x128 .f32 := Host.absf main_arg25
  let main_cst_36 : FVec F S_ .f32 := constant S_ .f32 0x7F800000#32
  let main_v95 : FVec F S64x128 .f32 := broadcastInDim S64x128 ![] bcast_S_S64x128 main_cst_36
  let main_v96 : IVec S64x128 1 := cmpf .olt main_v94 main_v95
  let main_c_37 : IVec S_ 1 := constantI S_ 1 1#1
  let main_v97 : IVec S_ 1 := (fun x v => Host.reduce IntOp.andi x v reducesTo_S64x128_S_d0_1 h_S_) main_v96 main_c_37
  let main_v98 : IVec S_ 1 := andi main_v93 main_v97
  let main_c_38 : IVec S_ 32 := constantI S_ 32 0#32
  let main_v99 : IVec S200000 32 := broadcastInDim S200000 ![] bcast_S_S200000 main_c_38
  let main_v100 : IVec S200000 1 := cmpi .sge main_arg0 main_v99
  let main_c_39 : IVec S_ 1 := constantI S_ 1 1#1
  let main_v101 : IVec S_ 1 := (fun x v => Host.reduce IntOp.andi x v reducesTo_S200000_S_d0 h_S_) main_v100 main_c_39
  fn_part6 (F := F) main_arg0 main_arg2 main_arg4 main_arg5 main_arg6 main_arg7 main_v98 main_v101

def fn_part4 {F : FTy → Type} [FloatOps F] (main_arg0 : IVec S200000 32) (main_arg2 : IVec S50000 32) (main_arg4 : IVec S600000 32) (main_arg5 : IVec S600000 32) (main_arg6 : IVec S200000 32) (main_arg7 : IVec S200000 32) (main_arg20 : FVec F S64x128 .f32) (main_arg21 : FVec F S64 .f32) (main_arg22 : FVec F S64x128 .f32) (main_arg23 : FVec F S64x128 .f32) (main_arg24 : FVec F S64 .f32) (main_arg25 : FVec F S64x128 .f32) (main_v63 : IVec S_ 1) (main_v67 : IVec S_ 1) : IVec S_ 1 :=
  let main_v68 : IVec S_ 1 := andi main_v63 main_v67
  let main_v69 : FVec F S64x128 .f32 := Host.absf main_arg20
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S64 .f32 := Host.absf main_arg21
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x128 .f32 := Host.absf main_arg22
  let main_cst_30 : FVec F S_ .f32 := constant S_ .f32 0x7F800000#32
  let main_v80 : FVec F S64x128 .f32 := broadcastInDim S64x128 ![] bcast_S_S64x128 main_cst_30
  let main_v81 : IVec S64x128 1 := cmpf .olt main_v79 main_v80
  let main_c_31 : IVec S_ 1 := constantI S_ 1 1#1
  let main_v82 : IVec S_ 1 := (fun x v => Host.reduce IntOp.andi x v reducesTo_S64x128_S_d0_1 h_S_) main_v81 main_c_31
  let main_v83 : IVec S_ 1 := andi main_v78 main_v82
  let main_v84 : FVec F S64x128 .f32 := Host.absf main_arg23
  let main_cst_32 : FVec F S_ .f32 := constant S_ .f32 0x7F800000#32
  fn_part5 (F := F) main_arg0 main_arg2 main_arg4 main_arg5 main_arg6 main_arg7 main_arg24 main_arg25 main_v83 main_v84 main_cst_32

def fn_part3 {F : FTy → Type} [FloatOps F] (main_arg0 : IVec S200000 32) (main_arg2 : IVec S50000 32) (main_arg4 : IVec S600000 32) (main_arg5 : IVec S600000 32) (main_arg6 : IVec S200000 32) (main_arg7 : IVec S200000 32) (main_arg17 : FVec F S128x128 .f32) (main_arg18 : FVec F S128 .f32) (main_arg19 : FVec F S128x128 .f32) (main_arg20 : FVec F S64x128 .f32) (main_arg21 : FVec F S64 .f32) (main_arg22 : FVec F S64x128 .f32) (main_arg23 : FVec F S64x128 .f32) (main_arg24 : FVec F S64 .f32) (main_arg25 : FVec F S64x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg17
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg18
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg19
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg0 main_arg2 main_arg4 main_arg5 main_arg6 main_arg7 main_arg20 main_arg21 main_arg22 main_arg23 main_arg24 main_arg25 main_v63 main_v67

def fn_part2 {F : FTy → Type} [FloatOps F] (main_arg0 : IVec S200000 32) (main_arg2 : IVec S50000 32) (main_arg4 : IVec S600000 32) (main_arg5 : IVec S600000 32) (main_arg6 : IVec S200000 32) (main_arg7 : IVec S200000 32) (main_arg13 : FVec F S128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S64x128 .f32) (main_arg21 : FVec F S64 .f32) (main_arg22 : FVec F S64x128 .f32) (main_arg23 : FVec F S64x128 .f32) (main_arg24 : FVec F S64 .f32) (main_arg25 : FVec F S64x128 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg16
  let main_cst_18 : FVec F S_ .f32 := constant S_ .f32 0x7F800000#32
  let main_v50 : FVec F S128x128 .f32 := broadcastInDim S128x128 ![] bcast_S_S128x128 main_cst_18
  fn_part3 (F := F) main_arg0 main_arg2 main_arg4 main_arg5 main_arg6 main_arg7 main_arg17 main_arg18 main_arg19 main_arg20 main_arg21 main_arg22 main_arg23 main_arg24 main_arg25 main_v48 main_v49 main_v50

def fn_part1 {F : FTy → Type} [FloatOps F] (main_arg0 : IVec S200000 32) (main_arg2 : IVec S50000 32) (main_arg4 : IVec S600000 32) (main_arg5 : IVec S600000 32) (main_arg6 : IVec S200000 32) (main_arg7 : IVec S200000 32) (main_arg10 : FVec F S128x32 .f32) (main_arg11 : FVec F S128 .f32) (main_arg12 : FVec F S128x64 .f32) (main_arg13 : FVec F S128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S64x128 .f32) (main_arg21 : FVec F S64 .f32) (main_arg22 : FVec F S64x128 .f32) (main_arg23 : FVec F S64x128 .f32) (main_arg24 : FVec F S64 .f32) (main_arg25 : FVec F S64x128 .f32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_v19 : FVec F S128x32 .f32 := Host.absf main_arg10
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg12
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg0 main_arg2 main_arg4 main_arg5 main_arg6 main_arg7 main_arg13 main_arg14 main_arg15 main_arg16 main_arg17 main_arg18 main_arg19 main_arg20 main_arg21 main_arg22 main_arg23 main_arg24 main_arg25 main_v33

def fn {F : FTy → Type} [FloatOps F] (main_arg0 : IVec S200000 32) (main_arg1 : FVec F S200000x32 .f32) (main_arg2 : IVec S50000 32) (main_arg3 : FVec F S50000x64 .f32) (main_arg4 : IVec S600000 32) (main_arg5 : IVec S600000 32) (main_arg6 : IVec S200000 32) (main_arg7 : IVec S200000 32) (main_arg8 : FVec F S500000x128 .f32) (main_arg9 : FVec F S100000x128 .f32) (main_arg10 : FVec F S128x32 .f32) (main_arg11 : FVec F S128 .f32) (main_arg12 : FVec F S128x64 .f32) (main_arg13 : FVec F S128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S64x128 .f32) (main_arg21 : FVec F S64 .f32) (main_arg22 : FVec F S64x128 .f32) (main_arg23 : FVec F S64x128 .f32) (main_arg24 : FVec F S64 .f32) (main_arg25 : FVec F S64x128 .f32) : IVec S_ 1 :=
  let main_v0 : FVec F S200000x32 .f32 := Host.absf main_arg1
  let main_cst : FVec F S_ .f32 := constant S_ .f32 0x7F800000#32
  let main_v1 : FVec F S200000x32 .f32 := broadcastInDim S200000x32 ![] bcast_S_S200000x32 main_cst
  let main_v2 : IVec S200000x32 1 := cmpf .olt main_v0 main_v1
  let main_c : IVec S_ 1 := constantI S_ 1 1#1
  let main_v3 : IVec S_ 1 := (fun x v => Host.reduce IntOp.andi x v reducesTo_S200000x32_S_d0_1 h_S_) main_v2 main_c
  let main_v4 : FVec F S50000x64 .f32 := Host.absf main_arg3
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S500000x128 .f32 := Host.absf main_arg8
  let main_cst_2 : FVec F S_ .f32 := constant S_ .f32 0x7F800000#32
  let main_v10 : FVec F S500000x128 .f32 := broadcastInDim S500000x128 ![] bcast_S_S500000x128 main_cst_2
  let main_v11 : IVec S500000x128 1 := cmpf .olt main_v9 main_v10
  let main_c_3 : IVec S_ 1 := constantI S_ 1 1#1
  let main_v12 : IVec S_ 1 := (fun x v => Host.reduce IntOp.andi x v reducesTo_S500000x128_S_d0_1 h_S_) main_v11 main_c_3
  let main_v13 : IVec S_ 1 := andi main_v8 main_v12
  let main_v14 : FVec F S100000x128 .f32 := Host.absf main_arg9
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg0 main_arg2 main_arg4 main_arg5 main_arg6 main_arg7 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S200000 : Shape := ⟨1, ![200000]⟩
abbrev S200000x32 : Shape := ⟨2, ![200000, 32]⟩
abbrev S50000 : Shape := ⟨1, ![50000]⟩
abbrev S50000x64 : Shape := ⟨2, ![50000, 64]⟩
abbrev S600000 : Shape := ⟨1, ![600000]⟩
abbrev S500000x128 : Shape := ⟨2, ![500000, 128]⟩
abbrev S100000x128 : Shape := ⟨2, ![100000, 128]⟩
abbrev S128x32 : Shape := ⟨2, ![128, 32]⟩
abbrev S128 : Shape := ⟨1, ![128]⟩
abbrev S128x64 : Shape := ⟨2, ![128, 64]⟩
abbrev S128x128 : Shape := ⟨2, ![128, 128]⟩
abbrev S64x128 : Shape := ⟨2, ![64, 128]⟩
abbrev S64 : Shape := ⟨1, ![64]⟩
abbrev S_ : Shape := ⟨0, ![]⟩
abbrev S200000x1 : Shape := ⟨2, ![200000, 1]⟩
abbrev S1 : Shape := ⟨1, ![1]⟩
abbrev S1x1 : Shape := ⟨2, ![1, 1]⟩
abbrev S200000x128 : Shape := ⟨2, ![200000, 128]⟩
abbrev S50000x1 : Shape := ⟨2, ![50000, 1]⟩
abbrev S50000x128 : Shape := ⟨2, ![50000, 128]⟩
abbrev S32x128 : Shape := ⟨2, ![32, 128]⟩
abbrev S1x128 : Shape := ⟨2, ![1, 128]⟩
abbrev S4000x32 : Shape := ⟨2, ![4000, 32]⟩
abbrev S4000x128 : Shape := ⟨2, ![4000, 128]⟩
abbrev S2000x64 : Shape := ⟨2, ![2000, 64]⟩
abbrev S2000x128 : Shape := ⟨2, ![2000, 128]⟩
abbrev S600000x1 : Shape := ⟨2, ![600000, 1]⟩
abbrev S600000x128 : Shape := ⟨2, ![600000, 128]⟩
abbrev S4000x1 : Shape := ⟨2, ![4000, 1]⟩
abbrev S4000 : Shape := ⟨1, ![4000]⟩
abbrev S2000x1 : Shape := ⟨2, ![2000, 1]⟩
abbrev S2000 : Shape := ⟨1, ![2000]⟩
abbrev S1x64 : Shape := ⟨2, ![1, 64]⟩
abbrev S200000x64 : Shape := ⟨2, ![200000, 64]⟩
abbrev S4000x64 : Shape := ⟨2, ![4000, 64]⟩

abbrev nBuf : Space → Nat
  | .hbm => 278
  | .vmem => 66
  | .smem => 0
  | _ => 0

abbrev hbmTy0_0 (i : Nat) : BufTy := match i % 128 with
  | 0 => ⟨S200000, .i32⟩
  | 1 => ⟨S200000x32, .f32⟩
  | 2 => ⟨S50000, .i32⟩
  | 3 => ⟨S50000x64, .f32⟩
  | 4 => ⟨S600000, .i32⟩
  | 5 => ⟨S600000, .i32⟩
  | 6 => ⟨S200000, .i32⟩
  | 7 => ⟨S200000, .i32⟩
  | 8 => ⟨S500000x128, .f32⟩
  | 9 => ⟨S100000x128, .f32⟩
  | 10 => ⟨S128x32, .f32⟩
  | 11 => ⟨S128, .f32⟩
  | 12 => ⟨S128x64, .f32⟩
  | 13 => ⟨S128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S64x128, .f32⟩
  | 21 => ⟨S64, .f32⟩
  | 22 => ⟨S64x128, .f32⟩
  | 23 => ⟨S64x128, .f32⟩
  | 24 => ⟨S64, .f32⟩
  | 25 => ⟨S64x128, .f32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S1, .i32⟩
  | 35 => ⟨S_, .i32⟩
  | 36 => ⟨S200000x1, .i32⟩
  | 37 => ⟨S200000x1, .i1⟩
  | 38 => ⟨S1x1, .i32⟩
  | 39 => ⟨S200000x1, .i32⟩
  | 40 => ⟨S200000x1, .i1⟩
  | 41 => ⟨S200000x1, .i1⟩
  | 42 => ⟨S_, .i1⟩
  | 43 => ⟨S200000, .i1⟩
  | 44 => ⟨S200000x128, .f32⟩
  | 45 => ⟨S200000x128, .i1⟩
  | 46 => ⟨S_, .f32⟩
  | 47 => ⟨S200000x128, .f32⟩
  | 48 => ⟨S200000x128, .f32⟩
  | 49 => ⟨S_, .i32⟩
  | 50 => ⟨S50000, .i32⟩
  | 51 => ⟨S50000, .i1⟩
  | 52 => ⟨S_, .i32⟩
  | 53 => ⟨S50000, .i32⟩
  | 54 => ⟨S50000, .i32⟩
  | 55 => ⟨S50000, .i32⟩
  | 56 => ⟨S50000x1, .i32⟩
  | 57 => ⟨S1, .i32⟩
  | 58 => ⟨S_, .i32⟩
  | 59 => ⟨S50000x1, .i32⟩
  | 60 => ⟨S50000x1, .i1⟩
  | 61 => ⟨S1x1, .i32⟩
  | 62 => ⟨S50000x1, .i32⟩
  | 63 => ⟨S50000x1, .i1⟩
  | 64 => ⟨S50000x1, .i1⟩
  | 65 => ⟨S_, .i1⟩
  | 66 => ⟨S50000, .i1⟩
  | 67 => ⟨S50000x128, .f32⟩
  | 68 => ⟨S50000x128, .i1⟩
  | 69 => ⟨S_, .f32⟩
  | 70 => ⟨S50000x128, .f32⟩
  | 71 => ⟨S50000x128, .f32⟩
  | 72 => ⟨S32x128, .f32⟩
  | 73 => ⟨S1x128, .f32⟩
  | 74 => ⟨S200000x128, .f32⟩
  | 75 => ⟨S64x128, .f32⟩
  | 76 => ⟨S1x128, .f32⟩
  | 77 => ⟨S50000x128, .f32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S1, .i32⟩
  | 87 => ⟨S_, .i32⟩
  | 88 => ⟨S600000x1, .i32⟩
  | 89 => ⟨S600000x1, .i1⟩
  | 90 => ⟨S1x1, .i32⟩
  | 91 => ⟨S600000x1, .i32⟩
  | 92 => ⟨S600000x1, .i1⟩
  | 93 => ⟨S600000x1, .i1⟩
  | 94 => ⟨S_, .i1⟩
  | 95 => ⟨S600000, .i1⟩
  | 96 => ⟨S600000x128, .f32⟩
  | 97 => ⟨S600000x128, .i1⟩
  | 98 => ⟨S_, .f32⟩
  | 99 => ⟨S600000x128, .f32⟩
  | 100 => ⟨S600000x128, .f32⟩
  | 101 => ⟨S_, .f32⟩
  | 102 => ⟨S200000x128, .f32⟩
  | 103 => ⟨S600000x1, .i32⟩
  | 104 => ⟨S200000x128, .f32⟩
  | 105 => ⟨S_, .f32⟩
  | 106 => ⟨S600000, .f32⟩
  | 107 => ⟨S_, .f32⟩
  | 108 => ⟨S200000, .f32⟩
  | 109 => ⟨S600000x1, .i32⟩
  | 110 => ⟨S200000, .f32⟩
  | 111 => ⟨S200000x1, .f32⟩
  | 112 => ⟨S128x128, .f32⟩
  | 113 => ⟨S128x128, .f32⟩
  | 114 => ⟨S1x128, .f32⟩
  | 115 => ⟨S200000x128, .f32⟩
  | 116 => ⟨S_, .i32⟩
  | 117 => ⟨S600000, .i32⟩
  | 118 => ⟨S600000, .i1⟩
  | 119 => ⟨S_, .i32⟩
  | 120 => ⟨S600000, .i32⟩
  | 121 => ⟨S600000, .i32⟩
  | 122 => ⟨S600000, .i32⟩
  | 123 => ⟨S600000x1, .i32⟩
  | 124 => ⟨S1, .i32⟩
  | 125 => ⟨S_, .i32⟩
  | 126 => ⟨S600000x1, .i32⟩
  | 127 => ⟨S600000x1, .i1⟩
  | _ => ⟨S200000, .i32⟩

abbrev hbmTy0_1 (i : Nat) : BufTy := match i % 128 with
  | 0 => ⟨S1x1, .i32⟩
  | 1 => ⟨S600000x1, .i32⟩
  | 2 => ⟨S600000x1, .i1⟩
  | 3 => ⟨S600000x1, .i1⟩
  | 4 => ⟨S_, .i1⟩
  | 5 => ⟨S600000, .i1⟩
  | 6 => ⟨S600000x128, .f32⟩
  | 7 => ⟨S600000x128, .i1⟩
  | 8 => ⟨S_, .f32⟩
  | 9 => ⟨S600000x128, .f32⟩
  | 10 => ⟨S600000x128, .f32⟩
  | 11 => ⟨S_, .f32⟩
  | 12 => ⟨S50000x128, .f32⟩
  | 13 => ⟨S600000x1, .i32⟩
  | 14 => ⟨S50000x128, .f32⟩
  | 15 => ⟨S_, .f32⟩
  | 16 => ⟨S600000, .f32⟩
  | 17 => ⟨S_, .f32⟩
  | 18 => ⟨S50000, .f32⟩
  | 19 => ⟨S600000x1, .i32⟩
  | 20 => ⟨S50000, .f32⟩
  | 21 => ⟨S50000x1, .f32⟩
  | 22 => ⟨S128x128, .f32⟩
  | 23 => ⟨S128x128, .f32⟩
  | 24 => ⟨S1x128, .f32⟩
  | 25 => ⟨S50000x128, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S1, .i32⟩
  | 35 => ⟨S_, .i32⟩
  | 36 => ⟨S600000x1, .i32⟩
  | 37 => ⟨S600000x1, .i1⟩
  | 38 => ⟨S1x1, .i32⟩
  | 39 => ⟨S600000x1, .i32⟩
  | 40 => ⟨S600000x1, .i1⟩
  | 41 => ⟨S600000x1, .i1⟩
  | 42 => ⟨S_, .i1⟩
  | 43 => ⟨S600000, .i1⟩
  | 44 => ⟨S600000x128, .f32⟩
  | 45 => ⟨S600000x128, .i1⟩
  | 46 => ⟨S_, .f32⟩
  | 47 => ⟨S600000x128, .f32⟩
  | 48 => ⟨S600000x128, .f32⟩
  | 49 => ⟨S_, .f32⟩
  | 50 => ⟨S200000x128, .f32⟩
  | 51 => ⟨S600000x1, .i32⟩
  | 52 => ⟨S200000x128, .f32⟩
  | 53 => ⟨S_, .f32⟩
  | 54 => ⟨S600000, .f32⟩
  | 55 => ⟨S_, .f32⟩
  | 56 => ⟨S200000, .f32⟩
  | 57 => ⟨S600000x1, .i32⟩
  | 58 => ⟨S200000, .f32⟩
  | 59 => ⟨S200000x1, .f32⟩
  | 60 => ⟨S128x64, .f32⟩
  | 61 => ⟨S128x64, .f32⟩
  | 62 => ⟨S1x64, .f32⟩
  | 63 => ⟨S200000x64, .f32⟩
  | 64 => ⟨S_, .i32⟩
  | 65 => ⟨S600000, .i32⟩
  | 66 => ⟨S600000, .i1⟩
  | 67 => ⟨S_, .i32⟩
  | 68 => ⟨S600000, .i32⟩
  | 69 => ⟨S600000, .i32⟩
  | 70 => ⟨S600000, .i32⟩
  | 71 => ⟨S600000x1, .i32⟩
  | 72 => ⟨S1, .i32⟩
  | 73 => ⟨S_, .i32⟩
  | 74 => ⟨S600000x1, .i32⟩
  | 75 => ⟨S600000x1, .i1⟩
  | 76 => ⟨S1x1, .i32⟩
  | 77 => ⟨S600000x1, .i32⟩
  | 78 => ⟨S600000x1, .i1⟩
  | 79 => ⟨S600000x1, .i1⟩
  | 80 => ⟨S_, .i1⟩
  | 81 => ⟨S600000, .i1⟩
  | 82 => ⟨S600000x128, .f32⟩
  | 83 => ⟨S600000x128, .i1⟩
  | 84 => ⟨S_, .f32⟩
  | 85 => ⟨S600000x128, .f32⟩
  | 86 => ⟨S600000x128, .f32⟩
  | 87 => ⟨S_, .f32⟩
  | 88 => ⟨S50000x128, .f32⟩
  | 89 => ⟨S600000x1, .i32⟩
  | 90 => ⟨S50000x128, .f32⟩
  | 91 => ⟨S_, .f32⟩
  | 92 => ⟨S600000, .f32⟩
  | 93 => ⟨S_, .f32⟩
  | 94 => ⟨S50000, .f32⟩
  | 95 => ⟨S600000x1, .i32⟩
  | 96 => ⟨S50000, .f32⟩
  | 97 => ⟨S50000x1, .f32⟩
  | 98 => ⟨S128x64, .f32⟩
  | 99 => ⟨S128x64, .f32⟩
  | 100 => ⟨S1x64, .f32⟩
  | 101 => ⟨S50000x64, .f32⟩
  | 102 => ⟨S_, .i32⟩
  | 103 => ⟨S200000, .i32⟩
  | 104 => ⟨S200000, .i1⟩
  | 105 => ⟨S_, .i32⟩
  | 106 => ⟨S200000, .i32⟩
  | 107 => ⟨S200000, .i32⟩
  | 108 => ⟨S200000, .i32⟩
  | 109 => ⟨S200000x1, .i32⟩
  | 110 => ⟨S1, .i32⟩
  | 111 => ⟨S_, .i32⟩
  | 112 => ⟨S200000x1, .i32⟩
  | 113 => ⟨S200000x1, .i1⟩
  | 114 => ⟨S1x1, .i32⟩
  | 115 => ⟨S200000x1, .i32⟩
  | 116 => ⟨S200000x1, .i1⟩
  | 117 => ⟨S200000x1, .i1⟩
  | 118 => ⟨S_, .i1⟩
  | 119 => ⟨S200000, .i1⟩
  | 120 => ⟨S200000x64, .f32⟩
  | 121 => ⟨S200000x64, .i1⟩
  | 122 => ⟨S_, .f32⟩
  | 123 => ⟨S200000x64, .f32⟩
  | 124 => ⟨S200000x64, .f32⟩
  | 125 => ⟨S_, .i32⟩
  | 126 => ⟨S200000, .i32⟩
  | 127 => ⟨S200000, .i1⟩
  | _ => ⟨S200000, .i32⟩

abbrev hbmTy0_2 (i : Nat) : BufTy := match i % 128 with
  | 0 => ⟨S_, .i32⟩
  | 1 => ⟨S200000, .i32⟩
  | 2 => ⟨S200000, .i32⟩
  | 3 => ⟨S200000, .i32⟩
  | 4 => ⟨S200000x1, .i32⟩
  | 5 => ⟨S1, .i32⟩
  | 6 => ⟨S_, .i32⟩
  | 7 => ⟨S200000x1, .i32⟩
  | 8 => ⟨S200000x1, .i1⟩
  | 9 => ⟨S1x1, .i32⟩
  | 10 => ⟨S200000x1, .i32⟩
  | 11 => ⟨S200000x1, .i1⟩
  | 12 => ⟨S200000x1, .i1⟩
  | 13 => ⟨S_, .i1⟩
  | 14 => ⟨S200000, .i1⟩
  | 15 => ⟨S200000x64, .f32⟩
  | 16 => ⟨S200000x64, .i1⟩
  | 17 => ⟨S_, .f32⟩
  | 18 => ⟨S200000x64, .f32⟩
  | 19 => ⟨S200000x64, .f32⟩
  | 20 => ⟨S200000x1, .f32⟩
  | 21 => ⟨S200000, .f32⟩
  | _ => ⟨S200000, .i32⟩

abbrev hbmTy (i : Nat) : BufTy := match i / 128 with
  | 0 => hbmTy0_0 i
  | 1 => hbmTy0_1 i
  | 2 => hbmTy0_2 i
  | _ => ⟨S200000, .i32⟩

abbrev bufTy : (tb : Table) → Fin (tcTables nBuf tb) → BufTy
  | .hbm, ⟨i, _⟩ => hbmTy i
  | .local _ .vmem, ⟨0, _⟩ => ⟨S4000x32, .f32⟩
  | .local _ .vmem, ⟨1, _⟩ => ⟨S4000x32, .f32⟩
  | .local _ .vmem, ⟨2, _⟩ => ⟨S4000x128, .f32⟩
  | .local _ .vmem, ⟨3, _⟩ => ⟨S4000x128, .f32⟩
  | .local _ .vmem, ⟨4, _⟩ => ⟨S32x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | .local _ .vmem, ⟨8, _⟩ => ⟨S2000x64, .f32⟩
  | .local _ .vmem, ⟨9, _⟩ => ⟨S2000x64, .f32⟩
  | .local _ .vmem, ⟨10, _⟩ => ⟨S2000x128, .f32⟩
  | .local _ .vmem, ⟨11, _⟩ => ⟨S2000x128, .f32⟩
  | .local _ .vmem, ⟨12, _⟩ => ⟨S64x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S4000x128, .f32⟩
  | .local _ .vmem, ⟨17, _⟩ => ⟨S4000x128, .f32⟩
  | .local _ .vmem, ⟨18, _⟩ => ⟨S4000x1, .f32⟩
  | .local _ .vmem, ⟨19, _⟩ => ⟨S4000x1, .f32⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S4000x128, .f32⟩
  | .local _ .vmem, ⟨26, _⟩ => ⟨S4000x128, .f32⟩
  | .local _ .vmem, ⟨27, _⟩ => ⟨S2000x128, .f32⟩
  | .local _ .vmem, ⟨28, _⟩ => ⟨S2000x128, .f32⟩
  | .local _ .vmem, ⟨29, _⟩ => ⟨S2000x1, .f32⟩
  | .local _ .vmem, ⟨30, _⟩ => ⟨S2000x1, .f32⟩
  | .local _ .vmem, ⟨31, _⟩ => ⟨S2000x128, .f32⟩
  | .local _ .vmem, ⟨32, _⟩ => ⟨S2000x128, .f32⟩
  | .local _ .vmem, ⟨33, _⟩ => ⟨S128x128, .f32⟩
  | .local _ .vmem, ⟨34, _⟩ => ⟨S128x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S4000x128, .f32⟩
  | .local _ .vmem, ⟨39, _⟩ => ⟨S4000x128, .f32⟩
  | .local _ .vmem, ⟨40, _⟩ => ⟨S4000x1, .f32⟩
  | .local _ .vmem, ⟨41, _⟩ => ⟨S4000x1, .f32⟩
  | .local _ .vmem, ⟨42, _⟩ => ⟨S4000x128, .f32⟩
  | .local _ .vmem, ⟨43, _⟩ => ⟨S4000x128, .f32⟩
  | .local _ .vmem, ⟨44, _⟩ => ⟨S128x64, .f32⟩
  | .local _ .vmem, ⟨45, _⟩ => ⟨S128x64, .f32⟩
  | .local _ .vmem, ⟨46, _⟩ => ⟨S1x64, .f32⟩
  | .local _ .vmem, ⟨47, _⟩ => ⟨S4000x64, .f32⟩
  | .local _ .vmem, ⟨48, _⟩ => ⟨S4000x64, .f32⟩
  | .local _ .vmem, ⟨49, _⟩ => ⟨S2000x128, .f32⟩
  | .local _ .vmem, ⟨50, _⟩ => ⟨S2000x128, .f32⟩
  | .local _ .vmem, ⟨51, _⟩ => ⟨S2000x1, .f32⟩
  | .local _ .vmem, ⟨52, _⟩ => ⟨S2000x1, .f32⟩
  | .local _ .vmem, ⟨53, _⟩ => ⟨S2000x128, .f32⟩
  | .local _ .vmem, ⟨54, _⟩ => ⟨S2000x128, .f32⟩
  | .local _ .vmem, ⟨55, _⟩ => ⟨S128x64, .f32⟩
  | .local _ .vmem, ⟨56, _⟩ => ⟨S128x64, .f32⟩
  | .local _ .vmem, ⟨57, _⟩ => ⟨S1x64, .f32⟩
  | .local _ .vmem, ⟨58, _⟩ => ⟨S2000x64, .f32⟩
  | .local _ .vmem, ⟨59, _⟩ => ⟨S2000x64, .f32⟩
  | .local _ .vmem, ⟨60, _⟩ => ⟨S4000x64, .f32⟩
  | .local _ .vmem, ⟨61, _⟩ => ⟨S4000x64, .f32⟩
  | .local _ .vmem, ⟨62, _⟩ => ⟨S4000x64, .f32⟩
  | .local _ .vmem, ⟨63, _⟩ => ⟨S4000x64, .f32⟩
  | .local _ .vmem, ⟨64, _⟩ => ⟨S4000x1, .f32⟩
  | .local _ .vmem, ⟨65, _⟩ => ⟨S4000x1, .f32⟩
  | _, _ => ⟨S200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v0 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v1 : Ref sig .tc := ⟨.hbm, 71, rfl⟩
abbrev main_v2 : Ref sig .tc := ⟨.hbm, 72, rfl⟩
abbrev main_v3 : Ref sig .tc := ⟨.hbm, 73, rfl⟩
abbrev main_v4 : Ref sig .tc := ⟨.hbm, 74, rfl⟩
abbrev main_v5 : Ref sig .tc := ⟨.hbm, 75, rfl⟩
abbrev main_v6 : Ref sig .tc := ⟨.hbm, 76, rfl⟩
abbrev main_v7 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_c_1 : Ref sig .tc := ⟨.hbm, 86, rfl⟩
abbrev main_call2_c_2 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_3 : Ref sig .tc := ⟨.hbm, 94, rfl⟩
abbrev main_call2_v12 : Ref sig .tc := ⟨.hbm, 95, rfl⟩
abbrev main_call2_v13 : Ref sig .tc := ⟨.hbm, 96, rfl⟩
abbrev main_call2_v14 : Ref sig .tc := ⟨.hbm, 97, rfl⟩
abbrev main_call2_cst : Ref sig .tc := ⟨.hbm, 98, rfl⟩
abbrev main_call2_v15 : Ref sig .tc := ⟨.hbm, 99, rfl⟩
abbrev main_v8 : Ref sig .tc := ⟨.hbm, 100, rfl⟩
abbrev main_cst : Ref sig .tc := ⟨.hbm, 101, rfl⟩
abbrev main_v9 : Ref sig .tc := ⟨.hbm, 102, rfl⟩
abbrev main_v10 : Ref sig .tc := ⟨.hbm, 103, rfl⟩
abbrev main_v11 : Ref sig .tc := ⟨.hbm, 104, rfl⟩
abbrev main_cst_0 : Ref sig .tc := ⟨.hbm, 105, rfl⟩
abbrev main_v12 : Ref sig .tc := ⟨.hbm, 106, rfl⟩
abbrev main_cst_1 : Ref sig .tc := ⟨.hbm, 107, rfl⟩
abbrev main_v13 : Ref sig .tc := ⟨.hbm, 108, rfl⟩
abbrev main_v14 : Ref sig .tc := ⟨.hbm, 109, rfl⟩
abbrev main_v15 : Ref sig .tc := ⟨.hbm, 110, rfl⟩
abbrev main_v16 : Ref sig .tc := ⟨.hbm, 111, rfl⟩
abbrev main_v17 : Ref sig .tc := ⟨.hbm, 112, rfl⟩
abbrev main_v18 : Ref sig .tc := ⟨.hbm, 113, rfl⟩
abbrev main_v19 : Ref sig .tc := ⟨.hbm, 114, rfl⟩
abbrev main_v20 : Ref sig .tc := ⟨.hbm, 115, rfl⟩
abbrev main_call3_c : Ref sig .tc := ⟨.hbm, 116, rfl⟩
abbrev main_call3_v0 : Ref sig .tc := ⟨.hbm, 117, rfl⟩
abbrev main_call3_v1 : Ref sig .tc := ⟨.hbm, 118, rfl⟩
abbrev main_call3_c_0 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_v5 : Ref sig .tc := ⟨.hbm, 123, rfl⟩
abbrev main_call3_c_1 : Ref sig .tc := ⟨.hbm, 124, rfl⟩
abbrev main_call3_c_2 : Ref sig .tc := ⟨.hbm, 125, rfl⟩
abbrev main_call3_v6 : Ref sig .tc := ⟨.hbm, 126, rfl⟩
abbrev main_call3_v7 : Ref sig .tc := ⟨.hbm, 127, rfl⟩
abbrev main_call3_v8 : Ref sig .tc := ⟨.hbm, 128, rfl⟩
abbrev main_call3_v9 : Ref sig .tc := ⟨.hbm, 129, rfl⟩
abbrev main_call3_v10 : Ref sig .tc := ⟨.hbm, 130, rfl⟩
abbrev main_call3_v11 : Ref sig .tc := ⟨.hbm, 131, rfl⟩
abbrev main_call3_c_3 : Ref sig .tc := ⟨.hbm, 132, rfl⟩
abbrev main_call3_v12 : Ref sig .tc := ⟨.hbm, 133, rfl⟩
abbrev main_call3_v13 : Ref sig .tc := ⟨.hbm, 134, rfl⟩
abbrev main_call3_v14 : Ref sig .tc := ⟨.hbm, 135, rfl⟩
abbrev main_call3_cst : Ref sig .tc := ⟨.hbm, 136, rfl⟩
abbrev main_call3_v15 : Ref sig .tc := ⟨.hbm, 137, rfl⟩
abbrev main_v21 : Ref sig .tc := ⟨.hbm, 138, rfl⟩
abbrev main_cst_2 : Ref sig .tc := ⟨.hbm, 139, rfl⟩
abbrev main_v22 : Ref sig .tc := ⟨.hbm, 140, rfl⟩
abbrev main_v23 : Ref sig .tc := ⟨.hbm, 141, rfl⟩
abbrev main_v24 : Ref sig .tc := ⟨.hbm, 142, rfl⟩
abbrev main_cst_3 : Ref sig .tc := ⟨.hbm, 143, rfl⟩
abbrev main_v25 : Ref sig .tc := ⟨.hbm, 144, rfl⟩
abbrev main_cst_4 : Ref sig .tc := ⟨.hbm, 145, rfl⟩
abbrev main_v26 : Ref sig .tc := ⟨.hbm, 146, rfl⟩
abbrev main_v27 : Ref sig .tc := ⟨.hbm, 147, rfl⟩
abbrev main_v28 : Ref sig .tc := ⟨.hbm, 148, rfl⟩
abbrev main_v29 : Ref sig .tc := ⟨.hbm, 149, rfl⟩
abbrev main_v30 : Ref sig .tc := ⟨.hbm, 150, rfl⟩
abbrev main_v31 : Ref sig .tc := ⟨.hbm, 151, rfl⟩
abbrev main_v32 : Ref sig .tc := ⟨.hbm, 152, rfl⟩
abbrev main_v33 : Ref sig .tc := ⟨.hbm, 153, rfl⟩
abbrev main_call4_c : Ref sig .tc := ⟨.hbm, 154, rfl⟩
abbrev main_call4_v0 : Ref sig .tc := ⟨.hbm, 155, rfl⟩
abbrev main_call4_v1 : Ref sig .tc := ⟨.hbm, 156, rfl⟩
abbrev main_call4_c_0 : Ref sig .tc := ⟨.hbm, 157, rfl⟩
abbrev main_call4_v2 : Ref sig .tc := ⟨.hbm, 158, rfl⟩
abbrev main_call4_v3 : Ref sig .tc := ⟨.hbm, 159, rfl⟩
abbrev main_call4_v4 : Ref sig .tc := ⟨.hbm, 160, rfl⟩
abbrev main_call4_v5 : Ref sig .tc := ⟨.hbm, 161, rfl⟩
abbrev main_call4_c_1 : Ref sig .tc := ⟨.hbm, 162, rfl⟩
abbrev main_call4_c_2 : Ref sig .tc := ⟨.hbm, 163, rfl⟩
abbrev main_call4_v6 : Ref sig .tc := ⟨.hbm, 164, rfl⟩
abbrev main_call4_v7 : Ref sig .tc := ⟨.hbm, 165, rfl⟩
abbrev main_call4_v8 : Ref sig .tc := ⟨.hbm, 166, rfl⟩
abbrev main_call4_v9 : Ref sig .tc := ⟨.hbm, 167, rfl⟩
abbrev main_call4_v10 : Ref sig .tc := ⟨.hbm, 168, rfl⟩
abbrev main_call4_v11 : Ref sig .tc := ⟨.hbm, 169, rfl⟩
abbrev main_call4_c_3 : Ref sig .tc := ⟨.hbm, 170, rfl⟩
abbrev main_call4_v12 : Ref sig .tc := ⟨.hbm, 171, rfl⟩
abbrev main_call4_v13 : Ref sig .tc := ⟨.hbm, 172, rfl⟩
abbrev main_call4_v14 : Ref sig .tc := ⟨.hbm, 173, rfl⟩
abbrev main_call4_cst : Ref sig .tc := ⟨.hbm, 174, rfl⟩
abbrev main_call4_v15 : Ref sig .tc := ⟨.hbm, 175, rfl⟩
abbrev main_v34 : Ref sig .tc := ⟨.hbm, 176, rfl⟩
abbrev main_cst_5 : Ref sig .tc := ⟨.hbm, 177, rfl⟩
abbrev main_v35 : Ref sig .tc := ⟨.hbm, 178, rfl⟩
abbrev main_v36 : Ref sig .tc := ⟨.hbm, 179, rfl⟩
abbrev main_v37 : Ref sig .tc := ⟨.hbm, 180, rfl⟩
abbrev main_cst_6 : Ref sig .tc := ⟨.hbm, 181, rfl⟩
abbrev main_v38 : Ref sig .tc := ⟨.hbm, 182, rfl⟩
abbrev main_cst_7 : Ref sig .tc := ⟨.hbm, 183, rfl⟩
abbrev main_v39 : Ref sig .tc := ⟨.hbm, 184, rfl⟩
abbrev main_v40 : Ref sig .tc := ⟨.hbm, 185, rfl⟩
abbrev main_v41 : Ref sig .tc := ⟨.hbm, 186, rfl⟩
abbrev main_v42 : Ref sig .tc := ⟨.hbm, 187, rfl⟩
abbrev main_v43 : Ref sig .tc := ⟨.hbm, 188, rfl⟩
abbrev main_v44 : Ref sig .tc := ⟨.hbm, 189, rfl⟩
abbrev main_v45 : Ref sig .tc := ⟨.hbm, 190, rfl⟩
abbrev main_v46 : Ref sig .tc := ⟨.hbm, 191, rfl⟩
abbrev main_call5_c : Ref sig .tc := ⟨.hbm, 192, rfl⟩
abbrev main_call5_v0 : Ref sig .tc := ⟨.hbm, 193, rfl⟩
abbrev main_call5_v1 : Ref sig .tc := ⟨.hbm, 194, rfl⟩
abbrev main_call5_c_0 : Ref sig .tc := ⟨.hbm, 195, rfl⟩
abbrev main_call5_v2 : Ref sig .tc := ⟨.hbm, 196, rfl⟩
abbrev main_call5_v3 : Ref sig .tc := ⟨.hbm, 197, rfl⟩
abbrev main_call5_v4 : Ref sig .tc := ⟨.hbm, 198, rfl⟩
abbrev main_call5_v5 : Ref sig .tc := ⟨.hbm, 199, rfl⟩
abbrev main_call5_c_1 : Ref sig .tc := ⟨.hbm, 200, rfl⟩
abbrev main_call5_c_2 : Ref sig .tc := ⟨.hbm, 201, rfl⟩
abbrev main_call5_v6 : Ref sig .tc := ⟨.hbm, 202, rfl⟩
abbrev main_call5_v7 : Ref sig .tc := ⟨.hbm, 203, rfl⟩
abbrev main_call5_v8 : Ref sig .tc := ⟨.hbm, 204, rfl⟩
abbrev main_call5_v9 : Ref sig .tc := ⟨.hbm, 205, rfl⟩
abbrev main_call5_v10 : Ref sig .tc := ⟨.hbm, 206, rfl⟩
abbrev main_call5_v11 : Ref sig .tc := ⟨.hbm, 207, rfl⟩
abbrev main_call5_c_3 : Ref sig .tc := ⟨.hbm, 208, rfl⟩
abbrev main_call5_v12 : Ref sig .tc := ⟨.hbm, 209, rfl⟩
abbrev main_call5_v13 : Ref sig .tc := ⟨.hbm, 210, rfl⟩
abbrev main_call5_v14 : Ref sig .tc := ⟨.hbm, 211, rfl⟩
abbrev main_call5_cst : Ref sig .tc := ⟨.hbm, 212, rfl⟩
abbrev main_call5_v15 : Ref sig .tc := ⟨.hbm, 213, rfl⟩
abbrev main_v47 : Ref sig .tc := ⟨.hbm, 214, rfl⟩
abbrev main_cst_8 : Ref sig .tc := ⟨.hbm, 215, rfl⟩
abbrev main_v48 : Ref sig .tc := ⟨.hbm, 216, rfl⟩
abbrev main_v49 : Ref sig .tc := ⟨.hbm, 217, rfl⟩
abbrev main_v50 : Ref sig .tc := ⟨.hbm, 218, rfl⟩
abbrev main_cst_9 : Ref sig .tc := ⟨.hbm, 219, rfl⟩
abbrev main_v51 : Ref sig .tc := ⟨.hbm, 220, rfl⟩
abbrev main_cst_10 : Ref sig .tc := ⟨.hbm, 221, rfl⟩
abbrev main_v52 : Ref sig .tc := ⟨.hbm, 222, rfl⟩
abbrev main_v53 : Ref sig .tc := ⟨.hbm, 223, rfl⟩
abbrev main_v54 : Ref sig .tc := ⟨.hbm, 224, rfl⟩
abbrev main_v55 : Ref sig .tc := ⟨.hbm, 225, rfl⟩
abbrev main_v56 : Ref sig .tc := ⟨.hbm, 226, rfl⟩
abbrev main_v57 : Ref sig .tc := ⟨.hbm, 227, rfl⟩
abbrev main_v58 : Ref sig .tc := ⟨.hbm, 228, rfl⟩
abbrev main_v59 : Ref sig .tc := ⟨.hbm, 229, rfl⟩
abbrev main_call6_c : Ref sig .tc := ⟨.hbm, 230, rfl⟩
abbrev main_call6_v0 : Ref sig .tc := ⟨.hbm, 231, rfl⟩
abbrev main_call6_v1 : Ref sig .tc := ⟨.hbm, 232, rfl⟩
abbrev main_call6_c_0 : Ref sig .tc := ⟨.hbm, 233, rfl⟩
abbrev main_call6_v2 : Ref sig .tc := ⟨.hbm, 234, rfl⟩
abbrev main_call6_v3 : Ref sig .tc := ⟨.hbm, 235, rfl⟩
abbrev main_call6_v4 : Ref sig .tc := ⟨.hbm, 236, rfl⟩
abbrev main_call6_v5 : Ref sig .tc := ⟨.hbm, 237, rfl⟩
abbrev main_call6_c_1 : Ref sig .tc := ⟨.hbm, 238, rfl⟩
abbrev main_call6_c_2 : Ref sig .tc := ⟨.hbm, 239, rfl⟩
abbrev main_call6_v6 : Ref sig .tc := ⟨.hbm, 240, rfl⟩
abbrev main_call6_v7 : Ref sig .tc := ⟨.hbm, 241, rfl⟩
abbrev main_call6_v8 : Ref sig .tc := ⟨.hbm, 242, rfl⟩
abbrev main_call6_v9 : Ref sig .tc := ⟨.hbm, 243, rfl⟩
abbrev main_call6_v10 : Ref sig .tc := ⟨.hbm, 244, rfl⟩
abbrev main_call6_v11 : Ref sig .tc := ⟨.hbm, 245, rfl⟩
abbrev main_call6_c_3 : Ref sig .tc := ⟨.hbm, 246, rfl⟩
abbrev main_call6_v12 : Ref sig .tc := ⟨.hbm, 247, rfl⟩
abbrev main_call6_v13 : Ref sig .tc := ⟨.hbm, 248, rfl⟩
abbrev main_call6_v14 : Ref sig .tc := ⟨.hbm, 249, rfl⟩
abbrev main_call6_cst : Ref sig .tc := ⟨.hbm, 250, rfl⟩
abbrev main_call6_v15 : Ref sig .tc := ⟨.hbm, 251, rfl⟩
abbrev main_v60 : Ref sig .tc := ⟨.hbm, 252, rfl⟩
abbrev main_call7_c : Ref sig .tc := ⟨.hbm, 253, rfl⟩
abbrev main_call7_v0 : Ref sig .tc := ⟨.hbm, 254, rfl⟩
abbrev main_call7_v1 : Ref sig .tc := ⟨.hbm, 255, rfl⟩
abbrev main_call7_c_0 : Ref sig .tc := ⟨.hbm, 256, rfl⟩
abbrev main_call7_v2 : Ref sig .tc := ⟨.hbm, 257, rfl⟩
abbrev main_call7_v3 : Ref sig .tc := ⟨.hbm, 258, rfl⟩
abbrev main_call7_v4 : Ref sig .tc := ⟨.hbm, 259, rfl⟩
abbrev main_call7_v5 : Ref sig .tc := ⟨.hbm, 260, rfl⟩
abbrev main_call7_c_1 : Ref sig .tc := ⟨.hbm, 261, rfl⟩
abbrev main_call7_c_2 : Ref sig .tc := ⟨.hbm, 262, rfl⟩
abbrev main_call7_v6 : Ref sig .tc := ⟨.hbm, 263, rfl⟩
abbrev main_call7_v7 : Ref sig .tc := ⟨.hbm, 264, rfl⟩
abbrev main_call7_v8 : Ref sig .tc := ⟨.hbm, 265, rfl⟩
abbrev main_call7_v9 : Ref sig .tc := ⟨.hbm, 266, rfl⟩
abbrev main_call7_v10 : Ref sig .tc := ⟨.hbm, 267, rfl⟩
abbrev main_call7_v11 : Ref sig .tc := ⟨.hbm, 268, rfl⟩
abbrev main_call7_c_3 : Ref sig .tc := ⟨.hbm, 269, rfl⟩
abbrev main_call7_v12 : Ref sig .tc := ⟨.hbm, 270, rfl⟩
abbrev main_call7_v13 : Ref sig .tc := ⟨.hbm, 271, rfl⟩
abbrev main_call7_v14 : Ref sig .tc := ⟨.hbm, 272, rfl⟩
abbrev main_call7_cst : Ref sig .tc := ⟨.hbm, 273, rfl⟩
abbrev main_call7_v15 : Ref sig .tc := ⟨.hbm, 274, rfl⟩
abbrev main_v61 : Ref sig .tc := ⟨.hbm, 275, rfl⟩
abbrev main_v62 : Ref sig .tc := ⟨.hbm, 276, rfl⟩
abbrev main_v63 : Ref sig .tc := ⟨.hbm, 277, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg6_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg2_1 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg6_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg2_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem6_1 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem2_1 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem6_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x128_0 : S200000.BroadcastsInDim S200000x128 (![0] : Fin 1 → Fin S200000x128.rank)
  bcast_S_S200000x128 : S_.BroadcastsInDim S200000x128 (![] : Fin 0 → Fin S200000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1x1_S50000x1_0_1 : S1x1.BroadcastsInDim S50000x1 (![0, 1] : Fin 2 → Fin S50000x1.rank)
  reducesTo_S50000x1_S50000_d1 : S50000x1.ReducesTo [1] S50000
  bcast_S50000_S50000x128_0 : S50000.BroadcastsInDim S50000x128 (![0] : Fin 1 → Fin S50000x128.rank)
  bcast_S_S50000x128 : S_.BroadcastsInDim S50000x128 (![] : Fin 0 → Fin S50000x128.rank)
  transposes_S128x32_S32x128_1_0 : S128x32.Transposes [1, 0] S32x128
  bcast_S128_S1x128_1 : S128.BroadcastsInDim S1x128 (![1] : Fin 1 → Fin S1x128.rank)
  inb_S4000x32_S4000x32_0_0 : ∀ a, (![0, 0] : Fin 2 → Nat) a + S4000x32.size a ≤ S4000x32.size a
  h_S4000x32 : 0 < S4000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  transposes_S128x64_S64x128_1_0 : S128x64.Transposes [1, 0] S64x128
  inb_S2000x64_S2000x64_0_0 : ∀ a, (![0, 0] : Fin 2 → Nat) a + S2000x64.size a ≤ S2000x64.size a
  h_S2000x64 : 0 < S2000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1x1_S600000x1_0_1 : S1x1.BroadcastsInDim S600000x1 (![0, 1] : Fin 2 → Fin S600000x1.rank)
  reducesTo_S600000x1_S600000_d1 : S600000x1.ReducesTo [1] S600000
  bcast_S600000_S600000x128_0 : S600000.BroadcastsInDim S600000x128 (![0] : Fin 1 → Fin S600000x128.rank)
  bcast_S_S600000x128 : S_.BroadcastsInDim S600000x128 (![] : Fin 0 → Fin S600000x128.rank)
  transposes_S128x128_S128x128_1_0 : S128x128.Transposes [1, 0] S128x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S4000x128_S4000 : S4000x128.Reduces [1] S4000
  shapeCasts_S4000_S4000x1 : S4000.ShapeCasts S4000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  reduces_S2000x128_S2000 : S2000x128.Reduces [1] S2000
  shapeCasts_S2000_S2000x1 : S2000.ShapeCasts S2000x1
  transposes_S64x128_S128x64_1_0 : S64x128.Transposes [1, 0] S128x64
  bcast_S64_S1x64_1 : S64.BroadcastsInDim S1x64 (![1] : Fin 1 → Fin S1x64.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  broadcasts_S1x64_S2000x64 : S1x64.Broadcasts S2000x64
  bcast_S200000_S200000x64_0 : S200000.BroadcastsInDim S200000x64 (![0] : Fin 1 → Fin S200000x64.rank)
  bcast_S_S200000x64 : S_.BroadcastsInDim S200000x64 (![] : Fin 0 → Fin S200000x64.rank)
  shapeCasts_S4000x64_S4000x64 : S4000x64.ShapeCasts S4000x64
  reduces_S4000x64_S4000 : S4000x64.Reduces [1] S4000
  shapeCasts_S200000x1_S200000 : S200000x1.ShapeCasts S200000
  gather_S500000x128_S200000x1_S200000x128_1_0_n_n_0_1_1128_wf : GatherDims.WF S500000x128 S200000x1 S200000x128 [1] [0] [] [0] [] 1 ![1, 128]
  gather_S100000x128_S50000x1_S50000x128_1_0_n_n_0_1_1128_wf : GatherDims.WF S100000x128 S50000x1 S50000x128 [1] [0] [] [0] [] 1 ![1, 128]
  dot_S4000x32_S32x128_S4000x128_1_0_0_1_n_n_wf : DotDims.WF S4000x32 S32x128 S4000x128 [1] [0] [0] [1] [] []
  dot_S2000x64_S64x128_S2000x128_1_0_0_1_n_n_wf : DotDims.WF S2000x64 S64x128 S2000x128 [1] [0] [0] [1] [] []
  gather_S50000x128_S600000x1_S600000x128_1_0_n_n_0_1_1128_wf : GatherDims.WF S50000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  dot_S4000x128_S128x128_S4000x128_1_0_0_1_n_n_wf : DotDims.WF S4000x128 S128x128 S4000x128 [1] [0] [0] [1] [] []
  gather_S200000x128_S600000x1_S600000x128_1_0_n_n_0_1_1128_wf : GatherDims.WF S200000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x128_S2000x128_1_0_0_1_n_n_wf : DotDims.WF S2000x128 S128x128 S2000x128 [1] [0] [0] [1] [] []
  dot_S4000x128_S128x64_S4000x64_1_0_0_1_n_n_wf : DotDims.WF S4000x128 S128x64 S4000x64 [1] [0] [0] [1] [] []
  dot_S2000x128_S128x64_S2000x64_1_0_0_1_n_n_wf : DotDims.WF S2000x128 S128x64 S2000x64 [1] [0] [0] [1] [] []
  gather_S200000x64_S200000x1_S200000x64_1_0_n_n_0_1_164_wf : GatherDims.WF S200000x64 S200000x1 S200000x64 [1] [0] [] [0] [] 1 ![1, 64]
  gather_S50000x64_S200000x1_S200000x64_1_0_n_n_0_1_164_wf : GatherDims.WF S50000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S200000x32.size a
  hwx0_0 : ∀ i : grid0.Coords, EltTy.bits .f32 = 32 ∨ (Rect.block (s := S200000x32) S4000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S200000x128.size a
  hwx0_1 : ∀ i : grid0.Coords, EltTy.bits .f32 = 32 ∨ (Rect.block (s := S200000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S200000x128.size a
  hwx0_4 : ∀ i : grid0.Coords, EltTy.bits .f32 = 32 ∨ (Rect.block (s := S200000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S200000x128.size a
  hwx2_0 : ∀ i : grid2.Coords, EltTy.bits .f32 = 32 ∨ (Rect.block (s := S200000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S200000x1.size a
  hwx2_1 : ∀ i : grid2.Coords, EltTy.bits .f32 = 32 ∨ (Rect.block (s := S200000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S200000x128.size a
  hwx2_2 : ∀ i : grid2.Coords, EltTy.bits .f32 = 32 ∨ (Rect.block (s := S200000x128) S4000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S200000x128.size a
  hwx2_6 : ∀ i : grid2.Coords, EltTy.bits .f32 = 32 ∨ (Rect.block (s := S200000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S200000x128.size a
  hwx4_0 : ∀ i : grid4.Coords, EltTy.bits .f32 = 32 ∨ (Rect.block (s := S200000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S200000x1.size a
  hwx4_1 : ∀ i : grid4.Coords, EltTy.bits .f32 = 32 ∨ (Rect.block (s := S200000x1) S4000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S200000x128.size a
  hwx4_2 : ∀ i : grid4.Coords, EltTy.bits .f32 = 32 ∨ (Rect.block (s := S200000x128) S4000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x64.size a ≤ S128x64.size a
  hwx4_4 : ∀ i : grid4.Coords, EltTy.bits .f32 = 32 ∨ (Rect.block (s := S128x64) S128x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x64.size a ≤ S200000x64.size a
  hwx4_6 : ∀ i : grid4.Coords, EltTy.bits .f32 = 32 ∨ (Rect.block (s := S200000x64) S4000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x64.size a ≤ S128x64.size a
  hwx5_3 : ∀ i : grid5.Coords, EltTy.bits .f32 = 32 ∨ (Rect.block (s := S128x64) S128x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x64.size a ≤ S128x64.size a
  hwx5_4 : ∀ i : grid5.Coords, EltTy.bits .f32 = 32 ∨ (Rect.block (s := S128x64) S128x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x64.size a ≤ S50000x64.size a
  hwx5_6 : ∀ i : grid5.Coords, EltTy.bits .f32 = 32 ∨ (Rect.block (s := S50000x64) S2000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S200000x64.size a
  hwx6_0 : ∀ i : grid6.Coords, EltTy.bits .f32 = 32 ∨ (Rect.block (s := S200000x64) S4000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x64.size a ≤ S200000x64.size a
  hwx6_1 : ∀ i : grid6.Coords, EltTy.bits .f32 = 32 ∨ (Rect.block (s := S200000x64) S4000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x1.size a ≤ S200000x1.size a
  hwx6_2 : ∀ i : grid6.Coords, EltTy.bits .f32 = 32 ∨ (Rect.block (s := S200000x1) S4000x1.size (cc6_transform_2 i) (hinb6_2 i)).WholeWords (EltTy.packing .f32)

variable [Facts₀]

def gather_S500000x128_S200000x1_S200000x128_1_0_n_n_0_1_1128 : GatherDims S500000x128 S200000x1 S200000x128 where
  offsetDims := [1]
  collapsedSliceDims := [0]
  operandBatchingDims := []
  startIndicesBatchingDims := []
  startIndexMap := [0]
  indexVectorDim := 1
  sliceSizes := ![1, 128]
  wf := gather_S500000x128_S200000x1_S200000x128_1_0_n_n_0_1_1128_wf
def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S200000x64_S200000x1_S200000x64_1_0_n_n_0_1_164 : GatherDims S200000x64 S200000x1 S200000x64 where
  offsetDims := [1]
  collapsedSliceDims := [0]
  operandBatchingDims := []
  startIndicesBatchingDims := []
  startIndexMap := [0]
  indexVectorDim := 1
  sliceSizes := ![1, 64]
  wf := gather_S200000x64_S200000x1_S200000x64_1_0_n_n_0_1_164_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

abbrev win0_0 : Pipeline.Window sig grid0 :=
  Pipeline.Window.ofSpec (Memref.whole main_arg1) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg3) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v11) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v24) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v30) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v31) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v32) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v33) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v37) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v42) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v20) S4000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v43) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v44) S128x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v45) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v46) S4000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v50) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v33) S2000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v56) S128x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v57) S128x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v58) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v59) S2000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v60) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v61) S4000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v62) S4000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S200000 : Shape := ⟨1, ![200000]⟩
abbrev S200000x32 : Shape := ⟨2, ![200000, 32]⟩
abbrev S50000 : Shape := ⟨1, ![50000]⟩
abbrev S50000x64 : Shape := ⟨2, ![50000, 64]⟩
abbrev S600000 : Shape := ⟨1, ![600000]⟩
abbrev S500000x128 : Shape := ⟨2, ![500000, 128]⟩
abbrev S100000x128 : Shape := ⟨2, ![100000, 128]⟩
abbrev S128x32 : Shape := ⟨2, ![128, 32]⟩
abbrev S128 : Shape := ⟨1, ![128]⟩
abbrev S128x64 : Shape := ⟨2, ![128, 64]⟩
abbrev S128x128 : Shape := ⟨2, ![128, 128]⟩
abbrev S64x128 : Shape := ⟨2, ![64, 128]⟩
abbrev S64 : Shape := ⟨1, ![64]⟩
abbrev S_ : Shape := ⟨0, ![]⟩
abbrev S200000x1 : Shape := ⟨2, ![200000, 1]⟩
abbrev S200000x128 : Shape := ⟨2, ![200000, 128]⟩
abbrev S32x128 : Shape := ⟨2, ![32, 128]⟩
abbrev S1x128 : Shape := ⟨2, ![1, 128]⟩
abbrev S50000x1 : Shape := ⟨2, ![50000, 1]⟩
abbrev S50000x128 : Shape := ⟨2, ![50000, 128]⟩
abbrev S600000x1 : Shape := ⟨2, ![600000, 1]⟩
abbrev S600000x128 : Shape := ⟨2, ![600000, 128]⟩
abbrev S200000x64 : Shape := ⟨2, ![200000, 64]⟩
abbrev S1x64 : Shape := ⟨2, ![1, 64]⟩

abbrev nBuf : Space → Nat
  | .hbm => 235
  | .vmem => 0
  | .smem => 0
  | _ => 0

abbrev hbmTy0_0 (i : Nat) : BufTy := match i % 128 with
  | 0 => ⟨S200000, .i32⟩
  | 1 => ⟨S200000x32, .f32⟩
  | 2 => ⟨S50000, .i32⟩
  | 3 => ⟨S50000x64, .f32⟩
  | 4 => ⟨S600000, .i32⟩
  | 5 => ⟨S600000, .i32⟩
  | 6 => ⟨S200000, .i32⟩
  | 7 => ⟨S200000, .i32⟩
  | 8 => ⟨S500000x128, .f32⟩
  | 9 => ⟨S100000x128, .f32⟩
  | 10 => ⟨S128x32, .f32⟩
  | 11 => ⟨S128, .f32⟩
  | 12 => ⟨S128x64, .f32⟩
  | 13 => ⟨S128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S64x128, .f32⟩
  | 21 => ⟨S64, .f32⟩
  | 22 => ⟨S64x128, .f32⟩
  | 23 => ⟨S64x128, .f32⟩
  | 24 => ⟨S64, .f32⟩
  | 25 => ⟨S64x128, .f32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S200000x128, .f32⟩
  | 35 => ⟨S32x128, .f32⟩
  | 36 => ⟨S200000x128, .f32⟩
  | 37 => ⟨S200000x128, .f32⟩
  | 38 => ⟨S1x128, .f32⟩
  | 39 => ⟨S200000x128, .f32⟩
  | 40 => ⟨S200000x128, .f32⟩
  | 41 => ⟨S_, .i32⟩
  | 42 => ⟨S50000, .i32⟩
  | 43 => ⟨S50000, .i1⟩
  | 44 => ⟨S_, .i32⟩
  | 45 => ⟨S50000, .i32⟩
  | 46 => ⟨S50000, .i32⟩
  | 47 => ⟨S50000, .i32⟩
  | 48 => ⟨S50000x1, .i32⟩
  | 49 => ⟨S50000x128, .f32⟩
  | 50 => ⟨S64x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S_, .i32⟩
  | 57 => ⟨S600000, .i32⟩
  | 58 => ⟨S600000, .i1⟩
  | 59 => ⟨S_, .i32⟩
  | 60 => ⟨S600000, .i32⟩
  | 61 => ⟨S600000, .i32⟩
  | 62 => ⟨S600000, .i32⟩
  | 63 => ⟨S600000x1, .i32⟩
  | 64 => ⟨S600000x128, .f32⟩
  | 65 => ⟨S_, .f32⟩
  | 66 => ⟨S200000x128, .f32⟩
  | 67 => ⟨S600000x1, .i32⟩
  | 68 => ⟨S200000x128, .f32⟩
  | 69 => ⟨S_, .f32⟩
  | 70 => ⟨S600000, .f32⟩
  | 71 => ⟨S_, .f32⟩
  | 72 => ⟨S200000, .f32⟩
  | 73 => ⟨S600000x1, .i32⟩
  | 74 => ⟨S200000, .f32⟩
  | 75 => ⟨S_, .f32⟩
  | 76 => ⟨S200000, .f32⟩
  | 77 => ⟨S200000, .f32⟩
  | 78 => ⟨S200000x1, .f32⟩
  | 79 => ⟨S200000x128, .f32⟩
  | 80 => ⟨S200000x128, .f32⟩
  | 81 => ⟨S128x128, .f32⟩
  | 82 => ⟨S200000x128, .f32⟩
  | 83 => ⟨S1x128, .f32⟩
  | 84 => ⟨S200000x128, .f32⟩
  | 85 => ⟨S200000x128, .f32⟩
  | 86 => ⟨S128x128, .f32⟩
  | 87 => ⟨S200000x128, .f32⟩
  | 88 => ⟨S200000x128, .f32⟩
  | 89 => ⟨S200000x128, .f32⟩
  | 90 => ⟨S_, .f32⟩
  | 91 => ⟨S200000, .f32⟩
  | 92 => ⟨S200000x1, .f32⟩
  | 93 => ⟨S200000x1, .f32⟩
  | 94 => ⟨S_, .f32⟩
  | 95 => ⟨S200000x1, .f32⟩
  | 96 => ⟨S200000x1, .f32⟩
  | 97 => ⟨S200000x128, .f32⟩
  | 98 => ⟨S200000x128, .f32⟩
  | 99 => ⟨S_, .f32⟩
  | 100 => ⟨S200000x128, .f32⟩
  | 101 => ⟨S200000x128, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000x128, .f32⟩
  | 111 => ⟨S_, .f32⟩
  | 112 => ⟨S50000x128, .f32⟩
  | 113 => ⟨S600000x1, .i32⟩
  | 114 => ⟨S50000x128, .f32⟩
  | 115 => ⟨S_, .f32⟩
  | 116 => ⟨S600000, .f32⟩
  | 117 => ⟨S_, .f32⟩
  | 118 => ⟨S50000, .f32⟩
  | 119 => ⟨S600000x1, .i32⟩
  | 120 => ⟨S50000, .f32⟩
  | 121 => ⟨S_, .f32⟩
  | 122 => ⟨S50000, .f32⟩
  | 123 => ⟨S50000, .f32⟩
  | 124 => ⟨S50000x1, .f32⟩
  | 125 => ⟨S50000x128, .f32⟩
  | 126 => ⟨S50000x128, .f32⟩
  | 127 => ⟨S128x128, .f32⟩
  | _ => ⟨S200000, .i32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S128x128, .f32⟩
  | 5 => ⟨S50000x128, .f32⟩
  | 6 => ⟨S50000x128, .f32⟩
  | 7 => ⟨S50000x128, .f32⟩
  | 8 => ⟨S_, .f32⟩
  | 9 => ⟨S50000, .f32⟩
  | 10 => ⟨S50000x1, .f32⟩
  | 11 => ⟨S50000x1, .f32⟩
  | 12 => ⟨S_, .f32⟩
  | 13 => ⟨S50000x1, .f32⟩
  | 14 => ⟨S50000x1, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x128, .f32⟩
  | 29 => ⟨S_, .f32⟩
  | 30 => ⟨S200000x128, .f32⟩
  | 31 => ⟨S600000x1, .i32⟩
  | 32 => ⟨S200000x128, .f32⟩
  | 33 => ⟨S_, .f32⟩
  | 34 => ⟨S600000, .f32⟩
  | 35 => ⟨S_, .f32⟩
  | 36 => ⟨S200000, .f32⟩
  | 37 => ⟨S600000x1, .i32⟩
  | 38 => ⟨S200000, .f32⟩
  | 39 => ⟨S_, .f32⟩
  | 40 => ⟨S200000, .f32⟩
  | 41 => ⟨S200000, .f32⟩
  | 42 => ⟨S200000x1, .f32⟩
  | 43 => ⟨S200000x128, .f32⟩
  | 44 => ⟨S200000x128, .f32⟩
  | 45 => ⟨S128x64, .f32⟩
  | 46 => ⟨S200000x64, .f32⟩
  | 47 => ⟨S1x64, .f32⟩
  | 48 => ⟨S200000x64, .f32⟩
  | 49 => ⟨S200000x64, .f32⟩
  | 50 => ⟨S128x64, .f32⟩
  | 51 => ⟨S200000x64, .f32⟩
  | 52 => ⟨S200000x64, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S_, .f32⟩
  | 63 => ⟨S50000x128, .f32⟩
  | 64 => ⟨S600000x1, .i32⟩
  | 65 => ⟨S50000x128, .f32⟩
  | 66 => ⟨S_, .f32⟩
  | 67 => ⟨S600000, .f32⟩
  | 68 => ⟨S_, .f32⟩
  | 69 => ⟨S50000, .f32⟩
  | 70 => ⟨S600000x1, .i32⟩
  | 71 => ⟨S50000, .f32⟩
  | 72 => ⟨S_, .f32⟩
  | 73 => ⟨S50000, .f32⟩
  | 74 => ⟨S50000, .f32⟩
  | 75 => ⟨S50000x1, .f32⟩
  | 76 => ⟨S50000x128, .f32⟩
  | 77 => ⟨S50000x128, .f32⟩
  | 78 => ⟨S128x64, .f32⟩
  | 79 => ⟨S50000x64, .f32⟩
  | 80 => ⟨S1x64, .f32⟩
  | 81 => ⟨S50000x64, .f32⟩
  | 82 => ⟨S50000x64, .f32⟩
  | 83 => ⟨S128x64, .f32⟩
  | 84 => ⟨S50000x64, .f32⟩
  | 85 => ⟨S50000x64, .f32⟩
  | 86 => ⟨S_, .i32⟩
  | 87 => ⟨S200000, .i32⟩
  | 88 => ⟨S200000, .i1⟩
  | 89 => ⟨S_, .i32⟩
  | 90 => ⟨S200000, .i32⟩
  | 91 => ⟨S200000, .i32⟩
  | 92 => ⟨S200000, .i32⟩
  | 93 => ⟨S200000x1, .i32⟩
  | 94 => ⟨S200000x64, .f32⟩
  | 95 => ⟨S_, .i32⟩
  | 96 => ⟨S200000, .i32⟩
  | 97 => ⟨S200000, .i1⟩
  | 98 => ⟨S_, .i32⟩
  | 99 => ⟨S200000, .i32⟩
  | 100 => ⟨S200000, .i32⟩
  | 101 => ⟨S200000, .i32⟩
  | 102 => ⟨S200000x1, .i32⟩
  | 103 => ⟨S200000x64, .f32⟩
  | 104 => ⟨S200000x64, .f32⟩
  | 105 => ⟨S_, .f32⟩
  | 106 => ⟨S200000, .f32⟩
  | _ => ⟨S200000, .i32⟩

abbrev hbmTy (i : Nat) : BufTy := match i / 128 with
  | 0 => hbmTy0_0 i
  | 1 => hbmTy0_1 i
  | _ => ⟨S200000, .i32⟩

abbrev bufTy : (tb : Table) → Fin (tcTables nBuf tb) → BufTy
  | .hbm, ⟨i, _⟩ => hbmTy i
  | _, _ => ⟨S200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_1 : Ref sig .tc := ⟨.hbm, 41, rfl⟩
abbrev main_v13 : Ref sig .tc := ⟨.hbm, 42, rfl⟩
abbrev main_v14 : Ref sig .tc := ⟨.hbm, 43, rfl⟩
abbrev main_c_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_3 : Ref sig .tc := ⟨.hbm, 56, rfl⟩
abbrev main_v26 : Ref sig .tc := ⟨.hbm, 57, rfl⟩
abbrev main_v27 : Ref sig .tc := ⟨.hbm, 58, rfl⟩
abbrev main_c_4 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_5 : Ref sig .tc := ⟨.hbm, 69, rfl⟩
abbrev main_v36 : Ref sig .tc := ⟨.hbm, 70, rfl⟩
abbrev main_cst_6 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_7 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_call0_v0 : Ref sig .tc := ⟨.hbm, 89, rfl⟩
abbrev main_call0_cst : Ref sig .tc := ⟨.hbm, 90, rfl⟩
abbrev main_call0_v1 : Ref sig .tc := ⟨.hbm, 91, rfl⟩
abbrev main_call0_v2 : Ref sig .tc := ⟨.hbm, 92, rfl⟩
abbrev main_v53 : Ref sig .tc := ⟨.hbm, 93, rfl⟩
abbrev main_cst_8 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_call1_cst : Ref sig .tc := ⟨.hbm, 99, rfl⟩
abbrev main_call1_v0 : Ref sig .tc := ⟨.hbm, 100, rfl⟩
abbrev main_v58 : Ref sig .tc := ⟨.hbm, 101, rfl⟩
abbrev main_c_9 : Ref sig .tc := ⟨.hbm, 102, rfl⟩
abbrev main_v59 : Ref sig .tc := ⟨.hbm, 103, rfl⟩
abbrev main_v60 : Ref sig .tc := ⟨.hbm, 104, rfl⟩
abbrev main_c_10 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_11 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_12 : Ref sig .tc := ⟨.hbm, 115, rfl⟩
abbrev main_v69 : Ref sig .tc := ⟨.hbm, 116, rfl⟩
abbrev main_cst_13 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_14 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_call2_v0 : Ref sig .tc := ⟨.hbm, 135, rfl⟩
abbrev main_call2_cst : Ref sig .tc := ⟨.hbm, 136, rfl⟩
abbrev main_call2_v1 : Ref sig .tc := ⟨.hbm, 137, rfl⟩
abbrev main_call2_v2 : Ref sig .tc := ⟨.hbm, 138, rfl⟩
abbrev main_v86 : Ref sig .tc := ⟨.hbm, 139, rfl⟩
abbrev main_cst_15 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_call3_cst : Ref sig .tc := ⟨.hbm, 145, rfl⟩
abbrev main_call3_v0 : Ref sig .tc := ⟨.hbm, 146, rfl⟩
abbrev main_v91 : Ref sig .tc := ⟨.hbm, 147, rfl⟩
abbrev main_c_16 : Ref sig .tc := ⟨.hbm, 148, rfl⟩
abbrev main_v92 : Ref sig .tc := ⟨.hbm, 149, rfl⟩
abbrev main_v93 : Ref sig .tc := ⟨.hbm, 150, rfl⟩
abbrev main_c_17 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_cst_18 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_cst_19 : Ref sig .tc := ⟨.hbm, 161, rfl⟩
abbrev main_v102 : Ref sig .tc := ⟨.hbm, 162, rfl⟩
abbrev main_cst_20 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_cst_21 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_c_22 : Ref sig .tc := ⟨.hbm, 181, rfl⟩
abbrev main_v119 : Ref sig .tc := ⟨.hbm, 182, rfl⟩
abbrev main_v120 : Ref sig .tc := ⟨.hbm, 183, rfl⟩
abbrev main_c_23 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_cst_24 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_cst_25 : Ref sig .tc := ⟨.hbm, 194, rfl⟩
abbrev main_v129 : Ref sig .tc := ⟨.hbm, 195, rfl⟩
abbrev main_cst_26 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_cst_27 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_c_28 : Ref sig .tc := ⟨.hbm, 214, rfl⟩
abbrev main_v146 : Ref sig .tc := ⟨.hbm, 215, rfl⟩
abbrev main_v147 : Ref sig .tc := ⟨.hbm, 216, rfl⟩
abbrev main_c_29 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_c_30 : Ref sig .tc := ⟨.hbm, 223, rfl⟩
abbrev main_v153 : Ref sig .tc := ⟨.hbm, 224, rfl⟩
abbrev main_v154 : Ref sig .tc := ⟨.hbm, 225, rfl⟩
abbrev main_c_31 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_cst_32 : Ref sig .tc := ⟨.hbm, 233, rfl⟩
abbrev main_v161 : Ref sig .tc := ⟨.hbm, 234, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  transposes_S128x32_S32x128_1_0 : S128x32.Transposes [1, 0] S32x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S50000 : S_.BroadcastsInDim S50000 (![] : Fin 0 → Fin S50000.rank)
  bcast_S50000_S50000x1_0 : S50000.BroadcastsInDim S50000x1 (![0] : Fin 1 → Fin S50000x1.rank)
  transposes_S128x64_S64x128_1_0 : S128x64.Transposes [1, 0] S64x128
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  transposes_S128x128_S128x128_1_0 : S128x128.Transposes [1, 0] S128x128
  reducesTo_S200000x128_S200000_d1 : S200000x128.ReducesTo [1] S200000
  h_S_ : 0 < S_.numel
  bcast_S_S200000x1 : S_.BroadcastsInDim S200000x1 (![] : Fin 0 → Fin S200000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  reducesTo_S50000x128_S50000_d1 : S50000x128.ReducesTo [1] S50000
  bcast_S_S50000x1 : S_.BroadcastsInDim S50000x1 (![] : Fin 0 → Fin S50000x1.rank)
  transposes_S64x128_S128x64_1_0 : S64x128.Transposes [1, 0] S128x64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S1x64_S50000x64_0_1 : S1x64.BroadcastsInDim S50000x64 (![0, 1] : Fin 2 → Fin S50000x64.rank)
  reducesTo_S200000x64_S200000_d1 : S200000x64.ReducesTo [1] S200000
  gather_S500000x128_S200000x1_S200000x128_1_0_n_n_0_1_1128_wf : GatherDims.WF S500000x128 S200000x1 S200000x128 [1] [0] [] [0] [] 1 ![1, 128]
  dot_S200000x32_S32x128_S200000x128_1_0_0_1_n_n_wf : DotDims.WF S200000x32 S32x128 S200000x128 [1] [0] [0] [1] [] []
  gather_S100000x128_S50000x1_S50000x128_1_0_n_n_0_1_1128_wf : GatherDims.WF S100000x128 S50000x1 S50000x128 [1] [0] [] [0] [] 1 ![1, 128]
  dot_S50000x64_S64x128_S50000x128_1_0_0_1_n_n_wf : DotDims.WF S50000x64 S64x128 S50000x128 [1] [0] [0] [1] [] []
  gather_S50000x128_S600000x1_S600000x128_1_0_n_n_0_1_1128_wf : GatherDims.WF S50000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  dot_S200000x128_S128x128_S200000x128_1_0_0_1_n_n_wf : DotDims.WF S200000x128 S128x128 S200000x128 [1] [0] [0] [1] [] []
  gather_S200000x128_S600000x1_S600000x128_1_0_n_n_0_1_1128_wf : GatherDims.WF S200000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S200000x128_S128x64_S200000x64_1_0_0_1_n_n_wf : DotDims.WF S200000x128 S128x64 S200000x64 [1] [0] [0] [1] [] []
  dot_S50000x128_S128x64_S50000x64_1_0_0_1_n_n_wf : DotDims.WF S50000x128 S128x64 S50000x64 [1] [0] [0] [1] [] []
  gather_S200000x64_S200000x1_S200000x64_1_0_n_n_0_1_164_wf : GatherDims.WF S200000x64 S200000x1 S200000x64 [1] [0] [] [0] [] 1 ![1, 64]
  gather_S50000x64_S200000x1_S200000x64_1_0_n_n_0_1_164_wf : GatherDims.WF S50000x64 S200000x1 S200000x64 [1] [0] [] [0] [] 1 ![1, 64]

variable [Facts₀]

def gather_S500000x128_S200000x1_S200000x128_1_0_n_n_0_1_1128 : GatherDims S500000x128 S200000x1 S200000x128 where
  offsetDims := [1]
  collapsedSliceDims := [0]
  operandBatchingDims := []
  startIndicesBatchingDims := []
  startIndexMap := [0]
  indexVectorDim := 1
  sliceSizes := ![1, 128]
  wf := gather_S500000x128_S200000x1_S200000x128_1_0_n_n_0_1_1128_wf
def dot_S200000x32_S32x128_S200000x128_1_0_0_1_n_n : DotDims S200000x32 S32x128 S200000x128 where
  lhsContracting := [1]
  rhsContracting := [0]
  lhsNonContracting := [0]
  rhsNonContracting := [1]
  lhsBatch := []
  rhsBatch := []
  wf := dot_S200000x32_S32x128_S200000x128_1_0_0_1_n_n_wf
def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S200000x64_S200000x1_S200000x64_1_0_n_n_0_1_164 : GatherDims S200000x64 S200000x1 S200000x64 where
  offsetDims := [1]
  collapsedSliceDims := [0]
  operandBatchingDims := []
  startIndicesBatchingDims := []
  startIndexMap := [0]
  indexVectorDim := 1
  sliceSizes := ![1, 64]
  wf := gather_S200000x64_S200000x1_S200000x64_1_0_n_n_0_1_164_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

class Facts : Prop extends Facts₀ where

variable [Facts]
-- ==== Proof.Range.lean ====
/-
  An index array is IN RANGE of an axis of extent N when every index word, read signed, lies in [0, N).
-/
import Idealize.ShloMosaic.PureOps.Ideal
import Idealize.ShloMosaic.Lib.ValueIdx

namespace Cert.Range

open Idealize.ShloMosaic Idealize.ShloMosaic.ValueIdx

/-- Every index word of a one-axis index array, read signed, lies in [0, N). -/
def InRange {M : Nat} (idx : IVec (⟨1, ![M]⟩ : Shape) 32) (N : Nat) : Prop :=
  ∀ e : Fin M, 0 ≤ (idx (ix1 e)).toInt ∧ (idx (ix1 e)).toInt < (N : ℤ)

end Cert.Range
-- ==== Proof.PreRange.lean ====
/-
  The precondition of this certificate is a conjunction of one-bit words; its last twelve conjuncts say, of
  each of the six index arrays, that every word read signed is at least 0 and below the extent of the axis
  it indexes. This module reads them back: if the conjunction is 1, each index array is in range.
  Laws used: a one-bit and is 1 only if both operands are; a reduction by and over all axes is 1 only if
  every element is; a signed comparison word is 1 exactly when the signed order holds; a broadcast scalar
  reads the scalar at every index.
-/
import proofs.«423856_j90606630076836_1_alg».proof.Pre_finite_inputs
import proofs.«423856_j90606630076836_1_alg».proof.Proof.Range
import Idealize.ShloMosaic.Lib.ReduceAll
import Idealize.ShloMosaic.Lib.StableHlo.Predicate
import Idealize.ShloMosaic.Lib.ValueIdx
import Idealize.ShloMosaic.Lib.ValueLayout
import Idealize.ShloMosaic.PureOps.Ideal

namespace Cert.PreRange

open Idealize.ShloMosaic Idealize.ShloMosaic.ValueIdx
open Cert.Pre_finite_inputs

/-- The rank-0 shape has one index. -/
instance : Subsingleton S_.Idx := ⟨fun a b => funext fun d => d.elim0⟩

/-- "All words of x are ≥ c, signed": the reduce by and of the elementwise signed ≥ against the broadcast
    scalar c is 1 only if every word of x, read signed, is at least c. -/
theorem all_sge {M : Nat} (x : IVec (⟨1, ![M]⟩ : Shape) 32) (c : BitVec 32)
    (hb : S_.BroadcastsInDim (⟨1, ![M]⟩ : Shape) ![])
    (hr : (⟨1, ![M]⟩ : Shape).ReducesTo [0] S_) (h0 : 0 < S_.numel)
    (h : Host.reduce IntOp.andi
          (cmpi .sge x (broadcastInDim (⟨1, ![M]⟩ : Shape) ![] hb (constantI S_ 32 c)))
          (constantI S_ 1 1#1) hr h0 ix0 = 1#1) :
    ∀ e : Fin M, c.toInt ≤ (x (ix1 e)).toInt := by
  intro e
  have h1 := Host.reduce_andi_all _ _ hr h0 ix0 h (ix1 e)
  have h2 : IntOp.cmpi .sge (x (ix1 e))
      (broadcastInDim (⟨1, ![M]⟩ : Shape) ![] hb (constantI S_ 32 c) (ix1 e)) = 1#1 := h1
  rw [StableHlo.Predicate.bcast_scalar hb h0, constantI_apply] at h2
  exact IntOp.cmpi_sge.1 h2

/-- "All words of x are < c, signed". -/
theorem all_slt {M : Nat} (x : IVec (⟨1, ![M]⟩ : Shape) 32) (c : BitVec 32)
    (hb : S_.BroadcastsInDim (⟨1, ![M]⟩ : Shape) ![])
    (hr : (⟨1, ![M]⟩ : Shape).ReducesTo [0] S_) (h0 : 0 < S_.numel)
    (h : Host.reduce IntOp.andi
          (cmpi .slt x (broadcastInDim (⟨1, ![M]⟩ : Shape) ![] hb (constantI S_ 32 c)))
          (constantI S_ 1 1#1) hr h0 ix0 = 1#1) :
    ∀ e : Fin M, (x (ix1 e)).toInt < c.toInt := by
  intro e
  have h1 := Host.reduce_andi_all _ _ hr h0 ix0 h (ix1 e)
  have h2 : IntOp.cmpi .slt (x (ix1 e))
      (broadcastInDim (⟨1, ![M]⟩ : Shape) ![] hb (constantI S_ 32 c) (ix1 e)) = 1#1 := h1
  rw [StableHlo.Predicate.bcast_scalar hb h0, constantI_apply] at h2
  exact IntOp.cmpi_slt.1 h2

/-- A one-bit and that is 1 has both operands 1. -/
theorem and_split (p q : IVec S_ 1) (h : andi p q ix0 = 1#1) : p ix0 = 1#1 ∧ q ix0 = 1#1 :=
  IntOp.andi_eq_one.1 h

variable [Facts] {F : FTy → Type} [FloatOps F]

/-- The last part of the conjunction: it is 1 only if both conjunctions it continues are 1 and
    a6 < 200000, 0 ≤ a7, a7 < 50000 hold at every word. -/
theorem part8 (a6 a7 : IVec S200000 32) (p q : IVec S_ 1)
    (h : fn_part8 (F := F) a6 a7 p q ix0 = 1#1) :
    p ix0 = 1#1 ∧ q ix0 = 1#1 ∧ (∀ e : Fin 200000, (a6 (ix1 e)).toInt < 200000) ∧
      (∀ e : Fin 200000, 0 ≤ (a7 (ix1 e)).toInt) ∧ (∀ e : Fin 200000, (a7 (ix1 e)).toInt < 50000) := by
  dsimp only [fn_part8] at h
  obtain ⟨h, c3⟩ := and_split _ _ h
  obtain ⟨h, c2⟩ := and_split _ _ h
  obtain ⟨h, c1⟩ := and_split _ _ h
  obtain ⟨hp, hq⟩ := and_split _ _ h
  exact ⟨hp, hq, all_slt _ _ _ _ _ c1, all_sge _ _ _ _ _ c2, all_slt _ _ _ _ _ c3⟩

/-- Part 7: it is 1 only if the conjunctions it continues are 1 and a4 < 200000, 0 ≤ a5 < 50000,
    0 ≤ a6 hold at every word, together with what the last part states. -/
theorem part7 (a4 a5 : IVec S600000 32) (a6 a7 : IVec S200000 32) (p q : IVec S_ 1)
    (h : fn_part7 (F := F) a4 a5 a6 a7 p q ix0 = 1#1) :
    p ix0 = 1#1 ∧ q ix0 = 1#1 ∧ (∀ e : Fin 600000, (a4 (ix1 e)).toInt < 200000) ∧
      (∀ e : Fin 600000, 0 ≤ (a5 (ix1 e)).toInt) ∧ (∀ e : Fin 600000, (a5 (ix1 e)).toInt < 50000) ∧
      (∀ e : Fin 200000, 0 ≤ (a6 (ix1 e)).toInt) ∧ (∀ e : Fin 200000, (a6 (ix1 e)).toInt < 200000) ∧
      (∀ e : Fin 200000, 0 ≤ (a7 (ix1 e)).toInt) ∧ (∀ e : Fin 200000, (a7 (ix1 e)).toInt < 50000) := by
  dsimp only [fn_part7] at h
  obtain ⟨h130, h133, c5, c6, c7⟩ := part8 _ _ _ _ h
  obtain ⟨h, c3⟩ := and_split _ _ h130
  obtain ⟨h, c2⟩ := and_split _ _ h
  obtain ⟨h, c1⟩ := and_split _ _ h
  obtain ⟨hp, hq⟩ := and_split _ _ h
  exact ⟨hp, hq, all_slt _ _ _ _ _ c1, all_sge _ _ _ _ _ c2, all_slt _ _ _ _ _ c3,
    all_sge _ _ _ _ _ h133, c5, c6, c7⟩

/-- Part 6: it is 1 only if the conjunctions it continues are 1 and a0 < 500000, 0 ≤ a2 < 100000,
    0 ≤ a4 hold at every word, together with what the later parts state. -/
theorem part6 (a0 : IVec S200000 32) (a2 : IVec S50000 32) (a4 a5 : IVec S600000 32)
    (a6 a7 : IVec S200000 32) (p q : IVec S_ 1)
    (h : fn_part6 (F := F) a0 a2 a4 a5 a6 a7 p q ix0 = 1#1) :
    p ix0 = 1#1 ∧ q ix0 = 1#1 ∧ (∀ e : Fin 200000, (a0 (ix1 e)).toInt < 500000) ∧
      (∀ e : Fin 50000, 0 ≤ (a2 (ix1 e)).toInt) ∧ (∀ e : Fin 50000, (a2 (ix1 e)).toInt < 100000) ∧
      (∀ e : Fin 600000, 0 ≤ (a4 (ix1 e)).toInt) ∧ (∀ e : Fin 600000, (a4 (ix1 e)).toInt < 200000) ∧
      (∀ e : Fin 600000, 0 ≤ (a5 (ix1 e)).toInt) ∧ (∀ e : Fin 600000, (a5 (ix1 e)).toInt < 50000) ∧
      (∀ e : Fin 200000, 0 ≤ (a6 (ix1 e)).toInt) ∧ (∀ e : Fin 200000, (a6 (ix1 e)).toInt < 200000) ∧
      (∀ e : Fin 200000, 0 ≤ (a7 (ix1 e)).toInt) ∧ (∀ e : Fin 200000, (a7 (ix1 e)).toInt < 50000) := by
  dsimp only [fn_part6] at h
  obtain ⟨h114, h117, c5, c6, c7, c8, c9, c10, c11⟩ := part7 _ _ _ _ _ _ h
  obtain ⟨h, c3⟩ := and_split _ _ h114
  obtain ⟨h, c2⟩ := and_split _ _ h
  obtain ⟨h, c1⟩ := and_split _ _ h
  obtain ⟨hp, hq⟩ := and_split _ _ h
  exact ⟨hp, hq, all_slt _ _ _ _ _ c1, all_sge _ _ _ _ _ c2, all_slt _ _ _ _ _ c3,
    all_sge _ _ _ _ _ h117, c5, c6, c7, c8, c9, c10, c11⟩

/-- Part 5: it is 1 only if 0 ≤ a0 holds at every word, together with what the later parts state. -/
theorem part5 (a0 : IVec S200000 32) (a2 : IVec S50000 32) (a4 a5 : IVec S600000 32)
    (a6 a7 : IVec S200000 32) (a24 : FVec F S64 .f32) (a25 : FVec F S64x128 .f32) (p : IVec S_ 1)
    (v84 : FVec F S64x128 .f32) (cst : FVec F S_ .f32)
    (h : fn_part5 (F := F) a0 a2 a4 a5 a6 a7 a24 a25 p v84 cst ix0 = 1#1) :
    (∀ e : Fin 200000, 0 ≤ (a0 (ix1 e)).toInt) ∧ (∀ e : Fin 200000, (a0 (ix1 e)).toInt < 500000) ∧
      (∀ e : Fin 50000, 0 ≤ (a2 (ix1 e)).toInt) ∧ (∀ e : Fin 50000, (a2 (ix1 e)).toInt < 100000) ∧
      (∀ e : Fin 600000, 0 ≤ (a4 (ix1 e)).toInt) ∧ (∀ e : Fin 600000, (a4 (ix1 e)).toInt < 200000) ∧
      (∀ e : Fin 600000, 0 ≤ (a5 (ix1 e)).toInt) ∧ (∀ e : Fin 600000, (a5 (ix1 e)).toInt < 50000) ∧
      (∀ e : Fin 200000, 0 ≤ (a6 (ix1 e)).toInt) ∧ (∀ e : Fin 200000, (a6 (ix1 e)).toInt < 200000) ∧
      (∀ e : Fin 200000, 0 ≤ (a7 (ix1 e)).toInt) ∧ (∀ e : Fin 200000, (a7 (ix1 e)).toInt < 50000) := by
  dsimp only [fn_part5] at h
  obtain ⟨-, h101, c⟩ := part6 _ _ _ _ _ _ _ _ h
  exact ⟨all_sge _ _ _ _ _ h101, c⟩

/-- The precondition is all ones only if each of the six index arrays is in range of the axis
    it indexes: the last twelve conjuncts of its conjunction, read at every word. -/
theorem ranges
    (a0 : IVec S200000 32) (a1 : FVec F S200000x32 .f32) (a2 : IVec S50000 32) (a3 : FVec F S50000x64 .f32)
    (a4 : IVec S600000 32) (a5 : IVec S600000 32) (a6 : IVec S200000 32) (a7 : IVec S200000 32)
    (a8 : FVec F S500000x128 .f32) (a9 : FVec F S100000x128 .f32) (a10 : FVec F S128x32 .f32)
    (a11 : FVec F S128 .f32) (a12 : FVec F S128x64 .f32) (a13 : FVec F S128 .f32)
    (a14 : FVec F S128x128 .f32) (a15 : FVec F S128 .f32) (a16 : FVec F S128x128 .f32)
    (a17 : FVec F S128x128 .f32) (a18 : FVec F S128 .f32) (a19 : FVec F S128x128 .f32)
    (a20 : FVec F S64x128 .f32) (a21 : FVec F S64 .f32) (a22 : FVec F S64x128 .f32)
    (a23 : FVec F S64x128 .f32) (a24 : FVec F S64 .f32) (a25 : FVec F S64x128 .f32)
    (h : fn (F := F) a0 a1 a2 a3 a4 a5 a6 a7 a8 a9 a10 a11 a12 a13 a14 a15 a16 a17 a18 a19 a20 a21 a22 a23
          a24 a25 = (fun _ => 1#1)) :
    Cert.Range.InRange a0 500000 ∧ Cert.Range.InRange a2 100000 ∧ Cert.Range.InRange a4 200000 ∧
      Cert.Range.InRange a5 50000 ∧ Cert.Range.InRange a6 200000 ∧ Cert.Range.InRange a7 50000 := by
  have h0 := congrFun h ix0
  dsimp only [fn, fn_part1, fn_part2, fn_part3, fn_part4] at h0
  obtain ⟨c0, c1, c2, c3, c4, c5, c6, c7, c8, c9, c10, c11⟩ := part5 _ _ _ _ _ _ _ _ _ _ _ h0
  exact ⟨fun e => ⟨c0 e, c1 e⟩, fun e => ⟨c2 e, c3 e⟩, fun e => ⟨c4 e, c5 e⟩, fun e => ⟨c6 e, c7 e⟩,
    fun e => ⟨c8 e, c9 e⟩, fun e => ⟨c10 e, c11 e⟩⟩

end Cert.PreRange
-- ==== Proof.PreKernel.lean ====
/-
  The precondition of the kernel program, read on one device: each of the six index arrays it takes is in
  range of the axis it indexes (every word, read signed, is at least 0 and below the extent).
-/
import proofs.«423856_j90606630076836_1_alg».proof.Defs
import proofs.«423856_j90606630076836_1_alg».proof.Proof.Range
import proofs.«423856_j90606630076836_1_alg».proof.Proof.PreRange

namespace Cert.PreKernel

open Idealize.ShloMosaic Idealize.SL.Sem

/-- On every device, the precondition of the kernel program gives that each of its six index arrays is in
    range of the axis it indexes. -/
theorem kernel_ranges [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Range.InRange (M := 200000) (m ((c.tc : Thread Cert.KernelIdeal.nD Cert.KernelIdeal.τ).loc Cert.KernelIdeal.main_arg0)) 500000 ∧
      Cert.Range.InRange (M := 50000) (m ((c.tc : Thread Cert.KernelIdeal.nD Cert.KernelIdeal.τ).loc Cert.KernelIdeal.main_arg2)) 100000 ∧
      Cert.Range.InRange (M := 600000) (m ((c.tc : Thread Cert.KernelIdeal.nD Cert.KernelIdeal.τ).loc Cert.KernelIdeal.main_arg4)) 200000 ∧
      Cert.Range.InRange (M := 600000) (m ((c.tc : Thread Cert.KernelIdeal.nD Cert.KernelIdeal.τ).loc Cert.KernelIdeal.main_arg5)) 50000 ∧
      Cert.Range.InRange (M := 200000) (m ((c.tc : Thread Cert.KernelIdeal.nD Cert.KernelIdeal.τ).loc Cert.KernelIdeal.main_arg6)) 200000 ∧
      Cert.Range.InRange (M := 200000) (m ((c.tc : Thread Cert.KernelIdeal.nD Cert.KernelIdeal.τ).loc Cert.KernelIdeal.main_arg7)) 50000 :=
  Cert.PreRange.ranges (F := Ideal) _ _ _ _ _ _ _ _ _ _ _ _ _ _ _ _ _ _ _ _ _ _ _ _ _ _ (h c)

end Cert.PreKernel
-- ==== Proof.Spec.lean ====
/-
  The layers of the two-layer bipartite GraphSAGE classifier, each as ONE function of whole arrays, index by index, on the
  extended reals.

  * `fuseG`     : the input encoder  h = e + x · w + b  (e the embedding rows already read, w the transposed weight, b a
                    1 × C row).
  * `combCore`  : a SAGE layer before its optional normalisation,
                    z = (agg / max(deg, 1)) · wl + b + xd · wr  (agg the neighbour sum, deg the R × 1 column of in-degrees).
  * `combNormG` : the layer with the row-wise L2 normalisation and the rectifier, max(z / max(‖z‖₂, ε), 0).
  * `combPlainG`: the layer as it is, z.
  * `dotG`      : the classifier, the row-wise inner product of two R × C arrays as an R × 1 column.

  The constants are kept as their 32-bit patterns: 1 is 0x3F800000, ε (the float nearest 1e-12) is 0x2B8CBCCC, 0 is 0x00000000.
-/
import Idealize.ShloMosaic.PureOps.Ideal
import Idealize.ShloMosaic.Lib.ValueIdx

noncomputable section

open scoped BigOperators

namespace Cert.Spec

open Idealize.ShloMosaic Idealize.ShloMosaic.ValueIdx

abbrev Mat (R C : Nat) : Type := (⟨2, ![R, C]⟩ : Shape).Idx → EReal

/-- The input encoder at (r, q): the embedding entry plus the row of features against column q of the weight, plus the bias. -/
def fuseG {R K C : Nat} (x : Mat R K) (e : Mat R C) (w : Mat K C) (b : Mat 1 C) : Mat R C := fun i =>
  (e (ix2 (i 0) (i 1)) + ∑ k : Fin K, x (ix2 (i 0) k) * w (ix2 k (i 1))) + b (ix2 (0 : Fin 1) (i 1))

/-- A SAGE layer before normalisation at (r, q): the mean of the neighbour sum against the left weight, the bias, the
    destination row against the right weight. -/
def combCore {R K C : Nat} (agg : Mat R K) (deg : Mat R 1) (xd : Mat R K) (wl wr : Mat K C) (b : Mat 1 C) (r : Fin R) (q : Fin C) : EReal :=
  ((∑ k : Fin K, Ideal.div (agg (ix2 r k)) (max (deg (ix2 r (0 : Fin 1))) (Ideal.ofBits .f32 0x3F800000#32)) * wl (ix2 k q))
      + b (ix2 (0 : Fin 1) q))
    + ∑ k : Fin K, xd (ix2 r k) * wr (ix2 k q)

/-- The layer as it is. -/
def combPlainG {R K C : Nat} (agg : Mat R K) (deg : Mat R 1) (xd : Mat R K) (wl wr : Mat K C) (b : Mat 1 C) : Mat R C := fun i =>
  combCore agg deg xd wl wr b (i 0) (i 1)

/-- The layer, each row divided by the larger of its Euclidean norm and ε, then rectified. -/
def combNormG {R K C : Nat} (agg : Mat R K) (deg : Mat R 1) (xd : Mat R K) (wl wr : Mat K C) (b : Mat 1 C) : Mat R C := fun i =>
  max (Ideal.div (combCore agg deg xd wl wr b (i 0) (i 1))
        (max (Ideal.sqrt (∑ q : Fin C, combCore agg deg xd wl wr b (i 0) q * combCore agg deg xd wl wr b (i 0) q))
          (Ideal.ofBits .f32 0x2B8CBCCC#32)))
    (Ideal.ofBits .f32 0x00000000#32)

/-- The classifier at row r: the inner product of the two rows. -/
def dotG {R C : Nat} (a b : Mat R C) : Mat R 1 := fun i => ∑ q : Fin C, a (ix2 (i 0) q) * b (ix2 (i 0) q)

end Cert.Spec

end
-- ==== Proof.Keep.lean ====
/-
  Buffers that a stretch of @main does not write keep their contents across it.

  @main of the kernel's program is 22 segments: stretches of host operations and 7 kernel regions. `W j` is a core's buffer
  contents at boundary j (the generated fold). A host operation rewrites only its result buffer, and a region only its
  output array (an input array is read back as it was); so an argument read at a late boundary still holds what the launch
  memory held, and a layer's output read some segments later still holds what its region left. One theorem per buffer and
  boundary at which the program reads it, each a chain of one step per segment crossed.
-/
import proofs.«423856_j90606630076836_1_alg».proof.Proof.Gen.KernelIdeal.Frame
import Idealize.ShloMosaic.Lib.StableHlo.Run

set_option maxRecDepth 16384

noncomputable section

namespace Cert.KernelIdeal.Keep

open Cert.KernelIdeal Cert.KernelIdeal.Gen
open Idealize.ShloMosaic Idealize.ShloMosaic.TcCoe Idealize.ShloMosaic.Tactic Idealize.ShloMosaic.StableHlo
open Idealize.SL.Sem

variable {F : FTy → Type} [FloatOps F]
variable (m : (ℓ : Loc nD τ sig) → Buf (Elt F) ℓ) (ρ : Dev nD → PrngReg)

/-- A buffer no operation of the stretch writes: each operation's result buffer is another reference. -/
macro "skip_host " ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

theorem at1_arg9 (c : Dev nD) : W1 m ρ c (Proc.devRef .tc main_arg9) = m ((c : Thread nD τ).loc main_arg9) :=
  calc W1 m ρ c (Proc.devRef .tc main_arg9)
    _ = W0 m ρ c (Proc.devRef .tc main_arg9) := by skip_host hostOps0
    _ = m ((c : Thread nD τ).loc main_arg9) := rfl

theorem at1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := by skip_host hostOps0
    _ = m ((c : Thread nD τ).loc main_arg2) := rfl

theorem at2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := by skip_host hostOps0_1
    _ = W0 m ρ c (Proc.devRef .tc main_arg10) := by skip_host hostOps0
    _ = m ((c : Thread nD τ).loc main_arg10) := rfl

theorem at2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := by skip_host hostOps0_1
    _ = W0 m ρ c (Proc.devRef .tc main_arg11) := by skip_host hostOps0
    _ = m ((c : Thread nD τ).loc main_arg11) := rfl

theorem at3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by skip_host hostOps0_2
    _ = W1 m ρ c (Proc.devRef .tc main_arg1) := by skip_host hostOps0_1
    _ = W0 m ρ c (Proc.devRef .tc main_arg1) := by skip_host hostOps0
    _ = m ((c : Thread nD τ).loc main_arg1) := rfl

theorem at3_v0 (c : Dev nD) : W3 m ρ c (Proc.devRef .tc main_v0) = W1 m ρ c (Proc.devRef .tc main_v0) :=
  calc W3 m ρ c (Proc.devRef .tc main_v0)
    _ = W2 m ρ c (Proc.devRef .tc main_v0) := by skip_host hostOps0_2
    _ = W1 m ρ c (Proc.devRef .tc main_v0) := by skip_host hostOps0_1

theorem at4_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := by skip_host hostOps0_2
    _ = W1 m ρ c (Proc.devRef .tc main_arg12) := by skip_host hostOps0_1
    _ = W0 m ρ c (Proc.devRef .tc main_arg12) := by skip_host hostOps0
    _ = m ((c : Thread nD τ).loc main_arg12) := rfl

theorem at4_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := by skip_host hostOps0_2
    _ = W1 m ρ c (Proc.devRef .tc main_arg13) := by skip_host hostOps0_1
    _ = W0 m ρ c (Proc.devRef .tc main_arg13) := by skip_host hostOps0
    _ = m ((c : Thread nD τ).loc main_arg13) := rfl

theorem at5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := by skip_host hostOps1
    _ = W3 m ρ c (Proc.devRef .tc main_arg3) := W4_of_ne m ρ c main_arg3 (by decide)
    _ = W2 m ρ c (Proc.devRef .tc main_arg3) := by skip_host hostOps0_2
    _ = W1 m ρ c (Proc.devRef .tc main_arg3) := by skip_host hostOps0_1
    _ = W0 m ρ c (Proc.devRef .tc main_arg3) := by skip_host hostOps0
    _ = m ((c : Thread nD τ).loc main_arg3) := rfl

theorem at5_v1 (c : Dev nD) : W5 m ρ c (Proc.devRef .tc main_v1) = W2 m ρ c (Proc.devRef .tc main_v1) :=
  calc W5 m ρ c (Proc.devRef .tc main_v1)
    _ = W4 m ρ c (Proc.devRef .tc main_v1) := by skip_host hostOps1
    _ = W3 m ρ c (Proc.devRef .tc main_v1) := W4_of_ne m ρ c main_v1 (by decide)
    _ = W2 m ρ c (Proc.devRef .tc main_v1) := by skip_host hostOps0_2

theorem at6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by skip_host hostOps1
    _ = W3 m ρ c (Proc.devRef .tc main_arg5) := W4_of_ne m ρ c main_arg5 (by decide)
    _ = W2 m ρ c (Proc.devRef .tc main_arg5) := by skip_host hostOps0_2
    _ = W1 m ρ c (Proc.devRef .tc main_arg5) := by skip_host hostOps0_1
    _ = W0 m ρ c (Proc.devRef .tc main_arg5) := by skip_host hostOps0
    _ = m ((c : Thread nD τ).loc main_arg5) := rfl

theorem at7_arg4 (c : Dev nD) : W7 m ρ c (Proc.devRef .tc main_arg4) = m ((c : Thread nD τ).loc main_arg4) :=
  calc W7 m ρ c (Proc.devRef .tc main_arg4)
    _ = W6 m ρ c (Proc.devRef .tc main_arg4) := by skip_host hostOps2
    _ = W5 m ρ c (Proc.devRef .tc main_arg4) := W6_of_ne m ρ c main_arg4 (by decide)
    _ = W4 m ρ c (Proc.devRef .tc main_arg4) := by skip_host hostOps1
    _ = W3 m ρ c (Proc.devRef .tc main_arg4) := W4_of_ne m ρ c main_arg4 (by decide)
    _ = W2 m ρ c (Proc.devRef .tc main_arg4) := by skip_host hostOps0_2
    _ = W1 m ρ c (Proc.devRef .tc main_arg4) := by skip_host hostOps0_1
    _ = W0 m ρ c (Proc.devRef .tc main_arg4) := by skip_host hostOps0
    _ = m ((c : Thread nD τ).loc main_arg4) := rfl

theorem at7_arg14 (c : Dev nD) : W7 m ρ c (Proc.devRef .tc main_arg14) = m ((c : Thread nD τ).loc main_arg14) :=
  calc W7 m ρ c (Proc.devRef .tc main_arg14)
    _ = W6 m ρ c (Proc.devRef .tc main_arg14) := by skip_host hostOps2
    _ = W5 m ρ c (Proc.devRef .tc main_arg14) := W6_of_ne m ρ c main_arg14 (by decide)
    _ = W4 m ρ c (Proc.devRef .tc main_arg14) := by skip_host hostOps1
    _ = W3 m ρ c (Proc.devRef .tc main_arg14) := W4_of_ne m ρ c main_arg14 (by decide)
    _ = W2 m ρ c (Proc.devRef .tc main_arg14) := by skip_host hostOps0_2
    _ = W1 m ρ c (Proc.devRef .tc main_arg14) := by skip_host hostOps0_1
    _ = W0 m ρ c (Proc.devRef .tc main_arg14) := by skip_host hostOps0
    _ = m ((c : Thread nD τ).loc main_arg14) := rfl

theorem at7_arg16 (c : Dev nD) : W7 m ρ c (Proc.devRef .tc main_arg16) = m ((c : Thread nD τ).loc main_arg16) :=
  calc W7 m ρ c (Proc.devRef .tc main_arg16)
    _ = W6 m ρ c (Proc.devRef .tc main_arg16) := by skip_host hostOps2
    _ = W5 m ρ c (Proc.devRef .tc main_arg16) := W6_of_ne m ρ c main_arg16 (by decide)
    _ = W4 m ρ c (Proc.devRef .tc main_arg16) := by skip_host hostOps1
    _ = W3 m ρ c (Proc.devRef .tc main_arg16) := W4_of_ne m ρ c main_arg16 (by decide)
    _ = W2 m ρ c (Proc.devRef .tc main_arg16) := by skip_host hostOps0_2
    _ = W1 m ρ c (Proc.devRef .tc main_arg16) := by skip_host hostOps0_1
    _ = W0 m ρ c (Proc.devRef .tc main_arg16) := by skip_host hostOps0
    _ = m ((c : Thread nD τ).loc main_arg16) := rfl

theorem at7_arg15 (c : Dev nD) : W7 m ρ c (Proc.devRef .tc main_arg15) = m ((c : Thread nD τ).loc main_arg15) :=
  calc W7 m ρ c (Proc.devRef .tc main_arg15)
    _ = W6 m ρ c (Proc.devRef .tc main_arg15) := by skip_host hostOps2
    _ = W5 m ρ c (Proc.devRef .tc main_arg15) := W6_of_ne m ρ c main_arg15 (by decide)
    _ = W4 m ρ c (Proc.devRef .tc main_arg15) := by skip_host hostOps1
    _ = W3 m ρ c (Proc.devRef .tc main_arg15) := W4_of_ne m ρ c main_arg15 (by decide)
    _ = W2 m ρ c (Proc.devRef .tc main_arg15) := by skip_host hostOps0_2
    _ = W1 m ρ c (Proc.devRef .tc main_arg15) := by skip_host hostOps0_1
    _ = W0 m ρ c (Proc.devRef .tc main_arg15) := by skip_host hostOps0
    _ = m ((c : Thread nD τ).loc main_arg15) := rfl

theorem at8_v4 (c : Dev nD) : W8 m ρ c (Proc.devRef .tc main_v4) = W4 m ρ c (Proc.devRef .tc main_v4) :=
  calc W8 m ρ c (Proc.devRef .tc main_v4)
    _ = W7 m ρ c (Proc.devRef .tc main_v4) := by skip_host hostOps2_1
    _ = W6 m ρ c (Proc.devRef .tc main_v4) := by skip_host hostOps2
    _ = W5 m ρ c (Proc.devRef .tc main_v4) := W6_of_ne m ρ c main_v4 (by decide)
    _ = W4 m ρ c (Proc.devRef .tc main_v4) := by skip_host hostOps1

theorem at9_v4 (c : Dev nD) : W9 m ρ c (Proc.devRef .tc main_v4) = W4 m ρ c (Proc.devRef .tc main_v4) :=
  calc W9 m ρ c (Proc.devRef .tc main_v4)
    _ = W8 m ρ c (Proc.devRef .tc main_v4) := (W9_arr m ρ c 2).trans (((dat2 (V8 m ρ) c).arrAt_in 2 rfl _).trans (A_eq2 (V8 m ρ) c 2))
    _ = W7 m ρ c (Proc.devRef .tc main_v4) := by skip_host hostOps2_1
    _ = W6 m ρ c (Proc.devRef .tc main_v4) := by skip_host hostOps2
    _ = W5 m ρ c (Proc.devRef .tc main_v4) := W6_of_ne m ρ c main_v4 (by decide)
    _ = W4 m ρ c (Proc.devRef .tc main_v4) := by skip_host hostOps1

theorem at9_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := by skip_host hostOps2_1
    _ = W6 m ρ c (Proc.devRef .tc main_arg4) := by skip_host hostOps2
    _ = W5 m ρ c (Proc.devRef .tc main_arg4) := W6_of_ne m ρ c main_arg4 (by decide)
    _ = W4 m ρ c (Proc.devRef .tc main_arg4) := by skip_host hostOps1
    _ = W3 m ρ c (Proc.devRef .tc main_arg4) := W4_of_ne m ρ c main_arg4 (by decide)
    _ = W2 m ρ c (Proc.devRef .tc main_arg4) := by skip_host hostOps0_2
    _ = W1 m ρ c (Proc.devRef .tc main_arg4) := by skip_host hostOps0_1
    _ = W0 m ρ c (Proc.devRef .tc main_arg4) := by skip_host hostOps0
    _ = m ((c : Thread nD τ).loc main_arg4) := rfl

theorem at10_arg5 (c : Dev nD) : W10 m ρ c (Proc.devRef .tc main_arg5) = m ((c : Thread nD τ).loc main_arg5) :=
  calc W10 m ρ c (Proc.devRef .tc main_arg5)
    _ = W9 m ρ c (Proc.devRef .tc main_arg5) := by skip_host hostOps3
    _ = W8 m ρ c (Proc.devRef .tc main_arg5) := W9_of_ne m ρ c main_arg5 (by decide)
    _ = W7 m ρ c (Proc.devRef .tc main_arg5) := by skip_host hostOps2_1
    _ = W6 m ρ c (Proc.devRef .tc main_arg5) := by skip_host hostOps2
    _ = W5 m ρ c (Proc.devRef .tc main_arg5) := W6_of_ne m ρ c main_arg5 (by decide)
    _ = W4 m ρ c (Proc.devRef .tc main_arg5) := by skip_host hostOps1
    _ = W3 m ρ c (Proc.devRef .tc main_arg5) := W4_of_ne m ρ c main_arg5 (by decide)
    _ = W2 m ρ c (Proc.devRef .tc main_arg5) := by skip_host hostOps0_2
    _ = W1 m ρ c (Proc.devRef .tc main_arg5) := by skip_host hostOps0_1
    _ = W0 m ρ c (Proc.devRef .tc main_arg5) := by skip_host hostOps0
    _ = m ((c : Thread nD τ).loc main_arg5) := rfl

theorem at10_arg17 (c : Dev nD) : W10 m ρ c (Proc.devRef .tc main_arg17) = m ((c : Thread nD τ).loc main_arg17) :=
  calc W10 m ρ c (Proc.devRef .tc main_arg17)
    _ = W9 m ρ c (Proc.devRef .tc main_arg17) := by skip_host hostOps3
    _ = W8 m ρ c (Proc.devRef .tc main_arg17) := W9_of_ne m ρ c main_arg17 (by decide)
    _ = W7 m ρ c (Proc.devRef .tc main_arg17) := by skip_host hostOps2_1
    _ = W6 m ρ c (Proc.devRef .tc main_arg17) := by skip_host hostOps2
    _ = W5 m ρ c (Proc.devRef .tc main_arg17) := W6_of_ne m ρ c main_arg17 (by decide)
    _ = W4 m ρ c (Proc.devRef .tc main_arg17) := by skip_host hostOps1
    _ = W3 m ρ c (Proc.devRef .tc main_arg17) := W4_of_ne m ρ c main_arg17 (by decide)
    _ = W2 m ρ c (Proc.devRef .tc main_arg17) := by skip_host hostOps0_2
    _ = W1 m ρ c (Proc.devRef .tc main_arg17) := by skip_host hostOps0_1
    _ = W0 m ρ c (Proc.devRef .tc main_arg17) := by skip_host hostOps0
    _ = m ((c : Thread nD τ).loc main_arg17) := rfl

theorem at10_arg19 (c : Dev nD) : W10 m ρ c (Proc.devRef .tc main_arg19) = m ((c : Thread nD τ).loc main_arg19) :=
  calc W10 m ρ c (Proc.devRef .tc main_arg19)
    _ = W9 m ρ c (Proc.devRef .tc main_arg19) := by skip_host hostOps3
    _ = W8 m ρ c (Proc.devRef .tc main_arg19) := W9_of_ne m ρ c main_arg19 (by decide)
    _ = W7 m ρ c (Proc.devRef .tc main_arg19) := by skip_host hostOps2_1
    _ = W6 m ρ c (Proc.devRef .tc main_arg19) := by skip_host hostOps2
    _ = W5 m ρ c (Proc.devRef .tc main_arg19) := W6_of_ne m ρ c main_arg19 (by decide)
    _ = W4 m ρ c (Proc.devRef .tc main_arg19) := by skip_host hostOps1
    _ = W3 m ρ c (Proc.devRef .tc main_arg19) := W4_of_ne m ρ c main_arg19 (by decide)
    _ = W2 m ρ c (Proc.devRef .tc main_arg19) := by skip_host hostOps0_2
    _ = W1 m ρ c (Proc.devRef .tc main_arg19) := by skip_host hostOps0_1
    _ = W0 m ρ c (Proc.devRef .tc main_arg19) := by skip_host hostOps0
    _ = m ((c : Thread nD τ).loc main_arg19) := rfl

theorem at10_arg18 (c : Dev nD) : W10 m ρ c (Proc.devRef .tc main_arg18) = m ((c : Thread nD τ).loc main_arg18) :=
  calc W10 m ρ c (Proc.devRef .tc main_arg18)
    _ = W9 m ρ c (Proc.devRef .tc main_arg18) := by skip_host hostOps3
    _ = W8 m ρ c (Proc.devRef .tc main_arg18) := W9_of_ne m ρ c main_arg18 (by decide)
    _ = W7 m ρ c (Proc.devRef .tc main_arg18) := by skip_host hostOps2_1
    _ = W6 m ρ c (Proc.devRef .tc main_arg18) := by skip_host hostOps2
    _ = W5 m ρ c (Proc.devRef .tc main_arg18) := W6_of_ne m ρ c main_arg18 (by decide)
    _ = W4 m ρ c (Proc.devRef .tc main_arg18) := by skip_host hostOps1
    _ = W3 m ρ c (Proc.devRef .tc main_arg18) := W4_of_ne m ρ c main_arg18 (by decide)
    _ = W2 m ρ c (Proc.devRef .tc main_arg18) := by skip_host hostOps0_2
    _ = W1 m ρ c (Proc.devRef .tc main_arg18) := by skip_host hostOps0_1
    _ = W0 m ρ c (Proc.devRef .tc main_arg18) := by skip_host hostOps0
    _ = m ((c : Thread nD τ).loc main_arg18) := rfl

theorem at11_v7 (c : Dev nD) : W11 m ρ c (Proc.devRef .tc main_v7) = W6 m ρ c (Proc.devRef .tc main_v7) :=
  calc W11 m ρ c (Proc.devRef .tc main_v7)
    _ = W10 m ρ c (Proc.devRef .tc main_v7) := by skip_host hostOps3_1
    _ = W9 m ρ c (Proc.devRef .tc main_v7) := by skip_host hostOps3
    _ = W8 m ρ c (Proc.devRef .tc main_v7) := W9_of_ne m ρ c main_v7 (by decide)
    _ = W7 m ρ c (Proc.devRef .tc main_v7) := by skip_host hostOps2_1
    _ = W6 m ρ c (Proc.devRef .tc main_v7) := by skip_host hostOps2

theorem at12_arg5 (c : Dev nD) : W12 m ρ c (Proc.devRef .tc main_arg5) = m ((c : Thread nD τ).loc main_arg5) :=
  calc W12 m ρ c (Proc.devRef .tc main_arg5)
    _ = W11 m ρ c (Proc.devRef .tc main_arg5) := W12_of_ne m ρ c main_arg5 (by decide)
    _ = W10 m ρ c (Proc.devRef .tc main_arg5) := by skip_host hostOps3_1
    _ = W9 m ρ c (Proc.devRef .tc main_arg5) := by skip_host hostOps3
    _ = W8 m ρ c (Proc.devRef .tc main_arg5) := W9_of_ne m ρ c main_arg5 (by decide)
    _ = W7 m ρ c (Proc.devRef .tc main_arg5) := by skip_host hostOps2_1
    _ = W6 m ρ c (Proc.devRef .tc main_arg5) := by skip_host hostOps2
    _ = W5 m ρ c (Proc.devRef .tc main_arg5) := W6_of_ne m ρ c main_arg5 (by decide)
    _ = W4 m ρ c (Proc.devRef .tc main_arg5) := by skip_host hostOps1
    _ = W3 m ρ c (Proc.devRef .tc main_arg5) := W4_of_ne m ρ c main_arg5 (by decide)
    _ = W2 m ρ c (Proc.devRef .tc main_arg5) := by skip_host hostOps0_2
    _ = W1 m ρ c (Proc.devRef .tc main_arg5) := by skip_host hostOps0_1
    _ = W0 m ρ c (Proc.devRef .tc main_arg5) := by skip_host hostOps0
    _ = m ((c : Thread nD τ).loc main_arg5) := rfl

theorem at13_arg4 (c : Dev nD) : W13 m ρ c (Proc.devRef .tc main_arg4) = m ((c : Thread nD τ).loc main_arg4) :=
  calc W13 m ρ c (Proc.devRef .tc main_arg4)
    _ = W12 m ρ c (Proc.devRef .tc main_arg4) := by skip_host hostOps4
    _ = W11 m ρ c (Proc.devRef .tc main_arg4) := W12_of_ne m ρ c main_arg4 (by decide)
    _ = W10 m ρ c (Proc.devRef .tc main_arg4) := by skip_host hostOps3_1
    _ = W9 m ρ c (Proc.devRef .tc main_arg4) := by skip_host hostOps3
    _ = W8 m ρ c (Proc.devRef .tc main_arg4) := W9_of_ne m ρ c main_arg4 (by decide)
    _ = W7 m ρ c (Proc.devRef .tc main_arg4) := by skip_host hostOps2_1
    _ = W6 m ρ c (Proc.devRef .tc main_arg4) := by skip_host hostOps2
    _ = W5 m ρ c (Proc.devRef .tc main_arg4) := W6_of_ne m ρ c main_arg4 (by decide)
    _ = W4 m ρ c (Proc.devRef .tc main_arg4) := by skip_host hostOps1
    _ = W3 m ρ c (Proc.devRef .tc main_arg4) := W4_of_ne m ρ c main_arg4 (by decide)
    _ = W2 m ρ c (Proc.devRef .tc main_arg4) := by skip_host hostOps0_2
    _ = W1 m ρ c (Proc.devRef .tc main_arg4) := by skip_host hostOps0_1
    _ = W0 m ρ c (Proc.devRef .tc main_arg4) := by skip_host hostOps0
    _ = m ((c : Thread nD τ).loc main_arg4) := rfl

theorem at13_arg20 (c : Dev nD) : W13 m ρ c (Proc.devRef .tc main_arg20) = m ((c : Thread nD τ).loc main_arg20) :=
  calc W13 m ρ c (Proc.devRef .tc main_arg20)
    _ = W12 m ρ c (Proc.devRef .tc main_arg20) := by skip_host hostOps4
    _ = W11 m ρ c (Proc.devRef .tc main_arg20) := W12_of_ne m ρ c main_arg20 (by decide)
    _ = W10 m ρ c (Proc.devRef .tc main_arg20) := by skip_host hostOps3_1
    _ = W9 m ρ c (Proc.devRef .tc main_arg20) := by skip_host hostOps3
    _ = W8 m ρ c (Proc.devRef .tc main_arg20) := W9_of_ne m ρ c main_arg20 (by decide)
    _ = W7 m ρ c (Proc.devRef .tc main_arg20) := by skip_host hostOps2_1
    _ = W6 m ρ c (Proc.devRef .tc main_arg20) := by skip_host hostOps2
    _ = W5 m ρ c (Proc.devRef .tc main_arg20) := W6_of_ne m ρ c main_arg20 (by decide)
    _ = W4 m ρ c (Proc.devRef .tc main_arg20) := by skip_host hostOps1
    _ = W3 m ρ c (Proc.devRef .tc main_arg20) := W4_of_ne m ρ c main_arg20 (by decide)
    _ = W2 m ρ c (Proc.devRef .tc main_arg20) := by skip_host hostOps0_2
    _ = W1 m ρ c (Proc.devRef .tc main_arg20) := by skip_host hostOps0_1
    _ = W0 m ρ c (Proc.devRef .tc main_arg20) := by skip_host hostOps0
    _ = m ((c : Thread nD τ).loc main_arg20) := rfl

theorem at13_arg22 (c : Dev nD) : W13 m ρ c (Proc.devRef .tc main_arg22) = m ((c : Thread nD τ).loc main_arg22) :=
  calc W13 m ρ c (Proc.devRef .tc main_arg22)
    _ = W12 m ρ c (Proc.devRef .tc main_arg22) := by skip_host hostOps4
    _ = W11 m ρ c (Proc.devRef .tc main_arg22) := W12_of_ne m ρ c main_arg22 (by decide)
    _ = W10 m ρ c (Proc.devRef .tc main_arg22) := by skip_host hostOps3_1
    _ = W9 m ρ c (Proc.devRef .tc main_arg22) := by skip_host hostOps3
    _ = W8 m ρ c (Proc.devRef .tc main_arg22) := W9_of_ne m ρ c main_arg22 (by decide)
    _ = W7 m ρ c (Proc.devRef .tc main_arg22) := by skip_host hostOps2_1
    _ = W6 m ρ c (Proc.devRef .tc main_arg22) := by skip_host hostOps2
    _ = W5 m ρ c (Proc.devRef .tc main_arg22) := W6_of_ne m ρ c main_arg22 (by decide)
    _ = W4 m ρ c (Proc.devRef .tc main_arg22) := by skip_host hostOps1
    _ = W3 m ρ c (Proc.devRef .tc main_arg22) := W4_of_ne m ρ c main_arg22 (by decide)
    _ = W2 m ρ c (Proc.devRef .tc main_arg22) := by skip_host hostOps0_2
    _ = W1 m ρ c (Proc.devRef .tc main_arg22) := by skip_host hostOps0_1
    _ = W0 m ρ c (Proc.devRef .tc main_arg22) := by skip_host hostOps0
    _ = m ((c : Thread nD τ).loc main_arg22) := rfl

theorem at13_arg21 (c : Dev nD) : W13 m ρ c (Proc.devRef .tc main_arg21) = m ((c : Thread nD τ).loc main_arg21) :=
  calc W13 m ρ c (Proc.devRef .tc main_arg21)
    _ = W12 m ρ c (Proc.devRef .tc main_arg21) := by skip_host hostOps4
    _ = W11 m ρ c (Proc.devRef .tc main_arg21) := W12_of_ne m ρ c main_arg21 (by decide)
    _ = W10 m ρ c (Proc.devRef .tc main_arg21) := by skip_host hostOps3_1
    _ = W9 m ρ c (Proc.devRef .tc main_arg21) := by skip_host hostOps3
    _ = W8 m ρ c (Proc.devRef .tc main_arg21) := W9_of_ne m ρ c main_arg21 (by decide)
    _ = W7 m ρ c (Proc.devRef .tc main_arg21) := by skip_host hostOps2_1
    _ = W6 m ρ c (Proc.devRef .tc main_arg21) := by skip_host hostOps2
    _ = W5 m ρ c (Proc.devRef .tc main_arg21) := W6_of_ne m ρ c main_arg21 (by decide)
    _ = W4 m ρ c (Proc.devRef .tc main_arg21) := by skip_host hostOps1
    _ = W3 m ρ c (Proc.devRef .tc main_arg21) := W4_of_ne m ρ c main_arg21 (by decide)
    _ = W2 m ρ c (Proc.devRef .tc main_arg21) := by skip_host hostOps0_2
    _ = W1 m ρ c (Proc.devRef .tc main_arg21) := by skip_host hostOps0_1
    _ = W0 m ρ c (Proc.devRef .tc main_arg21) := by skip_host hostOps0
    _ = m ((c : Thread nD τ).loc main_arg21) := rfl

theorem at14_v20 (c : Dev nD) : W14 m ρ c (Proc.devRef .tc main_v20) = W9 m ρ c (Proc.devRef .tc main_v20) :=
  calc W14 m ρ c (Proc.devRef .tc main_v20)
    _ = W13 m ρ c (Proc.devRef .tc main_v20) := by skip_host hostOps4_1
    _ = W12 m ρ c (Proc.devRef .tc main_v20) := by skip_host hostOps4
    _ = W11 m ρ c (Proc.devRef .tc main_v20) := W12_of_ne m ρ c main_v20 (by decide)
    _ = W10 m ρ c (Proc.devRef .tc main_v20) := by skip_host hostOps3_1
    _ = W9 m ρ c (Proc.devRef .tc main_v20) := by skip_host hostOps3

theorem at15_v20 (c : Dev nD) : W15 m ρ c (Proc.devRef .tc main_v20) = W9 m ρ c (Proc.devRef .tc main_v20) :=
  calc W15 m ρ c (Proc.devRef .tc main_v20)
    _ = W14 m ρ c (Proc.devRef .tc main_v20) := (W15_arr m ρ c 2).trans (((dat4 (V14 m ρ) c).arrAt_in 2 rfl _).trans (A_eq4 (V14 m ρ) c 2))
    _ = W13 m ρ c (Proc.devRef .tc main_v20) := by skip_host hostOps4_1
    _ = W12 m ρ c (Proc.devRef .tc main_v20) := by skip_host hostOps4
    _ = W11 m ρ c (Proc.devRef .tc main_v20) := W12_of_ne m ρ c main_v20 (by decide)
    _ = W10 m ρ c (Proc.devRef .tc main_v20) := by skip_host hostOps3_1
    _ = W9 m ρ c (Proc.devRef .tc main_v20) := by skip_host hostOps3

theorem at15_arg4 (c : Dev nD) : W15 m ρ c (Proc.devRef .tc main_arg4) = m ((c : Thread nD τ).loc main_arg4) :=
  calc W15 m ρ c (Proc.devRef .tc main_arg4)
    _ = W14 m ρ c (Proc.devRef .tc main_arg4) := W15_of_ne m ρ c main_arg4 (by decide)
    _ = W13 m ρ c (Proc.devRef .tc main_arg4) := by skip_host hostOps4_1
    _ = W12 m ρ c (Proc.devRef .tc main_arg4) := by skip_host hostOps4
    _ = W11 m ρ c (Proc.devRef .tc main_arg4) := W12_of_ne m ρ c main_arg4 (by decide)
    _ = W10 m ρ c (Proc.devRef .tc main_arg4) := by skip_host hostOps3_1
    _ = W9 m ρ c (Proc.devRef .tc main_arg4) := by skip_host hostOps3
    _ = W8 m ρ c (Proc.devRef .tc main_arg4) := W9_of_ne m ρ c main_arg4 (by decide)
    _ = W7 m ρ c (Proc.devRef .tc main_arg4) := by skip_host hostOps2_1
    _ = W6 m ρ c (Proc.devRef .tc main_arg4) := by skip_host hostOps2
    _ = W5 m ρ c (Proc.devRef .tc main_arg4) := W6_of_ne m ρ c main_arg4 (by decide)
    _ = W4 m ρ c (Proc.devRef .tc main_arg4) := by skip_host hostOps1
    _ = W3 m ρ c (Proc.devRef .tc main_arg4) := W4_of_ne m ρ c main_arg4 (by decide)
    _ = W2 m ρ c (Proc.devRef .tc main_arg4) := by skip_host hostOps0_2
    _ = W1 m ρ c (Proc.devRef .tc main_arg4) := by skip_host hostOps0_1
    _ = W0 m ρ c (Proc.devRef .tc main_arg4) := by skip_host hostOps0
    _ = m ((c : Thread nD τ).loc main_arg4) := rfl

theorem at16_arg5 (c : Dev nD) : W16 m ρ c (Proc.devRef .tc main_arg5) = m ((c : Thread nD τ).loc main_arg5) :=
  calc W16 m ρ c (Proc.devRef .tc main_arg5)
    _ = W15 m ρ c (Proc.devRef .tc main_arg5) := by skip_host hostOps5
    _ = W14 m ρ c (Proc.devRef .tc main_arg5) := W15_of_ne m ρ c main_arg5 (by decide)
    _ = W13 m ρ c (Proc.devRef .tc main_arg5) := by skip_host hostOps4_1
    _ = W12 m ρ c (Proc.devRef .tc main_arg5) := by skip_host hostOps4
    _ = W11 m ρ c (Proc.devRef .tc main_arg5) := W12_of_ne m ρ c main_arg5 (by decide)
    _ = W10 m ρ c (Proc.devRef .tc main_arg5) := by skip_host hostOps3_1
    _ = W9 m ρ c (Proc.devRef .tc main_arg5) := by skip_host hostOps3
    _ = W8 m ρ c (Proc.devRef .tc main_arg5) := W9_of_ne m ρ c main_arg5 (by decide)
    _ = W7 m ρ c (Proc.devRef .tc main_arg5) := by skip_host hostOps2_1
    _ = W6 m ρ c (Proc.devRef .tc main_arg5) := by skip_host hostOps2
    _ = W5 m ρ c (Proc.devRef .tc main_arg5) := W6_of_ne m ρ c main_arg5 (by decide)
    _ = W4 m ρ c (Proc.devRef .tc main_arg5) := by skip_host hostOps1
    _ = W3 m ρ c (Proc.devRef .tc main_arg5) := W4_of_ne m ρ c main_arg5 (by decide)
    _ = W2 m ρ c (Proc.devRef .tc main_arg5) := by skip_host hostOps0_2
    _ = W1 m ρ c (Proc.devRef .tc main_arg5) := by skip_host hostOps0_1
    _ = W0 m ρ c (Proc.devRef .tc main_arg5) := by skip_host hostOps0
    _ = m ((c : Thread nD τ).loc main_arg5) := rfl

theorem at16_arg23 (c : Dev nD) : W16 m ρ c (Proc.devRef .tc main_arg23) = m ((c : Thread nD τ).loc main_arg23) :=
  calc W16 m ρ c (Proc.devRef .tc main_arg23)
    _ = W15 m ρ c (Proc.devRef .tc main_arg23) := by skip_host hostOps5
    _ = W14 m ρ c (Proc.devRef .tc main_arg23) := W15_of_ne m ρ c main_arg23 (by decide)
    _ = W13 m ρ c (Proc.devRef .tc main_arg23) := by skip_host hostOps4_1
    _ = W12 m ρ c (Proc.devRef .tc main_arg23) := by skip_host hostOps4
    _ = W11 m ρ c (Proc.devRef .tc main_arg23) := W12_of_ne m ρ c main_arg23 (by decide)
    _ = W10 m ρ c (Proc.devRef .tc main_arg23) := by skip_host hostOps3_1
    _ = W9 m ρ c (Proc.devRef .tc main_arg23) := by skip_host hostOps3
    _ = W8 m ρ c (Proc.devRef .tc main_arg23) := W9_of_ne m ρ c main_arg23 (by decide)
    _ = W7 m ρ c (Proc.devRef .tc main_arg23) := by skip_host hostOps2_1
    _ = W6 m ρ c (Proc.devRef .tc main_arg23) := by skip_host hostOps2
    _ = W5 m ρ c (Proc.devRef .tc main_arg23) := W6_of_ne m ρ c main_arg23 (by decide)
    _ = W4 m ρ c (Proc.devRef .tc main_arg23) := by skip_host hostOps1
    _ = W3 m ρ c (Proc.devRef .tc main_arg23) := W4_of_ne m ρ c main_arg23 (by decide)
    _ = W2 m ρ c (Proc.devRef .tc main_arg23) := by skip_host hostOps0_2
    _ = W1 m ρ c (Proc.devRef .tc main_arg23) := by skip_host hostOps0_1
    _ = W0 m ρ c (Proc.devRef .tc main_arg23) := by skip_host hostOps0
    _ = m ((c : Thread nD τ).loc main_arg23) := rfl

theorem at16_arg25 (c : Dev nD) : W16 m ρ c (Proc.devRef .tc main_arg25) = m ((c : Thread nD τ).loc main_arg25) :=
  calc W16 m ρ c (Proc.devRef .tc main_arg25)
    _ = W15 m ρ c (Proc.devRef .tc main_arg25) := by skip_host hostOps5
    _ = W14 m ρ c (Proc.devRef .tc main_arg25) := W15_of_ne m ρ c main_arg25 (by decide)
    _ = W13 m ρ c (Proc.devRef .tc main_arg25) := by skip_host hostOps4_1
    _ = W12 m ρ c (Proc.devRef .tc main_arg25) := by skip_host hostOps4
    _ = W11 m ρ c (Proc.devRef .tc main_arg25) := W12_of_ne m ρ c main_arg25 (by decide)
    _ = W10 m ρ c (Proc.devRef .tc main_arg25) := by skip_host hostOps3_1
    _ = W9 m ρ c (Proc.devRef .tc main_arg25) := by skip_host hostOps3
    _ = W8 m ρ c (Proc.devRef .tc main_arg25) := W9_of_ne m ρ c main_arg25 (by decide)
    _ = W7 m ρ c (Proc.devRef .tc main_arg25) := by skip_host hostOps2_1
    _ = W6 m ρ c (Proc.devRef .tc main_arg25) := by skip_host hostOps2
    _ = W5 m ρ c (Proc.devRef .tc main_arg25) := W6_of_ne m ρ c main_arg25 (by decide)
    _ = W4 m ρ c (Proc.devRef .tc main_arg25) := by skip_host hostOps1
    _ = W3 m ρ c (Proc.devRef .tc main_arg25) := W4_of_ne m ρ c main_arg25 (by decide)
    _ = W2 m ρ c (Proc.devRef .tc main_arg25) := by skip_host hostOps0_2
    _ = W1 m ρ c (Proc.devRef .tc main_arg25) := by skip_host hostOps0_1
    _ = W0 m ρ c (Proc.devRef .tc main_arg25) := by skip_host hostOps0
    _ = m ((c : Thread nD τ).loc main_arg25) := rfl

theorem at16_arg24 (c : Dev nD) : W16 m ρ c (Proc.devRef .tc main_arg24) = m ((c : Thread nD τ).loc main_arg24) :=
  calc W16 m ρ c (Proc.devRef .tc main_arg24)
    _ = W15 m ρ c (Proc.devRef .tc main_arg24) := by skip_host hostOps5
    _ = W14 m ρ c (Proc.devRef .tc main_arg24) := W15_of_ne m ρ c main_arg24 (by decide)
    _ = W13 m ρ c (Proc.devRef .tc main_arg24) := by skip_host hostOps4_1
    _ = W12 m ρ c (Proc.devRef .tc main_arg24) := by skip_host hostOps4
    _ = W11 m ρ c (Proc.devRef .tc main_arg24) := W12_of_ne m ρ c main_arg24 (by decide)
    _ = W10 m ρ c (Proc.devRef .tc main_arg24) := by skip_host hostOps3_1
    _ = W9 m ρ c (Proc.devRef .tc main_arg24) := by skip_host hostOps3
    _ = W8 m ρ c (Proc.devRef .tc main_arg24) := W9_of_ne m ρ c main_arg24 (by decide)
    _ = W7 m ρ c (Proc.devRef .tc main_arg24) := by skip_host hostOps2_1
    _ = W6 m ρ c (Proc.devRef .tc main_arg24) := by skip_host hostOps2
    _ = W5 m ρ c (Proc.devRef .tc main_arg24) := W6_of_ne m ρ c main_arg24 (by decide)
    _ = W4 m ρ c (Proc.devRef .tc main_arg24) := by skip_host hostOps1
    _ = W3 m ρ c (Proc.devRef .tc main_arg24) := W4_of_ne m ρ c main_arg24 (by decide)
    _ = W2 m ρ c (Proc.devRef .tc main_arg24) := by skip_host hostOps0_2
    _ = W1 m ρ c (Proc.devRef .tc main_arg24) := by skip_host hostOps0_1
    _ = W0 m ρ c (Proc.devRef .tc main_arg24) := by skip_host hostOps0
    _ = m ((c : Thread nD τ).loc main_arg24) := rfl

theorem at17_v33 (c : Dev nD) : W17 m ρ c (Proc.devRef .tc main_v33) = W12 m ρ c (Proc.devRef .tc main_v33) :=
  calc W17 m ρ c (Proc.devRef .tc main_v33)
    _ = W16 m ρ c (Proc.devRef .tc main_v33) := by skip_host hostOps5_1
    _ = W15 m ρ c (Proc.devRef .tc main_v33) := by skip_host hostOps5
    _ = W14 m ρ c (Proc.devRef .tc main_v33) := W15_of_ne m ρ c main_v33 (by decide)
    _ = W13 m ρ c (Proc.devRef .tc main_v33) := by skip_host hostOps4_1
    _ = W12 m ρ c (Proc.devRef .tc main_v33) := by skip_host hostOps4

theorem at18_v46 (c : Dev nD) : W18 m ρ c (Proc.devRef .tc main_v46) = W15 m ρ c (Proc.devRef .tc main_v46) :=
  calc W18 m ρ c (Proc.devRef .tc main_v46)
    _ = W17 m ρ c (Proc.devRef .tc main_v46) := W18_of_ne m ρ c main_v46 (by decide)
    _ = W16 m ρ c (Proc.devRef .tc main_v46) := by skip_host hostOps5_1
    _ = W15 m ρ c (Proc.devRef .tc main_v46) := by skip_host hostOps5

theorem at18_arg6 (c : Dev nD) : W18 m ρ c (Proc.devRef .tc main_arg6) = m ((c : Thread nD τ).loc main_arg6) :=
  calc W18 m ρ c (Proc.devRef .tc main_arg6)
    _ = W17 m ρ c (Proc.devRef .tc main_arg6) := W18_of_ne m ρ c main_arg6 (by decide)
    _ = W16 m ρ c (Proc.devRef .tc main_arg6) := by skip_host hostOps5_1
    _ = W15 m ρ c (Proc.devRef .tc main_arg6) := by skip_host hostOps5
    _ = W14 m ρ c (Proc.devRef .tc main_arg6) := W15_of_ne m ρ c main_arg6 (by decide)
    _ = W13 m ρ c (Proc.devRef .tc main_arg6) := by skip_host hostOps4_1
    _ = W12 m ρ c (Proc.devRef .tc main_arg6) := by skip_host hostOps4
    _ = W11 m ρ c (Proc.devRef .tc main_arg6) := W12_of_ne m ρ c main_arg6 (by decide)
    _ = W10 m ρ c (Proc.devRef .tc main_arg6) := by skip_host hostOps3_1
    _ = W9 m ρ c (Proc.devRef .tc main_arg6) := by skip_host hostOps3
    _ = W8 m ρ c (Proc.devRef .tc main_arg6) := W9_of_ne m ρ c main_arg6 (by decide)
    _ = W7 m ρ c (Proc.devRef .tc main_arg6) := by skip_host hostOps2_1
    _ = W6 m ρ c (Proc.devRef .tc main_arg6) := by skip_host hostOps2
    _ = W5 m ρ c (Proc.devRef .tc main_arg6) := W6_of_ne m ρ c main_arg6 (by decide)
    _ = W4 m ρ c (Proc.devRef .tc main_arg6) := by skip_host hostOps1
    _ = W3 m ρ c (Proc.devRef .tc main_arg6) := W4_of_ne m ρ c main_arg6 (by decide)
    _ = W2 m ρ c (Proc.devRef .tc main_arg6) := by skip_host hostOps0_2
    _ = W1 m ρ c (Proc.devRef .tc main_arg6) := by skip_host hostOps0_1
    _ = W0 m ρ c (Proc.devRef .tc main_arg6) := by skip_host hostOps0
    _ = m ((c : Thread nD τ).loc main_arg6) := rfl

theorem at19_v59 (c : Dev nD) : W19 m ρ c (Proc.devRef .tc main_v59) = W18 m ρ c (Proc.devRef .tc main_v59) :=
  calc W19 m ρ c (Proc.devRef .tc main_v59)
    _ = W18 m ρ c (Proc.devRef .tc main_v59) := by skip_host hostOps6

theorem at19_arg7 (c : Dev nD) : W19 m ρ c (Proc.devRef .tc main_arg7) = m ((c : Thread nD τ).loc main_arg7) :=
  calc W19 m ρ c (Proc.devRef .tc main_arg7)
    _ = W18 m ρ c (Proc.devRef .tc main_arg7) := by skip_host hostOps6
    _ = W17 m ρ c (Proc.devRef .tc main_arg7) := W18_of_ne m ρ c main_arg7 (by decide)
    _ = W16 m ρ c (Proc.devRef .tc main_arg7) := by skip_host hostOps5_1
    _ = W15 m ρ c (Proc.devRef .tc main_arg7) := by skip_host hostOps5
    _ = W14 m ρ c (Proc.devRef .tc main_arg7) := W15_of_ne m ρ c main_arg7 (by decide)
    _ = W13 m ρ c (Proc.devRef .tc main_arg7) := by skip_host hostOps4_1
    _ = W12 m ρ c (Proc.devRef .tc main_arg7) := by skip_host hostOps4
    _ = W11 m ρ c (Proc.devRef .tc main_arg7) := W12_of_ne m ρ c main_arg7 (by decide)
    _ = W10 m ρ c (Proc.devRef .tc main_arg7) := by skip_host hostOps3_1
    _ = W9 m ρ c (Proc.devRef .tc main_arg7) := by skip_host hostOps3
    _ = W8 m ρ c (Proc.devRef .tc main_arg7) := W9_of_ne m ρ c main_arg7 (by decide)
    _ = W7 m ρ c (Proc.devRef .tc main_arg7) := by skip_host hostOps2_1
    _ = W6 m ρ c (Proc.devRef .tc main_arg7) := by skip_host hostOps2
    _ = W5 m ρ c (Proc.devRef .tc main_arg7) := W6_of_ne m ρ c main_arg7 (by decide)
    _ = W4 m ρ c (Proc.devRef .tc main_arg7) := by skip_host hostOps1
    _ = W3 m ρ c (Proc.devRef .tc main_arg7) := W4_of_ne m ρ c main_arg7 (by decide)
    _ = W2 m ρ c (Proc.devRef .tc main_arg7) := by skip_host hostOps0_2
    _ = W1 m ρ c (Proc.devRef .tc main_arg7) := by skip_host hostOps0_1
    _ = W0 m ρ c (Proc.devRef .tc main_arg7) := by skip_host hostOps0
    _ = m ((c : Thread nD τ).loc main_arg7) := rfl

theorem at20_v60 (c : Dev nD) : W20 m ρ c (Proc.devRef .tc main_v60) = W19 m ρ c (Proc.devRef .tc main_v60) :=
  calc W20 m ρ c (Proc.devRef .tc main_v60)
    _ = W19 m ρ c (Proc.devRef .tc main_v60) := by skip_host hostOps6_1

end Cert.KernelIdeal.Keep

end
-- ==== Proof.TakeMask.lean ====
import Idealize.ShloMosaic.PureOps.Ideal
import Idealize.ShloMosaic.PureOps.Contract
import Idealize.ShloMosaic.Lib.ValueIdx
import Idealize.ShloMosaic.Lib.StableHlo.Predicate
import Idealize.ShloMosaic.Lib.ReduceAll

/-!
  Reading rows by index with an out-of-range filler, when every index is in range.

  A row read that first wraps a negative index by adding the axis length, and then keeps the gathered row only
  where the index lies in `[0, hi]` (a filler elsewhere), is the plain gather of the raw index whenever every
  index word is, read as a signed integer, in `[0, hi]`:
  * `wrap_eq`: the wrap leaves a vector of non-negative words unchanged, because the signed test
    `idx < 0` is false at every position, so the select takes its third operand everywhere;
  * `fill_eq`: the in-range mask is 1 at every position, because both signed tests `0 ≤ idx` and
    `idx ≤ hi` hold, their conjunction is 1, and a reduction by "and" from 1 over words that are all 1 is 1;
    so the select takes the gathered array everywhere.
-/

namespace Cert.TakeMask

open Idealize.ShloMosaic Idealize.ShloMosaic.ValueIdx

/-- A left fold by "and" from 1 over one-bit words that are all 1 is 1. -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_one f hf l

/-- A reduction by "and", from an initial value 1, of an array of one-bit words that are all 1 is 1 at
    every result index, whatever axes are reduced. -/
theorem reduce_andi_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  unfold Host.reduce
  rw [hinit]
  exact foldl_andi_one (fun n => x (s.rowMajor.symm n)) (fun n => hx _) _

/-- The signed test `x < 0` is 0 on a word that reads non-negative. -/
theorem cmpi_slt_zero {x : BitVec 32} (h : 0 ≤ x.toInt) : IntOp.cmpi .slt x 0#32 = 0#1 := by
  have : ¬ x.toInt < 0 := not_lt.2 h
  simp [IntOp.cmpi, BitVec.slt, this]

/-- The signed test `x ≥ 0` is 1 on a word that reads non-negative. -/
theorem cmpi_sge_zero {x : BitVec 32} (h : 0 ≤ x.toInt) : IntOp.cmpi .sge x 0#32 = 1#1 := by
  simp [IntOp.cmpi, BitVec.sle, h]

/-- The signed test `x ≤ y` is 1 when the words read so. -/
theorem cmpi_sle_of_le {x y : BitVec 32} (h : x.toInt ≤ y.toInt) : IntOp.cmpi .sle x y = 1#1 := by
  simp [IntOp.cmpi, BitVec.sle, h]

/-- Wrapping a negative index by the axis length leaves a vector of non-negative indices unchanged. -/
theorem wrap_eq {M : Nat} (w1 : (⟨0, ![]⟩ : Shape).BroadcastsInDim ⟨1, ![M]⟩ (![] : Fin 0 → Fin 1))
    (idx : IVec ⟨1, ![M]⟩ 32) (n : BitVec 32) (h0 : ∀ e : Fin M, 0 ≤ (idx (ValueIdx.ix1 e)).toInt) :
    select (cmpi .slt idx (broadcastInDim ⟨1, ![M]⟩ ![] w1 (constantI ⟨0, ![]⟩ 32 0#32)))
      (addi idx (broadcastInDim ⟨1, ![M]⟩ ![] w1 (constantI ⟨0, ![]⟩ 32 n))) idx = idx := by
  funext i
  obtain ⟨e, rfl⟩ : ∃ e, i = ix1 e := ⟨_, eq_ix1 i⟩
  show Scalar.select (IntOp.cmpi .slt (idx (ix1 e)) 0#32) _ _ = _
  rw [cmpi_slt_zero (h0 e)]
  exact select_zero _ _

/-- With every index in `[0, hi]` the in-range mask is 1 everywhere, so the select keeps the gathered array. -/
theorem fill_eq {α : Type} {M D : Nat}
    (w2 : (⟨1, ![M]⟩ : Shape).BroadcastsInDim ⟨2, ![M, 1]⟩ (![0] : Fin 1 → Fin 2))
    (w3 : (⟨0, ![]⟩ : Shape).BroadcastsInDim ⟨2, ![M, 1]⟩ (![] : Fin 0 → Fin 2))
    (w4 : (⟨1, ![1]⟩ : Shape).BroadcastsInDim ⟨2, ![1, 1]⟩ (![1] : Fin 1 → Fin 2))
    (w5 : (⟨2, ![1, 1]⟩ : Shape).BroadcastsInDim ⟨2, ![M, 1]⟩ (![0, 1] : Fin 2 → Fin 2))
    (w6 : (⟨2, ![M, 1]⟩ : Shape).ReducesTo [1] ⟨1, ![M]⟩)
    (hpos : 0 < (⟨0, ![]⟩ : Shape).numel)
    (w7 : (⟨1, ![M]⟩ : Shape).BroadcastsInDim ⟨2, ![M, D]⟩ (![0] : Fin 1 → Fin 2))
    (hi : BitVec 32) (hhi : 0 ≤ hi.toInt) (idx : IVec ⟨1, ![M]⟩ 32)
    (hin : ∀ e : Fin M, 0 ≤ (idx (ValueIdx.ix1 e)).toInt ∧ (idx (ValueIdx.ix1 e)).toInt ≤ hi.toInt)
    (g fill : (⟨2, ![M, D]⟩ : Shape).Idx → α) :
    select (broadcastInDim ⟨2, ![M, D]⟩ ![0] w7
        (Host.reduce IntOp.andi
          (andi (cmpi .sge (broadcastInDim ⟨2, ![M, 1]⟩ ![0] w2 idx)
                  (broadcastInDim ⟨2, ![M, 1]⟩ ![] w3 (constantI ⟨0, ![]⟩ 32 0#32)))
                (cmpi .sle (broadcastInDim ⟨2, ![M, 1]⟩ ![0] w2 idx)
                  (broadcastInDim ⟨2, ![M, 1]⟩ ![0, 1] w5
                    (broadcastInDim ⟨2, ![1, 1]⟩ ![1] w4 (constantI ⟨1, ![1]⟩ 32 hi)))))
          (constantI ⟨0, ![]⟩ 1 1#1) w6 hpos)) g fill = g := by
  -- every index word, at whatever position of the vector, reads in [0, hi]
  have hall : ∀ k : (⟨1, ![M]⟩ : Shape).Idx, 0 ≤ (idx k).toInt ∧ (idx k).toInt ≤ hi.toInt := fun k => by
    rw [eq_ix1 k]; exact hin _
  -- so the conjunction of the two tests is 1 at every position of the column of indices
  have hand : ∀ i : (⟨2, ![M, 1]⟩ : Shape).Idx,
      andi (cmpi .sge (broadcastInDim ⟨2, ![M, 1]⟩ ![0] w2 idx)
              (broadcastInDim ⟨2, ![M, 1]⟩ ![] w3 (constantI ⟨0, ![]⟩ 32 0#32)))
            (cmpi .sle (broadcastInDim ⟨2, ![M, 1]⟩ ![0] w2 idx)
              (broadcastInDim ⟨2, ![M, 1]⟩ ![0, 1] w5
                (broadcastInDim ⟨2, ![1, 1]⟩ ![1] w4 (constantI ⟨1, ![1]⟩ 32 hi)))) i = 1#1 := fun i => by
    show IntOp.andi (IntOp.cmpi .sge (idx _) 0#32) (IntOp.cmpi .sle (idx _) hi) = 1#1
    rw [cmpi_sge_zero (hall _).1, cmpi_sle_of_le (hall _).2]
    rfl
  funext i
  show Scalar.select (Host.reduce IntOp.andi _ _ w6 hpos _) (g i) (fill i) = g i
  rw [reduce_andi_one _ (constantI ⟨0, ![]⟩ 1 1#1) w6 hpos hand (fun _ => rfl)]
  exact select_one _ _

/-- The mask fact at the literal shapes of a 200000-index read of a 500000 × 128 table. -/
example {α : Type}
    (w2 : (⟨1, ![200000]⟩ : Shape).BroadcastsInDim ⟨2, ![200000, 1]⟩ (![0] : Fin 1 → Fin 2))
    (w3 : (⟨0, ![]⟩ : Shape).BroadcastsInDim ⟨2, ![200000, 1]⟩ (![] : Fin 0 → Fin 2))
    (w4 : (⟨1, ![1]⟩ : Shape).BroadcastsInDim ⟨2, ![1, 1]⟩ (![1] : Fin 1 → Fin 2))
    (w5 : (⟨2, ![1, 1]⟩ : Shape).BroadcastsInDim ⟨2, ![200000, 1]⟩ (![0, 1] : Fin 2 → Fin 2))
    (w6 : (⟨2, ![200000, 1]⟩ : Shape).ReducesTo [1] ⟨1, ![200000]⟩)
    (hpos : 0 < (⟨0, ![]⟩ : Shape).numel)
    (w7 : (⟨1, ![200000]⟩ : Shape).BroadcastsInDim ⟨2, ![200000, 128]⟩ (![0] : Fin 1 → Fin 2))
    (idx : IVec ⟨1, ![200000]⟩ 32)
    (hin : ∀ e : Fin 200000, 0 ≤ (idx (ValueIdx.ix1 e)).toInt ∧ (idx (ValueIdx.ix1 e)).toInt ≤ (499999#32).toInt)
    (g fill : (⟨2, ![200000, 128]⟩ : Shape).Idx → α) :
    select (broadcastInDim ⟨2, ![200000, 128]⟩ ![0] w7
        (Host.reduce IntOp.andi
          (andi (cmpi .sge (broadcastInDim ⟨2, ![200000, 1]⟩ ![0] w2 idx)
                  (broadcastInDim ⟨2, ![200000, 1]⟩ ![] w3 (constantI ⟨0, ![]⟩ 32 0#32)))
                (cmpi .sle (broadcastInDim ⟨2, ![200000, 1]⟩ ![0] w2 idx)
                  (broadcastInDim ⟨2, ![200000, 1]⟩ ![0, 1] w5
                    (broadcastInDim ⟨2, ![1, 1]⟩ ![1] w4 (constantI ⟨1, ![1]⟩ 32 499999#32)))))
          (constantI ⟨0, ![]⟩ 1 1#1) w6 hpos)) g fill = g :=
  fill_eq w2 w3 w4 w5 w6 hpos w7 499999#32 (by decide) idx hin g fill

/-- The wrap fact at the literal shapes of the same read. -/
example (w1 : (⟨0, ![]⟩ : Shape).BroadcastsInDim ⟨1, ![200000]⟩ (![] : Fin 0 → Fin 1))
    (idx : IVec ⟨1, ![200000]⟩ 32) (h0 : ∀ e : Fin 200000, 0 ≤ (idx (ValueIdx.ix1 e)).toInt) :
    select (cmpi .slt idx (broadcastInDim ⟨1, ![200000]⟩ ![] w1 (constantI ⟨0, ![]⟩ 32 0#32)))
      (addi idx (broadcastInDim ⟨1, ![200000]⟩ ![] w1 (constantI ⟨0, ![]⟩ 32 500000#32))) idx = idx :=
  wrap_eq w1 idx 500000#32 h0

end Cert.TakeMask
-- ==== Proof.TakeGather.lean ====
/-
  Reading rows by index, as the program writes it, is the plain gather when the indices are in range.

  The program's row read wraps a negative index by the axis length N, gathers, and keeps the gathered row only where
  the wrapped index lies in [0, N - 1], a filler elsewhere (`takeTerm`). When every raw index lies in [0, N) the wrap
  changes nothing and the in-range mask is 1 everywhere, so the read is the gather at the raw indices
  (`takeTerm_eq_gather`, from the two facts of `Cert.TakeMask`). `take_v0` says this of the first such stretch of
  operations, from any contents `V` the stretch starts at: what the stretch leaves in its result buffer is that term of
  the contents of its table and index buffers (the operations' results composed, each typed buffer's transport being
  the identity), hence the gather.
-/
import proofs.«423856_j90606630076836_1_alg».proof.Proof.Gen.KernelIdeal.Frame
import proofs.«423856_j90606630076836_1_alg».proof.Proof.TakeMask
import proofs.«423856_j90606630076836_1_alg».proof.Proof.Range
import Idealize.ShloMosaic.Lib.StableHlo.Run
import Idealize.ShloMosaic.PureOps.Ideal

noncomputable section

namespace Cert.KernelIdeal.Takes

open Cert.KernelIdeal Cert.KernelIdeal.Gen Idealize.ShloMosaic Idealize.ShloMosaic.TcCoe
open Idealize.ShloMosaic.ValueIdx

/-- A transport along an equation of a type with itself is the identity. -/
theorem cast_self {α : Type} (h : α = α) (a : α) : cast h a = a := by
  cases h; rfl

/-- The row read as the program writes it: wrap a negative index by the axis length n, keep the gathered row where
    the wrapped index lies in [0, hi] and the filler elsewhere. `G` is the gather as a function of the column of
    indices. -/
def takeTerm {α : Type} {M D : Nat}
    (w1 : (⟨0, ![]⟩ : Shape).BroadcastsInDim ⟨1, ![M]⟩ (![] : Fin 0 → Fin 1))
    (w2 : (⟨1, ![M]⟩ : Shape).BroadcastsInDim ⟨2, ![M, 1]⟩ (![0] : Fin 1 → Fin 2))
    (w3 : (⟨0, ![]⟩ : Shape).BroadcastsInDim ⟨2, ![M, 1]⟩ (![] : Fin 0 → Fin 2))
    (w4 : (⟨1, ![1]⟩ : Shape).BroadcastsInDim ⟨2, ![1, 1]⟩ (![1] : Fin 1 → Fin 2))
    (w5 : (⟨2, ![1, 1]⟩ : Shape).BroadcastsInDim ⟨2, ![M, 1]⟩ (![0, 1] : Fin 2 → Fin 2))
    (w6 : (⟨2, ![M, 1]⟩ : Shape).ReducesTo [1] ⟨1, ![M]⟩)
    (hpos : 0 < (⟨0, ![]⟩ : Shape).numel)
    (w7 : (⟨1, ![M]⟩ : Shape).BroadcastsInDim ⟨2, ![M, D]⟩ (![0] : Fin 1 → Fin 2))
    (n hi : BitVec 32) (idx : IVec ⟨1, ![M]⟩ 32)
    (G : IVec ⟨2, ![M, 1]⟩ 32 → (⟨2, ![M, D]⟩ : Shape).Idx → α) (fill : (⟨2, ![M, D]⟩ : Shape).Idx → α) :
    (⟨2, ![M, D]⟩ : Shape).Idx → α :=
  select (broadcastInDim ⟨2, ![M, D]⟩ ![0] w7
      (Host.reduce IntOp.andi
        (andi (cmpi .sge (broadcastInDim ⟨2, ![M, 1]⟩ ![0] w2
                  (select (cmpi .slt idx (broadcastInDim ⟨1, ![M]⟩ ![] w1 (constantI ⟨0, ![]⟩ 32 0#32)))
                    (addi idx (broadcastInDim ⟨1, ![M]⟩ ![] w1 (constantI ⟨0, ![]⟩ 32 n))) idx))
                (broadcastInDim ⟨2, ![M, 1]⟩ ![] w3 (constantI ⟨0, ![]⟩ 32 0#32)))
              (cmpi .sle (broadcastInDim ⟨2, ![M, 1]⟩ ![0] w2
                  (select (cmpi .slt idx (broadcastInDim ⟨1, ![M]⟩ ![] w1 (constantI ⟨0, ![]⟩ 32 0#32)))
                    (addi idx (broadcastInDim ⟨1, ![M]⟩ ![] w1 (constantI ⟨0, ![]⟩ 32 n))) idx))
                (broadcastInDim ⟨2, ![M, 1]⟩ ![0, 1] w5
                  (broadcastInDim ⟨2, ![1, 1]⟩ ![1] w4 (constantI ⟨1, ![1]⟩ 32 hi)))))
        (constantI ⟨0, ![]⟩ 1 1#1) w6 hpos))
    (G (broadcastInDim ⟨2, ![M, 1]⟩ ![0] w2
        (select (cmpi .slt idx (broadcastInDim ⟨1, ![M]⟩ ![] w1 (constantI ⟨0, ![]⟩ 32 0#32)))
          (addi idx (broadcastInDim ⟨1, ![M]⟩ ![] w1 (constantI ⟨0, ![]⟩ 32 n))) idx)))
    fill

/-- When every raw index lies in [0, N) and N ≤ hi + 1, the read is the gather at the raw indices: the wrap changes
    nothing and the mask is 1 everywhere. -/
theorem takeTerm_eq_gather {α : Type} {M D : Nat}
    (w1 : (⟨0, ![]⟩ : Shape).BroadcastsInDim ⟨1, ![M]⟩ (![] : Fin 0 → Fin 1))
    (w2 : (⟨1, ![M]⟩ : Shape).BroadcastsInDim ⟨2, ![M, 1]⟩ (![0] : Fin 1 → Fin 2))
    (w3 : (⟨0, ![]⟩ : Shape).BroadcastsInDim ⟨2, ![M, 1]⟩ (![] : Fin 0 → Fin 2))
    (w4 : (⟨1, ![1]⟩ : Shape).BroadcastsInDim ⟨2, ![1, 1]⟩ (![1] : Fin 1 → Fin 2))
    (w5 : (⟨2, ![1, 1]⟩ : Shape).BroadcastsInDim ⟨2, ![M, 1]⟩ (![0, 1] : Fin 2 → Fin 2))
    (w6 : (⟨2, ![M, 1]⟩ : Shape).ReducesTo [1] ⟨1, ![M]⟩)
    (hpos : 0 < (⟨0, ![]⟩ : Shape).numel)
    (w7 : (⟨1, ![M]⟩ : Shape).BroadcastsInDim ⟨2, ![M, D]⟩ (![0] : Fin 1 → Fin 2))
    (n hi : BitVec 32) (N : Nat) (hhi : 0 ≤ hi.toInt) (hN : (N : ℤ) ≤ hi.toInt + 1)
    (idx : IVec ⟨1, ![M]⟩ 32) (h : Cert.Range.InRange idx N)
    (G : IVec ⟨2, ![M, 1]⟩ 32 → (⟨2, ![M, D]⟩ : Shape).Idx → α) (fill : (⟨2, ![M, D]⟩ : Shape).Idx → α) :
    takeTerm w1 w2 w3 w4 w5 w6 hpos w7 n hi idx G fill = G (broadcastInDim ⟨2, ![M, 1]⟩ ![0] w2 idx) := by
  unfold takeTerm
  rw [Cert.TakeMask.wrap_eq w1 idx n (fun e => (h e).1)]
  exact Cert.TakeMask.fill_eq w2 w3 w4 w5 w6 hpos w7 hi hhi idx
    (fun e => ⟨(h e).1, by have := (h e).2; omega⟩) _ fill

set_option maxHeartbeats 4000000 in
/-- Rows of a 500000 × 128 table at 200000 raw indices. -/
theorem take_v0 (V : Valuation τ sig (Elt Ideal)) (h : Cert.Range.InRange (V (Proc.devRef .tc main_arg0)) 500000) :
    StableHlo.after hostOps0 V (Proc.devRef .tc main_v0)
      = Host.gather gather_S500000x128_S200000x1_S200000x128_1_0_n_n_0_1_1128 (V (Proc.devRef .tc main_arg8))
          (broadcastInDim S200000x1 ![0] bcast_S200000_S200000x1_0 (V (Proc.devRef .tc main_arg0))) := by
  refine Eq.trans ?_ (takeTerm_eq_gather (M := 200000) (D := 128) bcast_S_S200000 bcast_S200000_S200000x1_0
    bcast_S_S200000x1 bcast_S1_S1x1_1 bcast_S1x1_S200000x1_0_1 reducesTo_S200000x1_S200000_d1 h_S_
    bcast_S200000_S200000x128_0 500000#32 499999#32 500000 (by decide) (by decide) (V (Proc.devRef .tc main_arg0)) h
    (fun i => Host.gather gather_S500000x128_S200000x1_S200000x128_1_0_n_n_0_1_1128 (V (Proc.devRef .tc main_arg8)) i)
    (broadcastInDim S200000x128 ![] bcast_S_S200000x128 (constant (F := Ideal) S_ .f32 0x7FC00000#32)))
  simp only [hostOps0]
  after_results_simp
  simp only [cast_cast]
  simp only [cast_self]
  rfl

end Cert.KernelIdeal.Takes

end
-- ==== Proof.Takes.lean ====
/-
  The other seven row reads by index of the program, each as the plain gather of the rows its raw indices name when
  the index array is in range: the statement and proof of `take_v0` (TakeGather.lean) at each stretch's buffers and
  sizes. With `take_v0`, the eight reads.
-/
import proofs.«423856_j90606630076836_1_alg».proof.Proof.TakeGather

noncomputable section

namespace Cert.KernelIdeal.Takes

open Cert.KernelIdeal Cert.KernelIdeal.Gen Idealize.ShloMosaic Idealize.ShloMosaic.TcCoe
open Idealize.ShloMosaic.ValueIdx

set_option maxHeartbeats 4000000 in
/-- Rows of a 100000 × 128 table at 50000 raw indices. -/
theorem take_v1 (V : Valuation τ sig (Elt Ideal)) (h : Cert.Range.InRange (V (Proc.devRef .tc main_arg2)) 100000) :
    StableHlo.after hostOps0_1 V (Proc.devRef .tc main_v1)
      = Host.gather gather_S100000x128_S50000x1_S50000x128_1_0_n_n_0_1_1128 (V (Proc.devRef .tc main_arg9))
          (broadcastInDim S50000x1 ![0] bcast_S50000_S50000x1_0 (V (Proc.devRef .tc main_arg2))) := by
  refine Eq.trans ?_ (takeTerm_eq_gather (M := 50000) (D := 128) bcast_S_S50000 bcast_S50000_S50000x1_0
    bcast_S_S50000x1 bcast_S1_S1x1_1 bcast_S1x1_S50000x1_0_1 reducesTo_S50000x1_S50000_d1 h_S_
    bcast_S50000_S50000x128_0 100000#32 99999#32 100000 (by decide) (by decide) (V (Proc.devRef .tc main_arg2)) h
    (fun i => Host.gather gather_S100000x128_S50000x1_S50000x128_1_0_n_n_0_1_1128 (V (Proc.devRef .tc main_arg9)) i)
    (broadcastInDim S50000x128 ![] bcast_S_S50000x128 (constant (F := Ideal) S_ .f32 0x7FC00000#32)))
  simp only [hostOps0_1]
  after_results_simp
  simp only [cast_cast]
  simp only [cast_self]
  rfl

set_option maxHeartbeats 4000000 in
/-- Rows of a 50000 × 128 table at 600000 raw indices. -/
theorem take_v8 (V : Valuation τ sig (Elt Ideal)) (h : Cert.Range.InRange (V (Proc.devRef .tc main_arg5)) 50000) :
    StableHlo.after hostOps2 V (Proc.devRef .tc main_v8)
      = Host.gather gather_S50000x128_S600000x1_S600000x128_1_0_n_n_0_1_1128 (V (Proc.devRef .tc main_v7))
          (broadcastInDim S600000x1 ![0] bcast_S600000_S600000x1_0 (V (Proc.devRef .tc main_arg5))) := by
  refine Eq.trans ?_ (takeTerm_eq_gather (M := 600000) (D := 128) bcast_S_S600000 bcast_S600000_S600000x1_0
    bcast_S_S600000x1 bcast_S1_S1x1_1 bcast_S1x1_S600000x1_0_1 reducesTo_S600000x1_S600000_d1 h_S_
    bcast_S600000_S600000x128_0 50000#32 49999#32 50000 (by decide) (by decide) (V (Proc.devRef .tc main_arg5)) h
    (fun i => Host.gather gather_S50000x128_S600000x1_S600000x128_1_0_n_n_0_1_1128 (V (Proc.devRef .tc main_v7)) i)
    (broadcastInDim S600000x128 ![] bcast_S_S600000x128 (constant (F := Ideal) S_ .f32 0x7FC00000#32)))
  simp only [hostOps2]
  after_results_simp
  simp only [cast_cast]
  simp only [cast_self]
  rfl

set_option maxHeartbeats 4000000 in
/-- Rows of a 200000 × 128 table at 600000 raw indices. -/
theorem take_v21 (V : Valuation τ sig (Elt Ideal)) (h : Cert.Range.InRange (V (Proc.devRef .tc main_arg4)) 200000) :
    StableHlo.after hostOps3 V (Proc.devRef .tc main_v21)
      = Host.gather gather_S200000x128_S600000x1_S600000x128_1_0_n_n_0_1_1128 (V (Proc.devRef .tc main_v4))
          (broadcastInDim S600000x1 ![0] bcast_S600000_S600000x1_0 (V (Proc.devRef .tc main_arg4))) := by
  refine Eq.trans ?_ (takeTerm_eq_gather (M := 600000) (D := 128) bcast_S_S600000 bcast_S600000_S600000x1_0
    bcast_S_S600000x1 bcast_S1_S1x1_1 bcast_S1x1_S600000x1_0_1 reducesTo_S600000x1_S600000_d1 h_S_
    bcast_S600000_S600000x128_0 200000#32 199999#32 200000 (by decide) (by decide) (V (Proc.devRef .tc main_arg4)) h
    (fun i => Host.gather gather_S200000x128_S600000x1_S600000x128_1_0_n_n_0_1_1128 (V (Proc.devRef .tc main_v4)) i)
    (broadcastInDim S600000x128 ![] bcast_S_S600000x128 (constant (F := Ideal) S_ .f32 0x7FC00000#32)))
  simp only [hostOps3]
  after_results_simp
  simp only [cast_cast]
  simp only [cast_self]
  rfl

set_option maxHeartbeats 4000000 in
/-- Rows of a 50000 × 128 table at 600000 raw indices. -/
theorem take_v34 (V : Valuation τ sig (Elt Ideal)) (h : Cert.Range.InRange (V (Proc.devRef .tc main_arg5)) 50000) :
    StableHlo.after hostOps4 V (Proc.devRef .tc main_v34)
      = Host.gather gather_S50000x128_S600000x1_S600000x128_1_0_n_n_0_1_1128 (V (Proc.devRef .tc main_v33))
          (broadcastInDim S600000x1 ![0] bcast_S600000_S600000x1_0 (V (Proc.devRef .tc main_arg5))) := by
  refine Eq.trans ?_ (takeTerm_eq_gather (M := 600000) (D := 128) bcast_S_S600000 bcast_S600000_S600000x1_0
    bcast_S_S600000x1 bcast_S1_S1x1_1 bcast_S1x1_S600000x1_0_1 reducesTo_S600000x1_S600000_d1 h_S_
    bcast_S600000_S600000x128_0 50000#32 49999#32 50000 (by decide) (by decide) (V (Proc.devRef .tc main_arg5)) h
    (fun i => Host.gather gather_S50000x128_S600000x1_S600000x128_1_0_n_n_0_1_1128 (V (Proc.devRef .tc main_v33)) i)
    (broadcastInDim S600000x128 ![] bcast_S_S600000x128 (constant (F := Ideal) S_ .f32 0x7FC00000#32)))
  simp only [hostOps4]
  after_results_simp
  simp only [cast_cast]
  simp only [cast_self]
  rfl

set_option maxHeartbeats 4000000 in
/-- Rows of a 200000 × 128 table at 600000 raw indices. -/
theorem take_v47 (V : Valuation τ sig (Elt Ideal)) (h : Cert.Range.InRange (V (Proc.devRef .tc main_arg4)) 200000) :
    StableHlo.after hostOps5 V (Proc.devRef .tc main_v47)
      = Host.gather gather_S200000x128_S600000x1_S600000x128_1_0_n_n_0_1_1128 (V (Proc.devRef .tc main_v20))
          (broadcastInDim S600000x1 ![0] bcast_S600000_S600000x1_0 (V (Proc.devRef .tc main_arg4))) := by
  refine Eq.trans ?_ (takeTerm_eq_gather (M := 600000) (D := 128) bcast_S_S600000 bcast_S600000_S600000x1_0
    bcast_S_S600000x1 bcast_S1_S1x1_1 bcast_S1x1_S600000x1_0_1 reducesTo_S600000x1_S600000_d1 h_S_
    bcast_S600000_S600000x128_0 200000#32 199999#32 200000 (by decide) (by decide) (V (Proc.devRef .tc main_arg4)) h
    (fun i => Host.gather gather_S200000x128_S600000x1_S600000x128_1_0_n_n_0_1_1128 (V (Proc.devRef .tc main_v20)) i)
    (broadcastInDim S600000x128 ![] bcast_S_S600000x128 (constant (F := Ideal) S_ .f32 0x7FC00000#32)))
  simp only [hostOps5]
  after_results_simp
  simp only [cast_cast]
  simp only [cast_self]
  rfl

set_option maxHeartbeats 4000000 in
/-- Rows of a 200000 × 64 table at 200000 raw indices. -/
theorem take_v60 (V : Valuation τ sig (Elt Ideal)) (h : Cert.Range.InRange (V (Proc.devRef .tc main_arg6)) 200000) :
    StableHlo.after hostOps6 V (Proc.devRef .tc main_v60)
      = Host.gather gather_S200000x64_S200000x1_S200000x64_1_0_n_n_0_1_164 (V (Proc.devRef .tc main_v46))
          (broadcastInDim S200000x1 ![0] bcast_S200000_S200000x1_0 (V (Proc.devRef .tc main_arg6))) := by
  refine Eq.trans ?_ (takeTerm_eq_gather (M := 200000) (D := 64) bcast_S_S200000 bcast_S200000_S200000x1_0
    bcast_S_S200000x1 bcast_S1_S1x1_1 bcast_S1x1_S200000x1_0_1 reducesTo_S200000x1_S200000_d1 h_S_
    bcast_S200000_S200000x64_0 200000#32 199999#32 200000 (by decide) (by decide) (V (Proc.devRef .tc main_arg6)) h
    (fun i => Host.gather gather_S200000x64_S200000x1_S200000x64_1_0_n_n_0_1_164 (V (Proc.devRef .tc main_v46)) i)
    (broadcastInDim S200000x64 ![] bcast_S_S200000x64 (constant (F := Ideal) S_ .f32 0x7FC00000#32)))
  simp only [hostOps6]
  after_results_simp
  simp only [cast_cast]
  simp only [cast_self]
  rfl

set_option maxHeartbeats 4000000 in
/-- Rows of a 50000 × 64 table at 200000 raw indices. -/
theorem take_v61 (V : Valuation τ sig (Elt Ideal)) (h : Cert.Range.InRange (V (Proc.devRef .tc main_arg7)) 50000) :
    StableHlo.after hostOps6_1 V (Proc.devRef .tc main_v61)
      = Host.gather gather_S50000x64_S200000x1_S200000x64_1_0_n_n_0_1_164 (V (Proc.devRef .tc main_v59))
          (broadcastInDim S200000x1 ![0] bcast_S200000_S200000x1_0 (V (Proc.devRef .tc main_arg7))) := by
  refine Eq.trans ?_ (takeTerm_eq_gather (M := 200000) (D := 64) bcast_S_S200000 bcast_S200000_S200000x1_0
    bcast_S_S200000x1 bcast_S1_S1x1_1 bcast_S1x1_S200000x1_0_1 reducesTo_S200000x1_S200000_d1 h_S_
    bcast_S200000_S200000x64_0 50000#32 49999#32 50000 (by decide) (by decide) (V (Proc.devRef .tc main_arg7)) h
    (fun i => Host.gather gather_S50000x64_S200000x1_S200000x64_1_0_n_n_0_1_164 (V (Proc.devRef .tc main_v59)) i)
    (broadcastInDim S200000x64 ![] bcast_S_S200000x64 (constant (F := Ideal) S_ .f32 0x7FC00000#32)))
  simp only [hostOps6_1]
  after_results_simp
  simp only [cast_cast]
  simp only [cast_self]
  rfl

end Cert.KernelIdeal.Takes

end
-- ==== Proof.Glue.lean ====
/-
  The host stretches between the regions, read at the buffers the later regions read.

  Between its regions the program runs short stretches of plain array operations: a weight matrix is transposed, a bias
  vector of length C is made a 1 × C row, the gathered rows are summed per segment (a scatter-add of the rows into an
  array of zeros, the row r going to the segment the index vector names for r), the segments' sizes are counted (the same
  scatter-add of a vector of ones into a vector of zeros) and the counts are made an n × 1 column, and at the end an
  n × 1 column is read as a vector of length n.

  Every operation of a stretch writes one buffer of its own and reads buffers written earlier in the stretch or held
  before it. So the contents of a result buffer after the stretch are the operations' functions composed along the
  chain that leads to it, applied to what the buffers the stretch only reads held before it. Each theorem below states
  this for one result buffer, at any contents V before the stretch and any float model.
-/
import proofs.«423856_j90606630076836_1_alg».proof.Proof.Gen.KernelIdeal.Frame
import Idealize.ShloMosaic.Lib.StableHlo.Run
import Idealize.ShloMosaic.PureOps.Ideal
import Idealize.ShloMosaic.Lib.Pipeline.Value
import Idealize.ShloMosaic.Lib.ValueIdx

noncomputable section

namespace Cert.KernelIdeal.Glue

open Cert.KernelIdeal Cert.KernelIdeal.Gen Idealize.ShloMosaic Idealize.ShloMosaic.TcCoe Idealize.SL.Sem

variable {F : FTy → Type} [FloatOps F]

/-! ## The stretch before the first region: the encoder's weight and bias -/

set_option maxHeartbeats 4000000 in
/-- The encoder's weight (128 × 32) transposed to 32 × 128. -/
theorem glue_v2 (V : Valuation τ sig (Elt F)) :
    StableHlo.after hostOps0_2 V (Proc.devRef .tc main_v2)
      = transpose S32x128 [1, 0] (V (Proc.devRef .tc main_arg10)) transposes_S128x32_S32x128_1_0 := by
  simp only [hostOps0_2]; after_results_simp <;> rfl

set_option maxHeartbeats 4000000 in
/-- The encoder's bias (length 128) as a 1 × 128 row. -/
theorem glue_v3 (V : Valuation τ sig (Elt F)) :
    StableHlo.after hostOps0_2 V (Proc.devRef .tc main_v3)
      = broadcastInDim S1x128 ![1] bcast_S128_S1x128_1 (V (Proc.devRef .tc main_arg11)) := by
  simp only [hostOps0_2]; after_results_simp <;> rfl

/-! ## The stretch before the second region -/

set_option maxHeartbeats 4000000 in
/-- The second weight (128 × 64) transposed to 64 × 128. -/
theorem glue_v5 (V : Valuation τ sig (Elt F)) :
    StableHlo.after hostOps1 V (Proc.devRef .tc main_v5)
      = transpose S64x128 [1, 0] (V (Proc.devRef .tc main_arg12)) transposes_S128x64_S64x128_1_0 := by
  simp only [hostOps1]; after_results_simp <;> rfl

set_option maxHeartbeats 4000000 in
/-- The second bias (length 128) as a 1 × 128 row. -/
theorem glue_v6 (V : Valuation τ sig (Elt F)) :
    StableHlo.after hostOps1 V (Proc.devRef .tc main_v6)
      = broadcastInDim S1x128 ![1] bcast_S128_S1x128_1 (V (Proc.devRef .tc main_arg13)) := by
  simp only [hostOps1]; after_results_simp <;> rfl

/-! ## The first aggregation: 600000 gathered rows summed into 200000 segments -/

set_option maxHeartbeats 4000000 in
/-- The segment sums: the gathered rows (600000 × 128) added into a 200000 × 128 array of zeros, row r into the
    segment the index vector names for r (the index vector read as a 600000 × 1 column). -/
theorem glue_v11 (V : Valuation τ sig (Elt F)) :
    StableHlo.after hostOps2_1 V (Proc.devRef .tc main_v11)
      = Host.scatterAdd scatter_S200000x128_S600000x1_S600000x128_1_0_0_1
          (broadcastInDim S200000x128 ![] bcast_S_S200000x128 (constant S_ .f32 0x00000000#32))
          (broadcastInDim S600000x1 ![0] bcast_S600000_S600000x1_0 (V (Proc.devRef .tc main_arg4)))
          (V (Proc.devRef .tc main_v8)) := by
  simp only [hostOps2_1]; after_results_simp <;> rfl

set_option maxHeartbeats 4000000 in
/-- The segment sizes as a 200000 × 1 column: a vector of 600000 ones added into a vector of 200000 zeros by the
    same index vector. -/
theorem glue_v16 (V : Valuation τ sig (Elt F)) :
    StableHlo.after hostOps2_1 V (Proc.devRef .tc main_v16)
      = broadcastInDim S200000x1 ![0] bcast_S200000_S200000x1_0
          (Host.scatterAdd scatter_S200000_S600000x1_S600000_n_0_0_1
            (broadcastInDim S200000 ![] bcast_S_S200000 (constant S_ .f32 0x00000000#32))
            (broadcastInDim S600000x1 ![0] bcast_S600000_S600000x1_0 (V (Proc.devRef .tc main_arg4)))
            (broadcastInDim S600000 ![] bcast_S_S600000 (constant S_ .f32 0x3F800000#32))) := by
  simp only [hostOps2_1]; after_results_simp <;> rfl

set_option maxHeartbeats 4000000 in
/-- The first of the layer's two weights (128 × 128) transposed. -/
theorem glue_v17 (V : Valuation τ sig (Elt F)) :
    StableHlo.after hostOps2_1 V (Proc.devRef .tc main_v17)
      = transpose S128x128 [1, 0] (V (Proc.devRef .tc main_arg14)) transposes_S128x128_S128x128_1_0 := by
  simp only [hostOps2_1]; after_results_simp <;> rfl

set_option maxHeartbeats 4000000 in
/-- The second of the layer's two weights (128 × 128) transposed. -/
theorem glue_v18 (V : Valuation τ sig (Elt F)) :
    StableHlo.after hostOps2_1 V (Proc.devRef .tc main_v18)
      = transpose S128x128 [1, 0] (V (Proc.devRef .tc main_arg16)) transposes_S128x128_S128x128_1_0 := by
  simp only [hostOps2_1]; after_results_simp <;> rfl

set_option maxHeartbeats 4000000 in
/-- The layer's bias (length 128) as a 1 × 128 row. -/
theorem glue_v19 (V : Valuation τ sig (Elt F)) :
    StableHlo.after hostOps2_1 V (Proc.devRef .tc main_v19)
      = broadcastInDim S1x128 ![1] bcast_S128_S1x128_1 (V (Proc.devRef .tc main_arg15)) := by
  simp only [hostOps2_1]; after_results_simp <;> rfl

/-! ## The second aggregation: 600000 gathered rows summed into 50000 segments -/

set_option maxHeartbeats 4000000 in
/-- The segment sums: the gathered rows (600000 × 128) added into a 50000 × 128 array of zeros, row r into the
    segment the index vector names for r. -/
theorem glue_v24 (V : Valuation τ sig (Elt F)) :
    StableHlo.after hostOps3_1 V (Proc.devRef .tc main_v24)
      = Host.scatterAdd scatter_S50000x128_S600000x1_S600000x128_1_0_0_1
          (broadcastInDim S50000x128 ![] bcast_S_S50000x128 (constant S_ .f32 0x00000000#32))
          (broadcastInDim S600000x1 ![0] bcast_S600000_S600000x1_0 (V (Proc.devRef .tc main_arg5)))
          (V (Proc.devRef .tc main_v21)) := by
  simp only [hostOps3_1]; after_results_simp <;> rfl

set_option maxHeartbeats 4000000 in
/-- The segment sizes as a 50000 × 1 column: 600000 ones added into 50000 zeros by the same index vector. -/
theorem glue_v29 (V : Valuation τ sig (Elt F)) :
    StableHlo.after hostOps3_1 V (Proc.devRef .tc main_v29)
      = broadcastInDim S50000x1 ![0] bcast_S50000_S50000x1_0
          (Host.scatterAdd scatter_S50000_S600000x1_S600000_n_0_0_1
            (broadcastInDim S50000 ![] bcast_S_S50000 (constant S_ .f32 0x00000000#32))
            (broadcastInDim S600000x1 ![0] bcast_S600000_S600000x1_0 (V (Proc.devRef .tc main_arg5)))
            (broadcastInDim S600000 ![] bcast_S_S600000 (constant S_ .f32 0x3F800000#32))) := by
  simp only [hostOps3_1]; after_results_simp <;> rfl

set_option maxHeartbeats 4000000 in
/-- The first of the layer's two weights (128 × 128) transposed. -/
theorem glue_v30 (V : Valuation τ sig (Elt F)) :
    StableHlo.after hostOps3_1 V (Proc.devRef .tc main_v30)
      = transpose S128x128 [1, 0] (V (Proc.devRef .tc main_arg17)) transposes_S128x128_S128x128_1_0 := by
  simp only [hostOps3_1]; after_results_simp <;> rfl

set_option maxHeartbeats 4000000 in
/-- The second of the layer's two weights (128 × 128) transposed. -/
theorem glue_v31 (V : Valuation τ sig (Elt F)) :
    StableHlo.after hostOps3_1 V (Proc.devRef .tc main_v31)
      = transpose S128x128 [1, 0] (V (Proc.devRef .tc main_arg19)) transposes_S128x128_S128x128_1_0 := by
  simp only [hostOps3_1]; after_results_simp <;> rfl

set_option maxHeartbeats 4000000 in
/-- The layer's bias (length 128) as a 1 × 128 row. -/
theorem glue_v32 (V : Valuation τ sig (Elt F)) :
    StableHlo.after hostOps3_1 V (Proc.devRef .tc main_v32)
      = broadcastInDim S1x128 ![1] bcast_S128_S1x128_1 (V (Proc.devRef .tc main_arg18)) := by
  simp only [hostOps3_1]; after_results_simp <;> rfl

/-! ## The third aggregation: 600000 gathered rows summed into 200000 segments -/

set_option maxHeartbeats 4000000 in
/-- The segment sums: the gathered rows (600000 × 128) added into a 200000 × 128 array of zeros, row r into the
    segment the index vector names for r. -/
theorem glue_v37 (V : Valuation τ sig (Elt F)) :
    StableHlo.after hostOps4_1 V (Proc.devRef .tc main_v37)
      = Host.scatterAdd scatter_S200000x128_S600000x1_S600000x128_1_0_0_1
          (broadcastInDim S200000x128 ![] bcast_S_S200000x128 (constant S_ .f32 0x00000000#32))
          (broadcastInDim S600000x1 ![0] bcast_S600000_S600000x1_0 (V (Proc.devRef .tc main_arg4)))
          (V (Proc.devRef .tc main_v34)) := by
  simp only [hostOps4_1]; after_results_simp <;> rfl

set_option maxHeartbeats 4000000 in
/-- The segment sizes as a 200000 × 1 column: 600000 ones added into 200000 zeros by the same index vector. -/
theorem glue_v42 (V : Valuation τ sig (Elt F)) :
    StableHlo.after hostOps4_1 V (Proc.devRef .tc main_v42)
      = broadcastInDim S200000x1 ![0] bcast_S200000_S200000x1_0
          (Host.scatterAdd scatter_S200000_S600000x1_S600000_n_0_0_1
            (broadcastInDim S200000 ![] bcast_S_S200000 (constant S_ .f32 0x00000000#32))
            (broadcastInDim S600000x1 ![0] bcast_S600000_S600000x1_0 (V (Proc.devRef .tc main_arg4)))
            (broadcastInDim S600000 ![] bcast_S_S600000 (constant S_ .f32 0x3F800000#32))) := by
  simp only [hostOps4_1]; after_results_simp <;> rfl

set_option maxHeartbeats 4000000 in
/-- The first of the layer's two weights (64 × 128) transposed to 128 × 64. -/
theorem glue_v43 (V : Valuation τ sig (Elt F)) :
    StableHlo.after hostOps4_1 V (Proc.devRef .tc main_v43)
      = transpose S128x64 [1, 0] (V (Proc.devRef .tc main_arg20)) transposes_S64x128_S128x64_1_0 := by
  simp only [hostOps4_1]; after_results_simp <;> rfl

set_option maxHeartbeats 4000000 in
/-- The second of the layer's two weights (64 × 128) transposed to 128 × 64. -/
theorem glue_v44 (V : Valuation τ sig (Elt F)) :
    StableHlo.after hostOps4_1 V (Proc.devRef .tc main_v44)
      = transpose S128x64 [1, 0] (V (Proc.devRef .tc main_arg22)) transposes_S64x128_S128x64_1_0 := by
  simp only [hostOps4_1]; after_results_simp <;> rfl

set_option maxHeartbeats 4000000 in
/-- The layer's bias (length 64) as a 1 × 64 row. -/
theorem glue_v45 (V : Valuation τ sig (Elt F)) :
    StableHlo.after hostOps4_1 V (Proc.devRef .tc main_v45)
      = broadcastInDim S1x64 ![1] bcast_S64_S1x64_1 (V (Proc.devRef .tc main_arg21)) := by
  simp only [hostOps4_1]; after_results_simp <;> rfl

/-! ## The fourth aggregation: 600000 gathered rows summed into 50000 segments -/

set_option maxHeartbeats 4000000 in
/-- The segment sums: the gathered rows (600000 × 128) added into a 50000 × 128 array of zeros, row r into the
    segment the index vector names for r. -/
theorem glue_v50 (V : Valuation τ sig (Elt F)) :
    StableHlo.after hostOps5_1 V (Proc.devRef .tc main_v50)
      = Host.scatterAdd scatter_S50000x128_S600000x1_S600000x128_1_0_0_1
          (broadcastInDim S50000x128 ![] bcast_S_S50000x128 (constant S_ .f32 0x00000000#32))
          (broadcastInDim S600000x1 ![0] bcast_S600000_S600000x1_0 (V (Proc.devRef .tc main_arg5)))
          (V (Proc.devRef .tc main_v47)) := by
  simp only [hostOps5_1]; after_results_simp <;> rfl

set_option maxHeartbeats 4000000 in
/-- The segment sizes as a 50000 × 1 column: 600000 ones added into 50000 zeros by the same index vector. -/
theorem glue_v55 (V : Valuation τ sig (Elt F)) :
    StableHlo.after hostOps5_1 V (Proc.devRef .tc main_v55)
      = broadcastInDim S50000x1 ![0] bcast_S50000_S50000x1_0
          (Host.scatterAdd scatter_S50000_S600000x1_S600000_n_0_0_1
            (broadcastInDim S50000 ![] bcast_S_S50000 (constant S_ .f32 0x00000000#32))
            (broadcastInDim S600000x1 ![0] bcast_S600000_S600000x1_0 (V (Proc.devRef .tc main_arg5)))
            (broadcastInDim S600000 ![] bcast_S_S600000 (constant S_ .f32 0x3F800000#32))) := by
  simp only [hostOps5_1]; after_results_simp <;> rfl

set_option maxHeartbeats 4000000 in
/-- The first of the layer's two weights (64 × 128) transposed to 128 × 64. -/
theorem glue_v56 (V : Valuation τ sig (Elt F)) :
    StableHlo.after hostOps5_1 V (Proc.devRef .tc main_v56)
      = transpose S128x64 [1, 0] (V (Proc.devRef .tc main_arg23)) transposes_S64x128_S128x64_1_0 := by
  simp only [hostOps5_1]; after_results_simp <;> rfl

set_option maxHeartbeats 4000000 in
/-- The second of the layer's two weights (64 × 128) transposed to 128 × 64. -/
theorem glue_v57 (V : Valuation τ sig (Elt F)) :
    StableHlo.after hostOps5_1 V (Proc.devRef .tc main_v57)
      = transpose S128x64 [1, 0] (V (Proc.devRef .tc main_arg25)) transposes_S64x128_S128x64_1_0 := by
  simp only [hostOps5_1]; after_results_simp <;> rfl

set_option maxHeartbeats 4000000 in
/-- The layer's bias (length 64) as a 1 × 64 row. -/
theorem glue_v58 (V : Valuation τ sig (Elt F)) :
    StableHlo.after hostOps5_1 V (Proc.devRef .tc main_v58)
      = broadcastInDim S1x64 ![1] bcast_S64_S1x64_1 (V (Proc.devRef .tc main_arg24)) := by
  simp only [hostOps5_1]; after_results_simp <;> rfl

/-! ## The stretch after the last region -/

set_option maxHeartbeats 4000000 in
/-- The result: the last region's 200000 × 1 column read as a vector of length 200000, entry by entry in row-major
    order. -/
theorem glue_v63 (V : Valuation τ sig (Elt F)) :
    StableHlo.after hostOps7 V (Proc.devRef .tc main_v63)
      = shapeCast S200000 (V (Proc.devRef .tc main_v62)) shapeCasts_S200000x1_S200000 := by
  simp only [hostOps7]; after_results_simp <;> rfl

/-- The same, read at an index: entry i of the vector is entry (i, 0) of the column — the two have the same
    row-major position, i · 1 + 0 = i. -/
theorem glue_v63_apply (V : Valuation τ sig (Elt F)) :
    StableHlo.after hostOps7 V (Proc.devRef .tc main_v63)
      = fun i => (V (Proc.devRef .tc main_v62)) (ValueIdx.ix2 (i 0) (0 : Fin 1)) := by
  rw [glue_v63]
  funext i
  exact shapeCast_apply (s := S200000x1) (t := S200000) (V (Proc.devRef .tc main_v62)) shapeCasts_S200000x1_S200000 i
    (ValueIdx.ix2 (i 0) (0 : Fin 1))
    (by
      rw [Shape.rowMajor_val_two, Shape.rowMajor_val_one]
      show (i 0).val * 1 + 0 = (i 0).val
      omega)

end Cert.KernelIdeal.Glue
-- ==== Proof.RefUnwrap.lean ====
import proofs.«423856_j90606630076836_1_alg».proof.Proof.Gen.ReferenceIdeal.Read
import proofs.«423856_j90606630076836_1_alg».proof.Proof.TakeMask
import proofs.«423856_j90606630076836_1_alg».proof.Proof.Range

/-!
  The reference's row reads, when the index arrays are in range.

  Each read `x[idx]` of the reference first wraps a negative index by adding the axis length
  (`select (idx < 0) (idx + N) idx`) and then turns the index vector into a one-column array, the gather's
  start indices. When every index word is, read signed, in `[0, N)` — in particular non-negative — the signed
  test `idx < 0` fails everywhere, so the wrap is the identity and the start indices are the column of the raw
  index vector. One statement per read, eight reads.
-/

noncomputable section

namespace Cert.RefUnwrap

open Cert.ReferenceIdeal Cert.ReferenceIdeal.Gen Cert.ReferenceIdeal.Read Idealize.ShloMosaic Cert.Range

variable {F : FTy → Type} [FloatOps F]

/-- The start indices of the read that wraps by 500000: with the indices in `[0, 500000)` the wrap is the
    identity, so they are the column of the raw index vector. -/
theorem unwrap_v5 (x0 : (⟨S200000, .i32⟩ : BufTy).Contents (Elt F)) (h : InRange x0 500000) :
    val_main_v5 (F := F) x0 = broadcastInDim S200000x1 ![0] bcast_S200000_S200000x1_0 x0 := by
  unfold val_main_v5 val_main_v4 val_main_v1 val_main_v3 val_main_v0 val_main_v2 val_main_c val_main_c_0
  rw [Cert.TakeMask.wrap_eq bcast_S_S200000 x0 500000#32 (fun e => (h e).1)]

/-- The start indices of the read that wraps by 100000: with the indices in `[0, 100000)` the wrap is the
    identity, so they are the column of the raw index vector. -/
theorem unwrap_v18 (x2 : (⟨S50000, .i32⟩ : BufTy).Contents (Elt F)) (h : InRange x2 100000) :
    val_main_v18 (F := F) x2 = broadcastInDim S50000x1 ![0] bcast_S50000_S50000x1_0 x2 := by
  unfold val_main_v18 val_main_v17 val_main_v14 val_main_v16 val_main_v13 val_main_v15 val_main_c_1 val_main_c_2
  rw [Cert.TakeMask.wrap_eq bcast_S_S50000 x2 100000#32 (fun e => (h e).1)]

/-- The start indices of the read that wraps by 50000: with the indices in `[0, 50000)` the wrap is the
    identity, so they are the column of the raw index vector. -/
theorem unwrap_v31 (x5 : (⟨S600000, .i32⟩ : BufTy).Contents (Elt F)) (h : InRange x5 50000) :
    val_main_v31 (F := F) x5 = broadcastInDim S600000x1 ![0] bcast_S600000_S600000x1_0 x5 := by
  unfold val_main_v31 val_main_v30 val_main_v27 val_main_v29 val_main_v26 val_main_v28 val_main_c_3 val_main_c_4
  rw [Cert.TakeMask.wrap_eq bcast_S_S600000 x5 50000#32 (fun e => (h e).1)]

/-- The start indices of the read that wraps by 200000: with the indices in `[0, 200000)` the wrap is the
    identity, so they are the column of the raw index vector. -/
theorem unwrap_v64 (x4 : (⟨S600000, .i32⟩ : BufTy).Contents (Elt F)) (h : InRange x4 200000) :
    val_main_v64 (F := F) x4 = broadcastInDim S600000x1 ![0] bcast_S600000_S600000x1_0 x4 := by
  unfold val_main_v64 val_main_v63 val_main_v60 val_main_v62 val_main_v59 val_main_v61 val_main_c_9 val_main_c_10
  rw [Cert.TakeMask.wrap_eq bcast_S_S600000 x4 200000#32 (fun e => (h e).1)]

/-- The start indices of the read that wraps by 50000: with the indices in `[0, 50000)` the wrap is the
    identity, so they are the column of the raw index vector. -/
theorem unwrap_v97 (x5 : (⟨S600000, .i32⟩ : BufTy).Contents (Elt F)) (h : InRange x5 50000) :
    val_main_v97 (F := F) x5 = broadcastInDim S600000x1 ![0] bcast_S600000_S600000x1_0 x5 := by
  unfold val_main_v97 val_main_v96 val_main_v93 val_main_v95 val_main_v92 val_main_v94 val_main_c_16 val_main_c_17
  rw [Cert.TakeMask.wrap_eq bcast_S_S600000 x5 50000#32 (fun e => (h e).1)]

/-- The start indices of the read that wraps by 200000: with the indices in `[0, 200000)` the wrap is the
    identity, so they are the column of the raw index vector. -/
theorem unwrap_v124 (x4 : (⟨S600000, .i32⟩ : BufTy).Contents (Elt F)) (h : InRange x4 200000) :
    val_main_v124 (F := F) x4 = broadcastInDim S600000x1 ![0] bcast_S600000_S600000x1_0 x4 := by
  unfold val_main_v124 val_main_v123 val_main_v120 val_main_v122 val_main_v119 val_main_v121 val_main_c_22 val_main_c_23
  rw [Cert.TakeMask.wrap_eq bcast_S_S600000 x4 200000#32 (fun e => (h e).1)]

/-- The start indices of the read that wraps by 200000: with the indices in `[0, 200000)` the wrap is the
    identity, so they are the column of the raw index vector. -/
theorem unwrap_v151 (x6 : (⟨S200000, .i32⟩ : BufTy).Contents (Elt F)) (h : InRange x6 200000) :
    val_main_v151 (F := F) x6 = broadcastInDim S200000x1 ![0] bcast_S200000_S200000x1_0 x6 := by
  unfold val_main_v151 val_main_v150 val_main_v147 val_main_v149 val_main_v146 val_main_v148 val_main_c_28 val_main_c_29
  rw [Cert.TakeMask.wrap_eq bcast_S_S200000 x6 200000#32 (fun e => (h e).1)]

/-- The start indices of the read that wraps by 50000: with the indices in `[0, 50000)` the wrap is the
    identity, so they are the column of the raw index vector. -/
theorem unwrap_v158 (x7 : (⟨S200000, .i32⟩ : BufTy).Contents (Elt F)) (h : InRange x7 50000) :
    val_main_v158 (F := F) x7 = broadcastInDim S200000x1 ![0] bcast_S200000_S200000x1_0 x7 := by
  unfold val_main_v158 val_main_v157 val_main_v154 val_main_v156 val_main_v153 val_main_v155 val_main_c_30 val_main_c_31
  rw [Cert.TakeMask.wrap_eq bcast_S_S200000 x7 50000#32 (fun e => (h e).1)]

end Cert.RefUnwrap

end
-- ==== Proof.RefStagesA.lean ====
/-
  Each layer of the reference classifier, as a whole array, is the specification's function of the arrays it is computed
  from, on the extended reals.

  * The two input encoders: the embedding rows already read, plus the features against the transposed weight, plus the
    bias row broadcast down the rows, grouped (e + x · w) + b.
  * The two second SAGE layers: the neighbour sum divided by max(deg, 1) (the maximum taken on the vector of degrees,
    which is then broadcast to a column and to the matrix: at (r, k) it is max(deg r, 1)), against the transposed left
    weight, plus the bias row, plus the destination rows against the transposed right weight, grouped
    ((agg / deg') · wl + b) + xd · wr.
  * The classifier: the row sums of the entrywise product, started from the zero word, are the row-wise inner products.

  Every proof reads both sides at an index (r, q), rewrites the reference's operations by their values at an index,
  identifies the composed index maps with the coordinates they name, and unfolds the operations on the extended reals.
-/
import proofs.«423856_j90606630076836_1_alg».proof.Proof.Gen.ReferenceIdeal.Read
import proofs.«423856_j90606630076836_1_alg».proof.Proof.Spec
import Idealize.ShloMosaic.Lib.ValueIdx
import Idealize.ShloMosaic.Lib.Pipeline.Value
import Idealize.ShloMosaic.PureOps.Ideal.Laws

noncomputable section

open scoped BigOperators

namespace Cert.RefStages

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The user encoder (the embedding rows, plus the features against the transposed weight, plus the bias row) is `fuseG`. -/
theorem s_hu (x0 : (⟨S200000, .i32⟩ : BufTy).Contents (Elt Ideal)) (x1 : (⟨S200000x32, .f32⟩ : BufTy).Contents (Elt Ideal)) (x8 : (⟨S500000x128, .f32⟩ : BufTy).Contents (Elt Ideal)) (x10 : (⟨S128x32, .f32⟩ : BufTy).Contents (Elt Ideal)) (x11 : (⟨S128, .f32⟩ : BufTy).Contents (Elt Ideal)) :
    val_main_v12 (F := Ideal) x0 x1 x8 x10 x11
      = Cert.Spec.fuseG (R := 200000) (K := 32) (C := 128) x1 (val_main_v6 (F := Ideal) x0 x8) (val_main_v7 (F := Ideal) x10) (val_main_v10 (F := Ideal) x11) := by
  funext i
  obtain ⟨r, q, rfl⟩ : ∃ (r : Fin 200000) (q : Fin 128), i = ix2 r q := ⟨i 0, i 1, eq_ix2 i⟩
  unfold Cert.Spec.fuseG
  rw [val_main_v12_apply, val_main_v9_apply, val_main_v8_apply, val_main_v11_apply]
  -- the row of features, the column of the weight and the bias entry that the sum and the broadcast read
  have el : ∀ k : Fin 32, lidx_main_v8 (ix2 r q) k = ix2 r k := fun k => funext fun a => Fin.ext (by match a with | ⟨0, _⟩ => rfl | ⟨1, _⟩ => rfl)
  have er : ∀ k : Fin 32, ridx_main_v8 (ix2 r q) k = ix2 k q := fun k => funext fun a => Fin.ext (by match a with | ⟨0, _⟩ => rfl | ⟨1, _⟩ => rfl)
  have eb : idx_main_v11 (ix2 r q) = ix2 (0 : Fin 1) q := funext fun a => Fin.ext (by match a with | ⟨0, _⟩ => rfl | ⟨1, _⟩ => rfl)
  simp only [el, er, eb, Ideal.addf_def]

/-- The app encoder is `fuseG`. -/
theorem s_ha (x2 : (⟨S50000, .i32⟩ : BufTy).Contents (Elt Ideal)) (x3 : (⟨S50000x64, .f32⟩ : BufTy).Contents (Elt Ideal)) (x9 : (⟨S100000x128, .f32⟩ : BufTy).Contents (Elt Ideal)) (x12 : (⟨S128x64, .f32⟩ : BufTy).Contents (Elt Ideal)) (x13 : (⟨S128, .f32⟩ : BufTy).Contents (Elt Ideal)) :
    val_main_v25 (F := Ideal) x2 x3 x9 x12 x13
      = Cert.Spec.fuseG (R := 50000) (K := 64) (C := 128) x3 (val_main_v19 (F := Ideal) x2 x9) (val_main_v20 (F := Ideal) x12) (val_main_v23 (F := Ideal) x13) := by
  funext i
  obtain ⟨r, q, rfl⟩ : ∃ (r : Fin 50000) (q : Fin 128), i = ix2 r q := ⟨i 0, i 1, eq_ix2 i⟩
  unfold Cert.Spec.fuseG
  rw [val_main_v25_apply, val_main_v22_apply, val_main_v21_apply, val_main_v24_apply]
  -- the row of features, the column of the weight and the bias entry that the sum and the broadcast read
  have el : ∀ k : Fin 64, lidx_main_v21 (ix2 r q) k = ix2 r k := fun k => funext fun a => Fin.ext (by match a with | ⟨0, _⟩ => rfl | ⟨1, _⟩ => rfl)
  have er : ∀ k : Fin 64, ridx_main_v21 (ix2 r q) k = ix2 k q := fun k => funext fun a => Fin.ext (by match a with | ⟨0, _⟩ => rfl | ⟨1, _⟩ => rfl)
  have eb : idx_main_v24 (ix2 r q) = ix2 (0 : Fin 1) q := funext fun a => Fin.ext (by match a with | ⟨0, _⟩ => rfl | ⟨1, _⟩ => rfl)
  simp only [el, er, eb, Ideal.addf_def]

/-- A vector of length 200000 as a 200000 × 1 column reads, at (r, 0), the vector at r. -/
theorem col_apply_200000 {α : Type} (y : S200000.Idx → α) (r : Fin 200000) :
    broadcastInDim S200000x1 ![0] bcast_S200000_S200000x1_0 y (ix2 r (0 : Fin 1)) = y (ix1 r) :=
  broadcastInDim_apply _ bcast_S200000_S200000x1_0 y (ix2 r (0 : Fin 1)) (ix1 r) (fun a => match a with
    | ⟨0, _⟩ => by show r.val = if (200000 : Nat) = 1 then 0 else r.val; rw [if_neg (by decide)])

/-- The users' second layer (no normalisation) is `combPlainG` of the neighbour sum, the column of in-degrees, the destination rows, the two transposed weights and the bias row. -/
theorem s_u2 (x0 : (⟨S200000, .i32⟩ : BufTy).Contents (Elt Ideal)) (x1 : (⟨S200000x32, .f32⟩ : BufTy).Contents (Elt Ideal)) (x2 : (⟨S50000, .i32⟩ : BufTy).Contents (Elt Ideal)) (x3 : (⟨S50000x64, .f32⟩ : BufTy).Contents (Elt Ideal)) (x4 : (⟨S600000, .i32⟩ : BufTy).Contents (Elt Ideal)) (x5 : (⟨S600000, .i32⟩ : BufTy).Contents (Elt Ideal)) (x8 : (⟨S500000x128, .f32⟩ : BufTy).Contents (Elt Ideal)) (x9 : (⟨S100000x128, .f32⟩ : BufTy).Contents (Elt Ideal)) (x10 : (⟨S128x32, .f32⟩ : BufTy).Contents (Elt Ideal)) (x11 : (⟨S128, .f32⟩ : BufTy).Contents (Elt Ideal)) (x12 : (⟨S128x64, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S64x128, .f32⟩ : BufTy).Contents (Elt Ideal)) (x21 : (⟨S64, .f32⟩ : BufTy).Contents (Elt Ideal)) (x22 : (⟨S64x128, .f32⟩ : BufTy).Contents (Elt Ideal)) :
    val_main_v118 (F := Ideal) x0 x1 x2 x3 x4 x5 x8 x9 x10 x11 x12 x13 x14 x15 x16 x17 x18 x19 x20 x21 x22
      = Cert.Spec.combPlainG (R := 200000) (K := 128) (C := 64) (val_main_v101 (F := Ideal) x0 x1 x2 x3 x4 x5 x8 x9 x10 x11 x12 x13 x17 x18 x19)
          (broadcastInDim S200000x1 ![0] bcast_S200000_S200000x1_0 (val_main_v105 (F := Ideal) x4))
          (val_main_v58 (F := Ideal) x0 x1 x2 x3 x4 x5 x8 x9 x10 x11 x12 x13 x14 x15 x16) (val_main_v111 (F := Ideal) x20) (val_main_v116 (F := Ideal) x22) (val_main_v113 (F := Ideal) x21) := by
  funext i
  obtain ⟨r, q, rfl⟩ : ∃ (r : Fin 200000) (q : Fin 64), i = ix2 r q := ⟨i 0, i 1, eq_ix2 i⟩
  unfold Cert.Spec.combPlainG Cert.Spec.combCore
  rw [val_main_v118_apply, val_main_v115_apply, val_main_v112_apply, val_main_v114_apply, val_main_v117_apply]
  -- the entries the two sums and the bias broadcast read
  have el : ∀ k : Fin 128, lidx_main_v112 (ix2 r q) k = ix2 r k := fun k => funext fun a => Fin.ext (by match a with | ⟨0, _⟩ => rfl | ⟨1, _⟩ => rfl)
  have er : ∀ k : Fin 128, ridx_main_v112 (ix2 r q) k = ix2 k q := fun k => funext fun a => Fin.ext (by match a with | ⟨0, _⟩ => rfl | ⟨1, _⟩ => rfl)
  have el' : ∀ k : Fin 128, lidx_main_v117 (ix2 r q) k = ix2 r k := fun k => funext fun a => Fin.ext (by match a with | ⟨0, _⟩ => rfl | ⟨1, _⟩ => rfl)
  have er' : ∀ k : Fin 128, ridx_main_v117 (ix2 r q) k = ix2 k q := fun k => funext fun a => Fin.ext (by match a with | ⟨0, _⟩ => rfl | ⟨1, _⟩ => rfl)
  have eb : idx_main_v114 (ix2 r q) = ix2 (0 : Fin 1) q := funext fun a => Fin.ext (by match a with | ⟨0, _⟩ => rfl | ⟨1, _⟩ => rfl)
  -- the degree the quotient at (r, k) divides by is the degree of row r
  have ed : ∀ k : Fin 128, idx_main_v108 (idx_main_v109 (ix2 r k)) = ix1 r := fun k => funext fun a => Fin.ext (by match a with | ⟨0, _⟩ => rfl)
  -- the coordinates of (r, q), and the column of degrees read at (r, 0)
  have h0 : (ix2 r q : (⟨2, ![200000, 64]⟩ : Shape).Idx) 0 = r := rfl
  have h1 : (ix2 r q : (⟨2, ![200000, 64]⟩ : Shape).Idx) 1 = q := rfl
  have hd := col_apply_200000 (val_main_v105 (F := Ideal) x4) r
  simp only [h0, h1, hd, el, er, el', er', eb, val_main_v110_apply, val_main_v109_apply, val_main_v108_apply, val_main_v107_apply,
    val_main_v106_apply, val_main_cst_21_apply, ed, Ideal.addf_def, Ideal.hostDivf_def, Ideal.maximumf_def, Ideal.ofBits_def]

/-- A vector of length 50000 as a 50000 × 1 column reads, at (r, 0), the vector at r. -/
theorem col_apply_50000 {α : Type} (y : S50000.Idx → α) (r : Fin 50000) :
    broadcastInDim S50000x1 ![0] bcast_S50000_S50000x1_0 y (ix2 r (0 : Fin 1)) = y (ix1 r) :=
  broadcastInDim_apply _ bcast_S50000_S50000x1_0 y (ix2 r (0 : Fin 1)) (ix1 r) (fun a => match a with
    | ⟨0, _⟩ => by show r.val = if (50000 : Nat) = 1 then 0 else r.val; rw [if_neg (by decide)])

/-- The apps' second layer (no normalisation) is `combPlainG`. -/
theorem s_a2 (x0 : (⟨S200000, .i32⟩ : BufTy).Contents (Elt Ideal)) (x1 : (⟨S200000x32, .f32⟩ : BufTy).Contents (Elt Ideal)) (x2 : (⟨S50000, .i32⟩ : BufTy).Contents (Elt Ideal)) (x3 : (⟨S50000x64, .f32⟩ : BufTy).Contents (Elt Ideal)) (x4 : (⟨S600000, .i32⟩ : BufTy).Contents (Elt Ideal)) (x5 : (⟨S600000, .i32⟩ : BufTy).Contents (Elt Ideal)) (x8 : (⟨S500000x128, .f32⟩ : BufTy).Contents (Elt Ideal)) (x9 : (⟨S100000x128, .f32⟩ : BufTy).Contents (Elt Ideal)) (x10 : (⟨S128x32, .f32⟩ : BufTy).Contents (Elt Ideal)) (x11 : (⟨S128, .f32⟩ : BufTy).Contents (Elt Ideal)) (x12 : (⟨S128x64, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x23 : (⟨S64x128, .f32⟩ : BufTy).Contents (Elt Ideal)) (x24 : (⟨S64, .f32⟩ : BufTy).Contents (Elt Ideal)) (x25 : (⟨S64x128, .f32⟩ : BufTy).Contents (Elt Ideal)) :
    val_main_v145 (F := Ideal) x0 x1 x2 x3 x4 x5 x8 x9 x10 x11 x12 x13 x14 x15 x16 x17 x18 x19 x23 x24 x25
      = Cert.Spec.combPlainG (R := 50000) (K := 128) (C := 64) (val_main_v128 (F := Ideal) x0 x1 x2 x3 x4 x5 x8 x9 x10 x11 x12 x13 x14 x15 x16)
          (broadcastInDim S50000x1 ![0] bcast_S50000_S50000x1_0 (val_main_v132 (F := Ideal) x5))
          (val_main_v91 (F := Ideal) x0 x1 x2 x3 x4 x5 x8 x9 x10 x11 x12 x13 x17 x18 x19) (val_main_v138 (F := Ideal) x23) (val_main_v143 (F := Ideal) x25) (val_main_v140 (F := Ideal) x24) := by
  funext i
  obtain ⟨r, q, rfl⟩ : ∃ (r : Fin 50000) (q : Fin 64), i = ix2 r q := ⟨i 0, i 1, eq_ix2 i⟩
  unfold Cert.Spec.combPlainG Cert.Spec.combCore
  rw [val_main_v145_apply, val_main_v142_apply, val_main_v139_apply, val_main_v141_apply, val_main_v144_apply]
  -- the entries the two sums and the bias broadcast read
  have el : ∀ k : Fin 128, lidx_main_v139 (ix2 r q) k = ix2 r k := fun k => funext fun a => Fin.ext (by match a with | ⟨0, _⟩ => rfl | ⟨1, _⟩ => rfl)
  have er : ∀ k : Fin 128, ridx_main_v139 (ix2 r q) k = ix2 k q := fun k => funext fun a => Fin.ext (by match a with | ⟨0, _⟩ => rfl | ⟨1, _⟩ => rfl)
  have el' : ∀ k : Fin 128, lidx_main_v144 (ix2 r q) k = ix2 r k := fun k => funext fun a => Fin.ext (by match a with | ⟨0, _⟩ => rfl | ⟨1, _⟩ => rfl)
  have er' : ∀ k : Fin 128, ridx_main_v144 (ix2 r q) k = ix2 k q := fun k => funext fun a => Fin.ext (by match a with | ⟨0, _⟩ => rfl | ⟨1, _⟩ => rfl)
  have eb : idx_main_v141 (ix2 r q) = ix2 (0 : Fin 1) q := funext fun a => Fin.ext (by match a with | ⟨0, _⟩ => rfl | ⟨1, _⟩ => rfl)
  -- the degree the quotient at (r, k) divides by is the degree of row r
  have ed : ∀ k : Fin 128, idx_main_v135 (idx_main_v136 (ix2 r k)) = ix1 r := fun k => funext fun a => Fin.ext (by match a with | ⟨0, _⟩ => rfl)
  -- the coordinates of (r, q), and the column of degrees read at (r, 0)
  have h0 : (ix2 r q : (⟨2, ![50000, 64]⟩ : Shape).Idx) 0 = r := rfl
  have h1 : (ix2 r q : (⟨2, ![50000, 64]⟩ : Shape).Idx) 1 = q := rfl
  have hd := col_apply_50000 (val_main_v132 (F := Ideal) x5) r
  simp only [h0, h1, hd, el, er, el', er', eb, val_main_v137_apply, val_main_v136_apply, val_main_v135_apply, val_main_v134_apply,
    val_main_v133_apply, val_main_cst_27_apply, ed, Ideal.addf_def, Ideal.hostDivf_def, Ideal.maximumf_def, Ideal.ofBits_def]

/-- The classifier (the entrywise product of the two gathered arrays, summed along the rows from the zero word) is the
    row-wise inner product. -/
theorem s_out (x0 : (⟨S200000, .i32⟩ : BufTy).Contents (Elt Ideal)) (x1 : (⟨S200000x32, .f32⟩ : BufTy).Contents (Elt Ideal)) (x2 : (⟨S50000, .i32⟩ : BufTy).Contents (Elt Ideal)) (x3 : (⟨S50000x64, .f32⟩ : BufTy).Contents (Elt Ideal)) (x4 : (⟨S600000, .i32⟩ : BufTy).Contents (Elt Ideal)) (x5 : (⟨S600000, .i32⟩ : BufTy).Contents (Elt Ideal)) (x6 : (⟨S200000, .i32⟩ : BufTy).Contents (Elt Ideal)) (x7 : (⟨S200000, .i32⟩ : BufTy).Contents (Elt Ideal)) (x8 : (⟨S500000x128, .f32⟩ : BufTy).Contents (Elt Ideal)) (x9 : (⟨S100000x128, .f32⟩ : BufTy).Contents (Elt Ideal)) (x10 : (⟨S128x32, .f32⟩ : BufTy).Contents (Elt Ideal)) (x11 : (⟨S128, .f32⟩ : BufTy).Contents (Elt Ideal)) (x12 : (⟨S128x64, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S64x128, .f32⟩ : BufTy).Contents (Elt Ideal)) (x21 : (⟨S64, .f32⟩ : BufTy).Contents (Elt Ideal)) (x22 : (⟨S64x128, .f32⟩ : BufTy).Contents (Elt Ideal)) (x23 : (⟨S64x128, .f32⟩ : BufTy).Contents (Elt Ideal)) (x24 : (⟨S64, .f32⟩ : BufTy).Contents (Elt Ideal)) (x25 : (⟨S64x128, .f32⟩ : BufTy).Contents (Elt Ideal)) :
    val_main_v161 (F := Ideal) x0 x1 x2 x3 x4 x5 x6 x7 x8 x9 x10 x11 x12 x13 x14 x15 x16 x17 x18 x19 x20 x21 x22 x23 x24 x25
      = fun i => Cert.Spec.dotG (R := 200000) (C := 64) (val_main_v152 (F := Ideal) x0 x1 x2 x3 x4 x5 x6 x8 x9 x10 x11 x12 x13 x14 x15 x16 x17 x18 x19 x20 x21 x22)
          (val_main_v159 (F := Ideal) x0 x1 x2 x3 x4 x5 x7 x8 x9 x10 x11 x12 x13 x14 x15 x16 x17 x18 x19 x23 x24 x25) (ix2 (i 0) (0 : Fin 1)) := by
  funext i
  obtain ⟨r, rfl⟩ : ∃ r : Fin 200000, i = ix1 r := ⟨i 0, eq_ix1 i⟩
  unfold Cert.Spec.dotG
  rw [val_main_v161_apply, val_main_cst_32_apply]
  have e : ∀ k : Fin 64, idx_main_v161 (ix1 r) k = ix2 r k := fun k => funext fun a => Fin.ext (by match a with | ⟨0, _⟩ => rfl | ⟨1, _⟩ => rfl)
  simp only [e, val_main_v160_apply, Ideal.mulf_def, Ideal.ofBits_def, Ideal.ofBits_zero_f32, zero_add]

end Cert.RefStages

end
-- ==== Proof.RefStagesB.lean ====
/-
  The two normalised SAGE layers of the reference, each as ONE function of the whole arrays it is computed from, on the
  extended reals.

  * user side, first layer (200000 rows): the rectified, row-normalised
      z = ((agg / max(deg, 1)) · W_lᵀ + b) + x_dst · W_rᵀ
    is Spec.combNormG of the neighbour sum, the column of in-degrees, the destination features, the two transposed weights
    and the bias row;
  * item side, first layer (50000 rows): the same statement.

  In the reference the in-degree is clamped below by 1 as a vector and then laid out as a column and along the rows; Spec
  clamps the entry (r, 0) of the column: the same number, since a vector laid out as a column reads the vector's entry r at
  (r, 0). The row norm is the square root of the sum, from 0, of the squares of the row of z; ε and the rectifier's 0 are
  constants laid out over the whole array.
-/
import proofs.«423856_j90606630076836_1_alg».proof.Proof.Gen.ReferenceIdeal.Read
import proofs.«423856_j90606630076836_1_alg».proof.Proof.Spec
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Cert.RefStages

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S200000, .i32⟩ : BufTy).Contents (Elt Ideal)) (x1 : (⟨S200000x32, .f32⟩ : BufTy).Contents (Elt Ideal))
  (x2 : (⟨S50000, .i32⟩ : BufTy).Contents (Elt Ideal)) (x3 : (⟨S50000x64, .f32⟩ : BufTy).Contents (Elt Ideal))
  (x4 x5 : (⟨S600000, .i32⟩ : BufTy).Contents (Elt Ideal)) (x8 : (⟨S500000x128, .f32⟩ : BufTy).Contents (Elt Ideal))
  (x9 : (⟨S100000x128, .f32⟩ : BufTy).Contents (Elt Ideal)) (x10 : (⟨S128x32, .f32⟩ : BufTy).Contents (Elt Ideal))
  (x11 : (⟨S128, .f32⟩ : BufTy).Contents (Elt Ideal)) (x12 : (⟨S128x64, .f32⟩ : BufTy).Contents (Elt Ideal))
  (x13 : (⟨S128, .f32⟩ : BufTy).Contents (Elt Ideal)) (x14 : (⟨S128x128, .f32⟩ : BufTy).Contents (Elt Ideal))
  (x15 : (⟨S128, .f32⟩ : BufTy).Contents (Elt Ideal)) (x16 : (⟨S128x128, .f32⟩ : BufTy).Contents (Elt Ideal))
  (x17 : (⟨S128x128, .f32⟩ : BufTy).Contents (Elt Ideal)) (x18 : (⟨S128, .f32⟩ : BufTy).Contents (Elt Ideal))
  (x19 : (⟨S128x128, .f32⟩ : BufTy).Contents (Elt Ideal))

/-! ## The user side (200000 rows) -/

/-- A vector of 200000 entries laid out as a column reads, at (r, 0), the vector's entry r. -/
theorem col_u {α : Type} (y : S200000.Idx → α) (r : Fin 200000) :
    broadcastInDim S200000x1 ![0] bcast_S200000_S200000x1_0 y (ix2 r (0 : Fin 1)) = y (ix1 r) :=
  broadcastInDim_apply _ bcast_S200000_S200000x1_0 y (ix2 r (0 : Fin 1)) (ix1 r) (fun a => match a with
    | ⟨0, _⟩ => by show r.val = if (200000 : Nat) = 1 then 0 else r.val; rw [if_neg (by decide)])

/-- The un-normalised layer at (r, q): the mean of the neighbour sum against the left weight, plus the bias, plus the
    destination row against the right weight; sums grouped as in the reference, (… + b) + …. -/
theorem core_u1 (r : Fin 200000) (q : Fin 128) :
    val_main_v52 (F := Ideal) x0 x1 x2 x3 x4 x5 x8 x9 x10 x11 x12 x13 x14 x15 x16 (ix2 r q)
      = Cert.Spec.combCore (R := 200000) (K := 128) (C := 128) (val_main_v35 (F := Ideal) x2 x3 x4 x5 x9 x12 x13)
          (broadcastInDim S200000x1 ![0] bcast_S200000_S200000x1_0 (val_main_v39 (F := Ideal) x4))
          (val_main_v12 (F := Ideal) x0 x1 x8 x10 x11) (val_main_v45 (F := Ideal) x14) (val_main_v50 (F := Ideal) x16)
          (val_main_v47 (F := Ideal) x15) r q := by
  unfold Cert.Spec.combCore
  rw [val_main_v52_apply, val_main_v49_apply, val_main_v46_apply, val_main_v48_apply, val_main_v51_apply, col_u]
  -- the index maps of the two products and of the bias row, at (r, q)
  have el : ∀ k : Fin 128, lidx_main_v46 (ix2 r q) k = ix2 r k := fun k =>
    funext fun a => Fin.ext (by match a with | ⟨0, _⟩ => rfl | ⟨1, _⟩ => rfl)
  have er : ∀ k : Fin 128, ridx_main_v46 (ix2 r q) k = ix2 k q := fun k =>
    funext fun a => Fin.ext (by match a with | ⟨0, _⟩ => rfl | ⟨1, _⟩ => rfl)
  have el' : ∀ k : Fin 128, lidx_main_v51 (ix2 r q) k = ix2 r k := fun k =>
    funext fun a => Fin.ext (by match a with | ⟨0, _⟩ => rfl | ⟨1, _⟩ => rfl)
  have er' : ∀ k : Fin 128, ridx_main_v51 (ix2 r q) k = ix2 k q := fun k =>
    funext fun a => Fin.ext (by match a with | ⟨0, _⟩ => rfl | ⟨1, _⟩ => rfl)
  have eb : idx_main_v48 (ix2 r q) = ix2 (0 : Fin 1) q :=
    funext fun a => Fin.ext (by match a with | ⟨0, _⟩ => rfl | ⟨1, _⟩ => rfl)
  -- the clamped in-degree laid out along row r
  have ed : ∀ k : Fin 128, idx_main_v42 (idx_main_v43 (ix2 r k)) = ix1 r := fun k =>
    funext fun a => Fin.ext (by match a with | ⟨0, _⟩ => rfl)
  simp only [el, er, el', er', eb, val_main_v44_apply, val_main_v43_apply, val_main_v42_apply, ed, val_main_v41_apply,
    val_main_v40_apply, val_main_cst_7_apply, Ideal.addf_def, Ideal.hostDivf_def, Ideal.maximumf_def, Ideal.ofBits_def]

/-- The first user layer: each row of z divided by the larger of its Euclidean norm and ε, then rectified. -/
theorem s_u1 :
    val_main_v58 (F := Ideal) x0 x1 x2 x3 x4 x5 x8 x9 x10 x11 x12 x13 x14 x15 x16
      = Cert.Spec.combNormG (R := 200000) (K := 128) (C := 128) (val_main_v35 (F := Ideal) x2 x3 x4 x5 x9 x12 x13)
          (broadcastInDim S200000x1 ![0] bcast_S200000_S200000x1_0 (val_main_v39 (F := Ideal) x4))
          (val_main_v12 (F := Ideal) x0 x1 x8 x10 x11) (val_main_v45 (F := Ideal) x14) (val_main_v50 (F := Ideal) x16)
          (val_main_v47 (F := Ideal) x15) := by
  funext i
  obtain ⟨r, q, rfl⟩ : ∃ (r : Fin 200000) (q : Fin 128), i = ix2 r q := ⟨i 0, i 1, eq_ix2 i⟩
  unfold Cert.Spec.combNormG
  rw [val_main_v58_apply, val_main_v57_apply, val_main_v56_apply, val_main_v55_apply, val_main_v53_apply,
    val_main_call0_v2_apply, val_main_call0_v1_apply, val_main_v54_apply, val_main_cst_8_apply, val_main_call0_cst_apply,
    val_main_call1_v0_apply, val_main_call1_cst_apply, core_u1]
  -- the square of z at (r, k), read where the row sum reads it
  have hsq : ∀ k : Fin 128,
      val_main_call0_v0 (F := Ideal) x0 x1 x2 x3 x4 x5 x8 x9 x10 x11 x12 x13 x14 x15 x16
          (idx_main_call0_v1 (idx_main_call0_v2 (idx_main_v56 (ix2 r q))) k)
        = Cert.Spec.combCore (R := 200000) (K := 128) (C := 128) (val_main_v35 (F := Ideal) x2 x3 x4 x5 x9 x12 x13)
            (broadcastInDim S200000x1 ![0] bcast_S200000_S200000x1_0 (val_main_v39 (F := Ideal) x4))
            (val_main_v12 (F := Ideal) x0 x1 x8 x10 x11) (val_main_v45 (F := Ideal) x14) (val_main_v50 (F := Ideal) x16)
            (val_main_v47 (F := Ideal) x15) r k
          * Cert.Spec.combCore (R := 200000) (K := 128) (C := 128) (val_main_v35 (F := Ideal) x2 x3 x4 x5 x9 x12 x13)
            (broadcastInDim S200000x1 ![0] bcast_S200000_S200000x1_0 (val_main_v39 (F := Ideal) x4))
            (val_main_v12 (F := Ideal) x0 x1 x8 x10 x11) (val_main_v45 (F := Ideal) x14) (val_main_v50 (F := Ideal) x16)
            (val_main_v47 (F := Ideal) x15) r k := fun k => by
    have e : idx_main_call0_v1 (idx_main_call0_v2 (idx_main_v56 (ix2 r q))) k = ix2 r k :=
      funext fun a => Fin.ext (by match a with | ⟨0, _⟩ => rfl | ⟨1, _⟩ => rfl)
    rw [e, val_main_call0_v0_apply, core_u1]
    rfl
  simp only [hsq, Ideal.maximumf_def, Ideal.hostDivf_def, Ideal.hostUnary_sqrt_def, Ideal.ofBits_def,
    Ideal.ofBits_zero_f32, zero_add]

/-! ## The item side (50000 rows) -/

/-- A vector of 50000 entries laid out as a column reads, at (r, 0), the vector's entry r. -/
theorem col_a {α : Type} (y : S50000.Idx → α) (r : Fin 50000) :
    broadcastInDim S50000x1 ![0] bcast_S50000_S50000x1_0 y (ix2 r (0 : Fin 1)) = y (ix1 r) :=
  broadcastInDim_apply _ bcast_S50000_S50000x1_0 y (ix2 r (0 : Fin 1)) (ix1 r) (fun a => match a with
    | ⟨0, _⟩ => by show r.val = if (50000 : Nat) = 1 then 0 else r.val; rw [if_neg (by decide)])

/-- The un-normalised layer at (r, q): the mean of the neighbour sum against the left weight, plus the bias, plus the
    destination row against the right weight; sums grouped as in the reference, (… + b) + …. -/
theorem core_a1 (r : Fin 50000) (q : Fin 128) :
    val_main_v85 (F := Ideal) x0 x1 x2 x3 x4 x5 x8 x9 x10 x11 x12 x13 x17 x18 x19 (ix2 r q)
      = Cert.Spec.combCore (R := 50000) (K := 128) (C := 128) (val_main_v68 (F := Ideal) x0 x1 x4 x5 x8 x10 x11)
          (broadcastInDim S50000x1 ![0] bcast_S50000_S50000x1_0 (val_main_v72 (F := Ideal) x5))
          (val_main_v25 (F := Ideal) x2 x3 x9 x12 x13) (val_main_v78 (F := Ideal) x17) (val_main_v83 (F := Ideal) x19)
          (val_main_v80 (F := Ideal) x18) r q := by
  unfold Cert.Spec.combCore
  rw [val_main_v85_apply, val_main_v82_apply, val_main_v79_apply, val_main_v81_apply, val_main_v84_apply, col_a]
  -- the index maps of the two products and of the bias row, at (r, q)
  have el : ∀ k : Fin 128, lidx_main_v79 (ix2 r q) k = ix2 r k := fun k =>
    funext fun a => Fin.ext (by match a with | ⟨0, _⟩ => rfl | ⟨1, _⟩ => rfl)
  have er : ∀ k : Fin 128, ridx_main_v79 (ix2 r q) k = ix2 k q := fun k =>
    funext fun a => Fin.ext (by match a with | ⟨0, _⟩ => rfl | ⟨1, _⟩ => rfl)
  have el' : ∀ k : Fin 128, lidx_main_v84 (ix2 r q) k = ix2 r k := fun k =>
    funext fun a => Fin.ext (by match a with | ⟨0, _⟩ => rfl | ⟨1, _⟩ => rfl)
  have er' : ∀ k : Fin 128, ridx_main_v84 (ix2 r q) k = ix2 k q := fun k =>
    funext fun a => Fin.ext (by match a with | ⟨0, _⟩ => rfl | ⟨1, _⟩ => rfl)
  have eb : idx_main_v81 (ix2 r q) = ix2 (0 : Fin 1) q :=
    funext fun a => Fin.ext (by match a with | ⟨0, _⟩ => rfl | ⟨1, _⟩ => rfl)
  -- the clamped in-degree laid out along row r
  have ed : ∀ k : Fin 128, idx_main_v75 (idx_main_v76 (ix2 r k)) = ix1 r := fun k =>
    funext fun a => Fin.ext (by match a with | ⟨0, _⟩ => rfl)
  simp only [el, er, el', er', eb, val_main_v77_apply, val_main_v76_apply, val_main_v75_apply, ed, val_main_v74_apply,
    val_main_v73_apply, val_main_cst_14_apply, Ideal.addf_def, Ideal.hostDivf_def, Ideal.maximumf_def, Ideal.ofBits_def]

/-- The first item layer: each row of z divided by the larger of its Euclidean norm and ε, then rectified. -/
theorem s_a1 :
    val_main_v91 (F := Ideal) x0 x1 x2 x3 x4 x5 x8 x9 x10 x11 x12 x13 x17 x18 x19
      = Cert.Spec.combNormG (R := 50000) (K := 128) (C := 128) (val_main_v68 (F := Ideal) x0 x1 x4 x5 x8 x10 x11)
          (broadcastInDim S50000x1 ![0] bcast_S50000_S50000x1_0 (val_main_v72 (F := Ideal) x5))
          (val_main_v25 (F := Ideal) x2 x3 x9 x12 x13) (val_main_v78 (F := Ideal) x17) (val_main_v83 (F := Ideal) x19)
          (val_main_v80 (F := Ideal) x18) := by
  funext i
  obtain ⟨r, q, rfl⟩ : ∃ (r : Fin 50000) (q : Fin 128), i = ix2 r q := ⟨i 0, i 1, eq_ix2 i⟩
  unfold Cert.Spec.combNormG
  rw [val_main_v91_apply, val_main_v90_apply, val_main_v89_apply, val_main_v88_apply, val_main_v86_apply,
    val_main_call2_v2_apply, val_main_call2_v1_apply, val_main_v87_apply, val_main_cst_15_apply, val_main_call2_cst_apply,
    val_main_call3_v0_apply, val_main_call3_cst_apply, core_a1]
  -- the square of z at (r, k), read where the row sum reads it
  have hsq : ∀ k : Fin 128,
      val_main_call2_v0 (F := Ideal) x0 x1 x2 x3 x4 x5 x8 x9 x10 x11 x12 x13 x17 x18 x19
          (idx_main_call2_v1 (idx_main_call2_v2 (idx_main_v89 (ix2 r q))) k)
        = Cert.Spec.combCore (R := 50000) (K := 128) (C := 128) (val_main_v68 (F := Ideal) x0 x1 x4 x5 x8 x10 x11)
            (broadcastInDim S50000x1 ![0] bcast_S50000_S50000x1_0 (val_main_v72 (F := Ideal) x5))
            (val_main_v25 (F := Ideal) x2 x3 x9 x12 x13) (val_main_v78 (F := Ideal) x17) (val_main_v83 (F := Ideal) x19)
            (val_main_v80 (F := Ideal) x18) r k
          * Cert.Spec.combCore (R := 50000) (K := 128) (C := 128) (val_main_v68 (F := Ideal) x0 x1 x4 x5 x8 x10 x11)
            (broadcastInDim S50000x1 ![0] bcast_S50000_S50000x1_0 (val_main_v72 (F := Ideal) x5))
            (val_main_v25 (F := Ideal) x2 x3 x9 x12 x13) (val_main_v78 (F := Ideal) x17) (val_main_v83 (F := Ideal) x19)
            (val_main_v80 (F := Ideal) x18) r k := fun k => by
    have e : idx_main_call2_v1 (idx_main_call2_v2 (idx_main_v89 (ix2 r q))) k = ix2 r k :=
      funext fun a => Fin.ext (by match a with | ⟨0, _⟩ => rfl | ⟨1, _⟩ => rfl)
    rw [e, val_main_call2_v0_apply, core_a1]
    rfl
  simp only [hsq, Ideal.maximumf_def, Ideal.hostDivf_def, Ideal.hostUnary_sqrt_def, Ideal.ofBits_def,
    Ideal.ofBits_zero_f32, zero_add]

end Cert.RefStages

end
-- ==== Proof.Region0.lean ====
/-
  The input encoder's region, read as a whole array.

  The region's grid has 50 points; point t holds rows t · 4000 … t · 4000 + 3999 of the feature array x (200000 × 32), of the
  embedding rows e (200000 × 128) and of the output (200000 × 128), and the whole weight w (32 × 128) and bias row b (1 × 128).
  On the extended reals the body leaves, at (p, q) of the output block,  e(p, q) + Σ_k x(p, k) · w(k, q) + b(0, q)
  (the narrowing of the matrix product's operands is the identity there, the product accumulates into zero, the bias row is
  repeated down the rows). A block's entry (p, q) is the array's entry (t · 4000 + p, q); the 50 blocks tile the 200000 rows.
  Hence after the region the output array is  fuseG x e w b  of the operand arrays as the region finds them.
-/
import proofs.«423856_j90606630076836_1_alg».proof.Proof.Gen.KernelIdeal.Frame
import proofs.«423856_j90606630076836_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

/-! ## The body's arithmetic at an index of the block -/

/-- The matrix product's left index: its row is the output's row. -/
theorem fuse0_lhs_0 (i : S4000x128.Idx) (q : dot_S4000x32_S32x128_S4000x128_1_0_0_1_n_n.contr.Idx) :
    (dot_S4000x32_S32x128_S4000x128_1_0_0_1_n_n.lhsIdx i q 0).val = (i 0).val := by
  unfold DotDims.lhsIdx
  rw [dif_neg (show ¬(0 : Fin S4000x32.rank) ∈ dot_S4000x32_S32x128_S4000x128_1_0_0_1_n_n.lhsBatch by decide), dif_pos (show (0 : Fin S4000x32.rank) ∈ dot_S4000x32_S32x128_S4000x128_1_0_0_1_n_n.lhsNonContracting by decide)]
  rfl
/-- The matrix product's left index: its column is the contracted coordinate. -/
theorem fuse0_lhs_1 (i : S4000x128.Idx) (q : dot_S4000x32_S32x128_S4000x128_1_0_0_1_n_n.contr.Idx) :
    (dot_S4000x32_S32x128_S4000x128_1_0_0_1_n_n.lhsIdx i q 1).val = (q ⟨0, by decide⟩).val :=
  dot_S4000x32_S32x128_S4000x128_1_0_0_1_n_n.lhsIdx_val_of_single rfl i q
/-- The matrix product's right index: its row is the contracted coordinate. -/
theorem fuse0_rhs_0 (i : S4000x128.Idx) (q : dot_S4000x32_S32x128_S4000x128_1_0_0_1_n_n.contr.Idx) :
    (dot_S4000x32_S32x128_S4000x128_1_0_0_1_n_n.rhsIdx i q 0).val = (q ⟨0, by decide⟩).val :=
  dot_S4000x32_S32x128_S4000x128_1_0_0_1_n_n.rhsIdx_val_of_single rfl i q
/-- The matrix product's right index: its column is the output's column. -/
theorem fuse0_rhs_1 (i : S4000x128.Idx) (q : dot_S4000x32_S32x128_S4000x128_1_0_0_1_n_n.contr.Idx) :
    (dot_S4000x32_S32x128_S4000x128_1_0_0_1_n_n.rhsIdx i q 1).val = (i 1).val := by
  unfold DotDims.rhsIdx
  rw [dif_neg (show ¬(1 : Fin S32x128.rank) ∈ dot_S4000x32_S32x128_S4000x128_1_0_0_1_n_n.rhsBatch by decide), dif_pos (show (1 : Fin S32x128.rank) ∈ dot_S4000x32_S32x128_S4000x128_1_0_0_1_n_n.rhsNonContracting by decide)]
  rfl

/-- The matrix product into a zero accumulator at (p, q): the sum over k of the left operand's (p, k) times the right
    operand's (k, q). -/
theorem fuse0_matmul_apply (a : FVec Ideal S4000x32 .bf16) (w : FVec Ideal S32x128 .bf16) (p : Fin 4000) (q : Fin 128) :
    matmul dot_S4000x32_S32x128_S4000x128_1_0_0_1_n_n none a w (constant (F := Ideal) S4000x128 .f32 0x00000000#32) (ix2 p q)
      = ∑ k : Fin 32, a (ix2 p k) * w (ix2 k q) := by
  show FloatOps.matmul dot_S4000x32_S32x128_S4000x128_1_0_0_1_n_n none a w (constant (F := Ideal) S4000x128 .f32 0x00000000#32) (ix2 p q) = _
  rw [Ideal.matmul_constant_zero_apply, ← Equiv.sum_comp (ValueIdx.contrEquiv1 dot_S4000x32_S32x128_S4000x128_1_0_0_1_n_n 32 rfl rfl).symm]
  refine Finset.sum_congr rfl fun k _ => ?_
  have hk := ValueIdx.contrEquiv1_symm_val dot_S4000x32_S32x128_S4000x128_1_0_0_1_n_n 32 rfl rfl k
  have el : dot_S4000x32_S32x128_S4000x128_1_0_0_1_n_n.lhsIdx (ix2 p q) ((ValueIdx.contrEquiv1 dot_S4000x32_S32x128_S4000x128_1_0_0_1_n_n 32 rfl rfl).symm k) = ix2 p k := funext fun a => Fin.ext (by
    match a with
    | ⟨0, _⟩ => exact fuse0_lhs_0 _ _
    | ⟨1, _⟩ => exact (fuse0_lhs_1 _ _).trans hk)
  have er : dot_S4000x32_S32x128_S4000x128_1_0_0_1_n_n.rhsIdx (ix2 p q) ((ValueIdx.contrEquiv1 dot_S4000x32_S32x128_S4000x128_1_0_0_1_n_n 32 rfl rfl).symm k) = ix2 k q := funext fun a => Fin.ext (by
    match a with
    | ⟨0, _⟩ => exact (fuse0_rhs_0 _ _).trans hk
    | ⟨1, _⟩ => exact fuse0_rhs_1 _ _)
  rw [el, er]

/-- The row broadcast [1, 128] → [4000, 128] at (p, q) reads the row at (0, q). -/
theorem fuse0_bcast_apply (b : FVec Ideal S1x128 .f32) (p : Fin 4000) (q : Fin 128) :
    broadcastTo S4000x128 b broadcasts_S1x128_S4000x128 (ix2 p q) = b (ix2 (0 : Fin 1) q) :=
  broadcastTo_apply b broadcasts_S1x128_S4000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The body's result at (p, q) of the block: the embedding entry plus the feature row against column q of the weight,
    plus the bias. -/
theorem fuse0_pay_apply (x : Vec Ideal S4000x32 .f32) (w : Vec Ideal S32x128 .f32) (e : Vec Ideal S4000x128 .f32) (b : Vec Ideal S1x128 .f32)
    (p : Fin 4000) (q : Fin 128) :
    k0_pay1 (F := Ideal) x w e b (ix2 p q) = (e (ix2 p q) + ∑ k : Fin 32, x (ix2 p k) * w (ix2 k q)) + b (ix2 (0 : Fin 1) q) := by
  unfold k0_pay1
  rw [addf_apply, addf_apply, shapeCast_self, shapeCast_self, shapeCast_self, fuse0_bcast_apply, fuse0_matmul_apply]
  rfl

/-! ## From blocks to the array -/

variable (V : (c : Dev nD) → (b : Ref sig .tc) → Buf (Elt Ideal) ((c : Thread nD τ).loc b))

theorem fuse0_off_zero : (![0, 0] : Fin 2 → Nat) = fun _ => 0 := funext fun a => by fin_cases a <;> rfl

/-- The index maps, decided over the grid: the row-blocked windows are at block (t, 0), the whole operands at block (0, 0). -/
theorem fuse0_idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The feature window's block at point t, at (p, k), is the feature array's entry at row t · 4000 + p, column k. -/
theorem fuse0_blk_x (c : Dev nD) (t : Fin cfg0.N) (p : Fin 4000) (k : Fin 32) (r : Fin 200000) (hr : r.val = t.val * 4000 + p.val) :
    (iblk0 V c 0 t : Vec Ideal S4000x32 .f32) (ix2 p k) = (V c main_arg1 : Cert.Spec.Mat 200000 32) (ix2 r k) := by
  obtain ⟨e0, e1, -⟩ := fuse0_idx_facts t
  show V c main_arg1 (((cfg0.win 0).blk t).view.emb (ix2 p k)) = V c main_arg1 (ix2 r k)
  refine congrArg _ (funext fun a => Fin.ext ?_)
  match a with
  | ⟨0, _⟩ => show win0_0.index t (0 : Fin 2) * 4000 + 1 * p.val = r.val; omega
  | ⟨1, _⟩ => show win0_0.index t (1 : Fin 2) * 32 + 1 * k.val = k.val; omega

/-- The embedding window's block at point t, at (p, q), is the embedding array's entry at row t · 4000 + p, column q. -/
theorem fuse0_blk_e (c : Dev nD) (t : Fin cfg0.N) (p : Fin 4000) (q : Fin 128) (r : Fin 200000) (hr : r.val = t.val * 4000 + p.val) :
    (iblk0 V c 1 t : Vec Ideal S4000x128 .f32) (ix2 p q) = (V c main_v0 : Cert.Spec.Mat 200000 128) (ix2 r q) := by
  obtain ⟨-, -, e0, e1, -⟩ := fuse0_idx_facts t
  show V c main_v0 (((cfg0.win 1).blk t).view.emb (ix2 p q)) = V c main_v0 (ix2 r q)
  refine congrArg _ (funext fun a => Fin.ext ?_)
  match a with
  | ⟨0, _⟩ => show win0_1.index t (0 : Fin 2) * 4000 + 1 * p.val = r.val; omega
  | ⟨1, _⟩ => show win0_1.index t (1 : Fin 2) * 128 + 1 * q.val = q.val; omega

/-- The weight window's block at every point is the whole weight array. -/
theorem fuse0_blk_w (c : Dev nD) (t : Fin cfg0.N) (k : Fin 32) (q : Fin 128) :
    (iblk0 V c 2 t : Vec Ideal S32x128 .f32) (ix2 k q) = (V c main_v2 : Cert.Spec.Mat 32 128) (ix2 k q) := by
  obtain ⟨-, -, -, -, e0, e1, -⟩ := fuse0_idx_facts t
  show V c main_v2 (((cfg0.win 2).blk t).view.emb (ix2 k q)) = V c main_v2 (ix2 k q)
  refine congrArg _ (funext fun a => Fin.ext ?_)
  match a with
  | ⟨0, _⟩ => show win0_2.index t (0 : Fin 2) * 32 + 1 * k.val = k.val; omega
  | ⟨1, _⟩ => show win0_2.index t (1 : Fin 2) * 128 + 1 * q.val = q.val; omega

/-- The bias window's block at every point is the whole bias row. -/
theorem fuse0_blk_b (c : Dev nD) (t : Fin cfg0.N) (z : Fin 1) (q : Fin 128) :
    (iblk0 V c 3 t : Vec Ideal S1x128 .f32) (ix2 z q) = (V c main_v3 : Cert.Spec.Mat 1 128) (ix2 z q) := by
  obtain ⟨-, -, -, -, -, -, e0, e1, -⟩ := fuse0_idx_facts t
  show V c main_v3 (((cfg0.win 3).blk t).view.emb (ix2 z q)) = V c main_v3 (ix2 z q)
  refine congrArg _ (funext fun a => Fin.ext ?_)
  match a with
  | ⟨0, _⟩ => show win0_3.index t (0 : Fin 2) * 1 + 1 * z.val = z.val; omega
  | ⟨1, _⟩ => show win0_3.index t (1 : Fin 2) * 128 + 1 * q.val = q.val; omega

/-- What point t writes back is block t of the encoder's whole-array function of the operand arrays as the region finds them. -/
theorem fuse0_flushed_eq (c : Dev nD) (t : Fin cfg0.N) :
    (dat0 (F := Ideal) V c).flushed 4 t = ((cfg0.win 4).blk t).view.read (Elt Ideal)
      (Cert.Spec.fuseG (R := 200000) (K := 32) (C := 128) (V c main_arg1) (V c main_v0) (V c main_v2) (V c main_v3)) := by
  show (cfg0.win 4).cut (grid0.coords t) ((dat0 V c).after 4 t) = _
  rw [after0_4]
  unfold out0_4
  rw [View.canon_unit_zero fuse0_off_zero]
  simp only [View.ld_unit_zero (S := S4000x32) fuse0_off_zero, View.ld_unit_zero (S := S32x128) fuse0_off_zero, View.ld_unit_zero (S := S4000x128) fuse0_off_zero, View.ld_unit_zero (S := S1x128) fuse0_off_zero]
  have ht : t.val < 50 := lt_of_lt_of_eq t.isLt N_0
  obtain ⟨-, -, -, -, -, -, -, -, e0, e1⟩ := fuse0_idx_facts t
  funext j
  obtain ⟨p, q, rfl⟩ : ∃ (p : Fin 4000) (q : Fin 128), j = ix2 p q := ⟨j 0, j 1, eq_ix2 j⟩
  have hemb : ((cfg0.win 4).blk t).view.emb (ix2 p q) = (ix2 (⟨t.val * 4000 + p.val, by omega⟩ : Fin 200000) q : S200000x128.Idx) := by
    funext a; apply Fin.ext
    match a with
    | ⟨0, _⟩ => show win0_4.index t (0 : Fin 2) * 4000 + 1 * p.val = t.val * 4000 + p.val; omega
    | ⟨1, _⟩ => show win0_4.index t (1 : Fin 2) * 128 + 1 * q.val = q.val; omega
  show k0_pay1 (F := Ideal) (iblk0 V c 0 t) (iblk0 V c 2 t) (iblk0 V c 1 t) (iblk0 V c 3 t) (ix2 p q)
    = Cert.Spec.fuseG (R := 200000) (K := 32) (C := 128) (V c main_arg1) (V c main_v0) (V c main_v2) (V c main_v3) (((cfg0.win 4).blk t).view.emb (ix2 p q))
  rw [hemb]
  refine (fuse0_pay_apply _ _ _ _ p q).trans ?_
  exact congrArg₂ (· + ·) (congrArg₂ (· + ·) (fuse0_blk_e V c t p q _ rfl)
    (Finset.sum_congr rfl fun k _ => congrArg₂ (· * ·) (fuse0_blk_x V c t p k _ rfl) (fuse0_blk_w V c t k q))) (fuse0_blk_b V c t 0 q)

/-- An index of the array is in point t's block iff each coordinate is in the block's range on its axis. -/
theorem fuse0_mem_blk (t : Fin cfg0.N) (i : S200000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v4).slice (win0_4.rect t)).set ↔ _
  rw [View.set_slice_whole, Rect.mem_set_unit]
  exact Iff.rfl

/-- The blocks tile the array: row r is in the block of point r / 4000. -/
theorem fuse0_cover (i : S200000x128.Idx) :
    ∃ t : Fin cfg0.N, (cfg0.win 4).flush t = true ∧ i ∈ ((cfg0.win 4).blk t).view.set := by
  have hi0 : (i 0).val < 200000 := (i 0).isLt
  have hi1 : (i 1).val < 128 := (i 1).isLt
  obtain ⟨t, ht⟩ : ∃ t : Fin cfg0.N, t.val = (i 0).val / 4000 :=
    ⟨⟨(i 0).val / 4000, lt_of_lt_of_eq (by omega : (i 0).val / 4000 < 50) N_0.symm⟩, rfl⟩
  obtain ⟨-, -, -, -, -, -, -, -, e0, e1⟩ := fuse0_idx_facts t
  refine ⟨t, flush0_4 t, ?_⟩
  rw [fuse0_mem_blk]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 128 ≤ (i 1).val ∧ (i 1).val < win0_4.index t (1 : Fin 2) * 128 + 128; omega

/-- After the region the output array holds the encoder's whole-array function of the operand arrays at entry:
    at (r, q) the embedding entry plus the feature row r against column q of the weight, plus the bias. -/
theorem region0 (c : Dev nD) : (Gen.dat0 (F := Ideal) V c).arrAt 4 cfg0.N
    = Cert.Spec.fuseG (R := 200000) (K := 32) (C := 128) (V c main_arg1) (V c main_v0) (V c main_v2) (V c main_v3) :=
  (dat0 (F := Ideal) V c).arrAt_eq_of_cover 4 _ (fun t _ => fuse0_flushed_eq V c t) fuse0_cover

end Cert.KernelIdeal.RegionValue

end
-- ==== Proof.Region1.lean ====
/-
  The input encoder's region, read as a whole array.

  The region's grid has 25 points; point t holds rows t · 2000 … t · 2000 + 1999 of the feature array x (50000 × 64), of the
  embedding rows e (50000 × 128) and of the output (50000 × 128), and the whole weight w (64 × 128) and bias row b (1 × 128).
  On the extended reals the body leaves, at (p, q) of the output block,  e(p, q) + Σ_k x(p, k) · w(k, q) + b(0, q)
  (the narrowing of the matrix product's operands is the identity there, the product accumulates into zero, the bias row is
  repeated down the rows). A block's entry (p, q) is the array's entry (t · 2000 + p, q); the 25 blocks tile the 50000 rows.
  Hence after the region the output array is  fuseG x e w b  of the operand arrays as the region finds them.
-/
import proofs.«423856_j90606630076836_1_alg».proof.Proof.Gen.KernelIdeal.Frame
import proofs.«423856_j90606630076836_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

/-! ## The body's arithmetic at an index of the block -/

/-- The matrix product's left index: its row is the output's row. -/
theorem fuse1_lhs_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
/-- The matrix product's left index: its column is the contracted coordinate. -/
theorem fuse1_lhs_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
/-- The matrix product's right index: its row is the contracted coordinate. -/
theorem fuse1_rhs_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
/-- The matrix product's right index: its column is the output's column. -/
theorem fuse1_rhs_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- The matrix product into a zero accumulator at (p, q): the sum over k of the left operand's (p, k) times the right
    operand's (k, q). -/
theorem fuse1_matmul_apply (a : FVec Ideal S2000x64 .bf16) (w : FVec Ideal S64x128 .bf16) (p : Fin 2000) (q : Fin 128) :
    matmul dot_S2000x64_S64x128_S2000x128_1_0_0_1_n_n none a w (constant (F := Ideal) S2000x128 .f32 0x00000000#32) (ix2 p q)
      = ∑ k : Fin 64, a (ix2 p k) * w (ix2 k q) := by
  show FloatOps.matmul dot_S2000x64_S64x128_S2000x128_1_0_0_1_n_n none a w (constant (F := Ideal) S2000x128 .f32 0x00000000#32) (ix2 p q) = _
  rw [Ideal.matmul_constant_zero_apply, ← Equiv.sum_comp (ValueIdx.contrEquiv1 dot_S2000x64_S64x128_S2000x128_1_0_0_1_n_n 64 rfl rfl).symm]
  refine Finset.sum_congr rfl fun k _ => ?_
  have hk := ValueIdx.contrEquiv1_symm_val dot_S2000x64_S64x128_S2000x128_1_0_0_1_n_n 64 rfl rfl k
  have el : dot_S2000x64_S64x128_S2000x128_1_0_0_1_n_n.lhsIdx (ix2 p q) ((ValueIdx.contrEquiv1 dot_S2000x64_S64x128_S2000x128_1_0_0_1_n_n 64 rfl rfl).symm k) = ix2 p k := funext fun a => Fin.ext (by
    match a with
    | ⟨0, _⟩ => exact fuse1_lhs_0 _ _
    | ⟨1, _⟩ => exact (fuse1_lhs_1 _ _).trans hk)
  have er : dot_S2000x64_S64x128_S2000x128_1_0_0_1_n_n.rhsIdx (ix2 p q) ((ValueIdx.contrEquiv1 dot_S2000x64_S64x128_S2000x128_1_0_0_1_n_n 64 rfl rfl).symm k) = ix2 k q := funext fun a => Fin.ext (by
    match a with
    | ⟨0, _⟩ => exact (fuse1_rhs_0 _ _).trans hk
    | ⟨1, _⟩ => exact fuse1_rhs_1 _ _)
  rw [el, er]

/-- The row broadcast [1, 128] → [2000, 128] at (p, q) reads the row at (0, q). -/
theorem fuse1_bcast_apply (b : FVec Ideal S1x128 .f32) (p : Fin 2000) (q : Fin 128) :
    broadcastTo S2000x128 b broadcasts_S1x128_S2000x128 (ix2 p q) = b (ix2 (0 : Fin 1) q) :=
  broadcastTo_apply b broadcasts_S1x128_S2000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The body's result at (p, q) of the block: the embedding entry plus the feature row against column q of the weight,
    plus the bias. -/
theorem fuse1_pay_apply (x : Vec Ideal S2000x64 .f32) (w : Vec Ideal S64x128 .f32) (e : Vec Ideal S2000x128 .f32) (b : Vec Ideal S1x128 .f32)
    (p : Fin 2000) (q : Fin 128) :
    k1_pay1 (F := Ideal) x w e b (ix2 p q) = (e (ix2 p q) + ∑ k : Fin 64, x (ix2 p k) * w (ix2 k q)) + b (ix2 (0 : Fin 1) q) := by
  unfold k1_pay1
  rw [addf_apply, addf_apply, shapeCast_self, shapeCast_self, shapeCast_self, fuse1_bcast_apply, fuse1_matmul_apply]
  rfl

/-! ## From blocks to the array -/

variable (V : (c : Dev nD) → (b : Ref sig .tc) → Buf (Elt Ideal) ((c : Thread nD τ).loc b))

theorem fuse1_off_zero : (![0, 0] : Fin 2 → Nat) = fun _ => 0 := funext fun a => by fin_cases a <;> rfl

/-- The index maps, decided over the grid: the row-blocked windows are at block (t, 0), the whole operands at block (0, 0). -/
theorem fuse1_idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The feature window's block at point t, at (p, k), is the feature array's entry at row t · 2000 + p, column k. -/
theorem fuse1_blk_x (c : Dev nD) (t : Fin cfg1.N) (p : Fin 2000) (k : Fin 64) (r : Fin 50000) (hr : r.val = t.val * 2000 + p.val) :
    (iblk1 V c 0 t : Vec Ideal S2000x64 .f32) (ix2 p k) = (V c main_arg3 : Cert.Spec.Mat 50000 64) (ix2 r k) := by
  obtain ⟨e0, e1, -⟩ := fuse1_idx_facts t
  show V c main_arg3 (((cfg1.win 0).blk t).view.emb (ix2 p k)) = V c main_arg3 (ix2 r k)
  refine congrArg _ (funext fun a => Fin.ext ?_)
  match a with
  | ⟨0, _⟩ => show win1_0.index t (0 : Fin 2) * 2000 + 1 * p.val = r.val; omega
  | ⟨1, _⟩ => show win1_0.index t (1 : Fin 2) * 64 + 1 * k.val = k.val; omega

/-- The embedding window's block at point t, at (p, q), is the embedding array's entry at row t · 2000 + p, column q. -/
theorem fuse1_blk_e (c : Dev nD) (t : Fin cfg1.N) (p : Fin 2000) (q : Fin 128) (r : Fin 50000) (hr : r.val = t.val * 2000 + p.val) :
    (iblk1 V c 1 t : Vec Ideal S2000x128 .f32) (ix2 p q) = (V c main_v1 : Cert.Spec.Mat 50000 128) (ix2 r q) := by
  obtain ⟨-, -, e0, e1, -⟩ := fuse1_idx_facts t
  show V c main_v1 (((cfg1.win 1).blk t).view.emb (ix2 p q)) = V c main_v1 (ix2 r q)
  refine congrArg _ (funext fun a => Fin.ext ?_)
  match a with
  | ⟨0, _⟩ => show win1_1.index t (0 : Fin 2) * 2000 + 1 * p.val = r.val; omega
  | ⟨1, _⟩ => show win1_1.index t (1 : Fin 2) * 128 + 1 * q.val = q.val; omega

/-- The weight window's block at every point is the whole weight array. -/
theorem fuse1_blk_w (c : Dev nD) (t : Fin cfg1.N) (k : Fin 64) (q : Fin 128) :
    (iblk1 V c 2 t : Vec Ideal S64x128 .f32) (ix2 k q) = (V c main_v5 : Cert.Spec.Mat 64 128) (ix2 k q) := by
  obtain ⟨-, -, -, -, e0, e1, -⟩ := fuse1_idx_facts t
  show V c main_v5 (((cfg1.win 2).blk t).view.emb (ix2 k q)) = V c main_v5 (ix2 k q)
  refine congrArg _ (funext fun a => Fin.ext ?_)
  match a with
  | ⟨0, _⟩ => show win1_2.index t (0 : Fin 2) * 64 + 1 * k.val = k.val; omega
  | ⟨1, _⟩ => show win1_2.index t (1 : Fin 2) * 128 + 1 * q.val = q.val; omega

/-- The bias window's block at every point is the whole bias row. -/
theorem fuse1_blk_b (c : Dev nD) (t : Fin cfg1.N) (z : Fin 1) (q : Fin 128) :
    (iblk1 V c 3 t : Vec Ideal S1x128 .f32) (ix2 z q) = (V c main_v6 : Cert.Spec.Mat 1 128) (ix2 z q) := by
  obtain ⟨-, -, -, -, -, -, e0, e1, -⟩ := fuse1_idx_facts t
  show V c main_v6 (((cfg1.win 3).blk t).view.emb (ix2 z q)) = V c main_v6 (ix2 z q)
  refine congrArg _ (funext fun a => Fin.ext ?_)
  match a with
  | ⟨0, _⟩ => show win1_3.index t (0 : Fin 2) * 1 + 1 * z.val = z.val; omega
  | ⟨1, _⟩ => show win1_3.index t (1 : Fin 2) * 128 + 1 * q.val = q.val; omega

/-- What point t writes back is block t of the encoder's whole-array function of the operand arrays as the region finds them. -/
theorem fuse1_flushed_eq (c : Dev nD) (t : Fin cfg1.N) :
    (dat1 (F := Ideal) V c).flushed 4 t = ((cfg1.win 4).blk t).view.read (Elt Ideal)
      (Cert.Spec.fuseG (R := 50000) (K := 64) (C := 128) (V c main_arg3) (V c main_v1) (V c main_v5) (V c main_v6)) := by
  show (cfg1.win 4).cut (grid1.coords t) ((dat1 V c).after 4 t) = _
  rw [after1_4]
  unfold out1_4
  rw [View.canon_unit_zero fuse1_off_zero]
  simp only [View.ld_unit_zero (S := S2000x64) fuse1_off_zero, View.ld_unit_zero (S := S64x128) fuse1_off_zero, View.ld_unit_zero (S := S2000x128) fuse1_off_zero, View.ld_unit_zero (S := S1x128) fuse1_off_zero]
  have ht : t.val < 25 := lt_of_lt_of_eq t.isLt N_1
  obtain ⟨-, -, -, -, -, -, -, -, e0, e1⟩ := fuse1_idx_facts t
  funext j
  obtain ⟨p, q, rfl⟩ : ∃ (p : Fin 2000) (q : Fin 128), j = ix2 p q := ⟨j 0, j 1, eq_ix2 j⟩
  have hemb : ((cfg1.win 4).blk t).view.emb (ix2 p q) = (ix2 (⟨t.val * 2000 + p.val, by omega⟩ : Fin 50000) q : S50000x128.Idx) := by
    funext a; apply Fin.ext
    match a with
    | ⟨0, _⟩ => show win1_4.index t (0 : Fin 2) * 2000 + 1 * p.val = t.val * 2000 + p.val; omega
    | ⟨1, _⟩ => show win1_4.index t (1 : Fin 2) * 128 + 1 * q.val = q.val; omega
  show k1_pay1 (F := Ideal) (iblk1 V c 0 t) (iblk1 V c 2 t) (iblk1 V c 1 t) (iblk1 V c 3 t) (ix2 p q)
    = Cert.Spec.fuseG (R := 50000) (K := 64) (C := 128) (V c main_arg3) (V c main_v1) (V c main_v5) (V c main_v6) (((cfg1.win 4).blk t).view.emb (ix2 p q))
  rw [hemb]
  refine (fuse1_pay_apply _ _ _ _ p q).trans ?_
  exact congrArg₂ (· + ·) (congrArg₂ (· + ·) (fuse1_blk_e V c t p q _ rfl)
    (Finset.sum_congr rfl fun k _ => congrArg₂ (· * ·) (fuse1_blk_x V c t p k _ rfl) (fuse1_blk_w V c t k q))) (fuse1_blk_b V c t 0 q)

/-- An index of the array is in point t's block iff each coordinate is in the block's range on its axis. -/
theorem fuse1_mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v7).slice (win1_4.rect t)).set ↔ _
  rw [View.set_slice_whole, Rect.mem_set_unit]
  exact Iff.rfl

/-- The blocks tile the array: row r is in the block of point r / 2000. -/
theorem fuse1_cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, lt_of_lt_of_eq (by omega : (i 0).val / 2000 < 25) N_1.symm⟩, rfl⟩
  obtain ⟨-, -, -, -, -, -, -, -, e0, e1⟩ := fuse1_idx_facts t
  refine ⟨t, flush1_4 t, ?_⟩
  rw [fuse1_mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- After the region the output array holds the encoder's whole-array function of the operand arrays at entry:
    at (r, q) the embedding entry plus the feature row r against column q of the weight, plus the bias. -/
theorem region1 (c : Dev nD) : (Gen.dat1 (F := Ideal) V c).arrAt 4 cfg1.N
    = Cert.Spec.fuseG (R := 50000) (K := 64) (C := 128) (V c main_arg3) (V c main_v1) (V c main_v5) (V c main_v6) :=
  (dat1 (F := Ideal) V c).arrAt_eq_of_cover 4 _ (fun t _ => fuse1_flushed_eq V c t) fuse1_cover

end Cert.KernelIdeal.RegionValue

end
-- ==== Proof.Region2.lean ====
/-
  Region 2 of the program: one SAGE layer with its row normalisation and rectifier, over 200000 rows in 50 blocks of
  4000 rows.

  What is proved, at the extended reals (every operation exact, the roundings the identity):

  * at an index (p, q) of a block, the body's value before the normalisation is the layer's core
        (∑ₖ agg(p,k) / max(deg(p), 1) · wl(k,q)) + b(q) + ∑ₖ xd(p,k) · wr(k,q)
    of the loaded blocks: a block product into a zero accumulator is the sum over the contraction index of the products
    of the operands' entries, a column broadcast along the lanes reads the column's entry of the row, a row broadcast
    down the rows reads the row's entry of the lane;
  * the body's result at (p, q) is max(z(p,q) / max(√(∑_c z(p,c)²), ε), 0): the lane sum of a block at a row is the sum
    of the row's entries, and the sum's terms are the core again (used once for the entry and once inside the row's sum
    of squares);
  * block t of each row-blocked operand is rows t·4000 … t·4000 + 3999 of its array, the weights' and the bias's blocks are
    the whole arrays, so what point t writes back is block t of the layer of the whole arrays;
  * every row r lies in the block of point r / 4000, so after the region the output array is the layer of the operand
    arrays as the region finds them (`region2`).
-/
import proofs.«423856_j90606630076836_1_alg».proof.Proof.Gen.KernelIdeal.Frame
import proofs.«423856_j90606630076836_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.RegionValue

open Cert.KernelIdeal Cert.KernelIdeal.Gen Idealize.ShloMosaic.ValueIdx

/-! ## The block product at an index -/

/-- The left operand's row coordinate at output index i is i's row. -/
theorem lhs_rg2_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column coordinate is the contraction index. -/
theorem lhs_rg2_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row coordinate is the contraction index. -/
theorem rhs_rg2_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column coordinate at output index i is i's column. -/
theorem rhs_rg2_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block product into the zero accumulator at (p, q): the row p of the left operand against the column q of the right. -/
theorem matmul_at_rg2 {φ₁ φ₂ : FTy} (a : FVec Ideal S4000x128 φ₁) (w : FVec Ideal S128x128 φ₂) (p : Fin 4000) (q : Fin 128) :
    matmul dot_S4000x128_S128x128_S4000x128_1_0_0_1_n_n none a w (constant (F := Ideal) S4000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun ax => Fin.ext (by
    match ax with
    | ⟨0, _⟩ => exact lhs_rg2_0 _ _
    | ⟨1, _⟩ => exact (lhs_rg2_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun ax => Fin.ext (by
    match ax with
    | ⟨0, _⟩ => exact (rhs_rg2_0 _ _).trans hk
    | ⟨1, _⟩ => exact rhs_rg2_1 _ _)
  rw [el, er]

/-! ## The keepdims layout operations at an index -/

/-- An [a, 1] column broadcast to [a, b] reads, at (p, c), the column's entry of row p. -/
theorem broadcastTo_col_rg2 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] array cast to an [a, 1] column reads, at (p, 0), the operand at p. -/
theorem shapeCast_col_rg2 {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The lane sum of a block at row p: the sum of the row's entries. -/
theorem laneSum_at_rg2 (src : FVec Ideal S4000x128 .f32) (hφ : FKind.Formats FTy.f32) (hacc : (0x00000000#32 : BitVec 32) = 0x00000000#32) (p : Fin 4000) :
    multiReduction (F := Ideal) .add [1] S4000 src 0x00000000#32 reduces_S4000x128_S4000 hφ hacc (ix1 p) = ∑ k : Fin 128, src (ix2 p k) := by
  refine (Ideal.multiReduction_add_single src 0x00000000#32 reduces_S4000x128_S4000 hφ hacc (ix1 p)).trans ?_
  refine Finset.sum_congr rfl fun k _ => congrArg src (funext fun ax => Fin.ext ?_)
  match ax with
  | ⟨0, _⟩ => rfl
  | ⟨1, _⟩ => rfl

/-! ## The body's payload at an index of the block -/

/-- The body's value before the normalisation, as one term of the loaded blocks: the neighbour sum divided by the
    larger of the degree and one, against the left weight, plus the bias row, plus the destination rows against the
    right weight. -/
def zterm_rg2 (v0 : Vec Ideal S4000x128 .f32) (v2 : Vec Ideal S4000x1 .f32) (v9 : Vec Ideal S4000x128 .f32) (v12 : Vec Ideal S128x128 .f32) (v15 : Vec Ideal S128x128 .f32) (v19 : Vec Ideal S1x128 .f32) : FVec Ideal S4000x128 .f32 :=
  addf
    (addf
      (matmul dot_S4000x128_S128x128_S4000x128_1_0_0_1_n_n none
        (truncf .bf16 (divf (shapeCast S4000x128 v0 shapeCasts_S4000x128_S4000x128)
          (broadcastTo S4000x128 (maximumf (shapeCast S4000x1 v2 shapeCasts_S4000x1_S4000x1) (broadcast S4000x1 (Scalar.ofBits .f32 0x3F800000#32))) broadcasts_S4000x1_S4000x128)) bitsLt_bf16_f32)
        (truncf .bf16 (shapeCast S128x128 v12 shapeCasts_S128x128_S128x128) bitsLt_bf16_f32)
        (constant S4000x128 .f32 0x00000000#32))
      (broadcastTo S4000x128 (shapeCast S1x128 v19 shapeCasts_S1x128_S1x128) broadcasts_S1x128_S4000x128))
    (matmul dot_S4000x128_S128x128_S4000x128_1_0_0_1_n_n none
      (truncf .bf16 (shapeCast S4000x128 v9 shapeCasts_S4000x128_S4000x128) bitsLt_bf16_f32)
      (truncf .bf16 (shapeCast S128x128 v15 shapeCasts_S128x128_S128x128) bitsLt_bf16_f32)
      (constant S4000x128 .f32 0x00000000#32))

/-- The payload is the rectifier of that value divided, row by row, by the larger of the row's Euclidean norm and ε. -/
theorem pay_eq_rg2 (v0 : Vec Ideal S4000x128 .f32) (v2 : Vec Ideal S4000x1 .f32) (v9 : Vec Ideal S4000x128 .f32) (v12 : Vec Ideal S128x128 .f32) (v15 : Vec Ideal S128x128 .f32) (v19 : Vec Ideal S1x128 .f32) :
    k2_pay1 (F := Ideal) v0 v2 v9 v12 v15 v19
      = maximumf
          (divf (zterm_rg2 v0 v2 v9 v12 v15 v19)
            (broadcastTo S4000x128
              (maximumf
                (sqrt (shapeCast S4000x1
                  (multiReduction (F := Ideal) .add [1] S4000 (mulf (zterm_rg2 v0 v2 v9 v12 v15 v19) (zterm_rg2 v0 v2 v9 v12 v15 v19)) 0x00000000#32 reduces_S4000x128_S4000 (.inl rfl) rfl)
                  shapeCasts_S4000_S4000x1))
                (broadcast S4000x1 (Scalar.ofBits .f32 0x2B8CBCCC#32)))
              broadcasts_S4000x1_S4000x128))
          (broadcast S4000x128 (Scalar.ofBits .f32 0x00000000#32)) := rfl

/-- The value before the normalisation at (p, q) of the block is the layer's core at (p, q) of the blocks. -/
theorem zterm_at_rg2 (v0 : Vec Ideal S4000x128 .f32) (v2 : Vec Ideal S4000x1 .f32) (v9 : Vec Ideal S4000x128 .f32) (v12 : Vec Ideal S128x128 .f32) (v15 : Vec Ideal S128x128 .f32) (v19 : Vec Ideal S1x128 .f32) (p : Fin 4000) (q : Fin 128) :
    zterm_rg2 v0 v2 v9 v12 v15 v19 (ix2 p q) = Cert.Spec.combCore (R := 4000) (K := 128) (C := 128) v0 v2 v9 v12 v15 v19 p q := by
  unfold zterm_rg2 Cert.Spec.combCore
  simp only [shapeCast_self]
  rw [addf_apply, addf_apply, matmul_at_rg2, matmul_at_rg2, broadcastTo_1b_ab_apply]
  refine congrArg₂ (· + ·) (congrArg₂ (· + ·) (Finset.sum_congr rfl fun k _ => ?_) rfl) (Finset.sum_congr rfl fun k _ => ?_)
  · rw [truncf_apply, truncf_apply, divf_apply, broadcastTo_col_rg2, maximumf_apply, broadcast_apply]
    rfl
  · rw [truncf_apply, truncf_apply]

/-- THE PAYLOAD AT (p, q) of the block: the normalised, rectified layer of the loaded blocks at (p, q). -/
theorem pay_at_rg2 (v0 : Vec Ideal S4000x128 .f32) (v2 : Vec Ideal S4000x1 .f32) (v9 : Vec Ideal S4000x128 .f32) (v12 : Vec Ideal S128x128 .f32) (v15 : Vec Ideal S128x128 .f32) (v19 : Vec Ideal S1x128 .f32) (p : Fin 4000) (q : Fin 128) :
    k2_pay1 (F := Ideal) v0 v2 v9 v12 v15 v19 (ix2 p q) = Cert.Spec.combNormG (R := 4000) (K := 128) (C := 128) v0 v2 v9 v12 v15 v19 (ix2 p q) := by
  rw [pay_eq_rg2]
  unfold Cert.Spec.combNormG
  rw [maximumf_apply, divf_apply, broadcastTo_col_rg2, maximumf_apply, broadcast_apply, broadcast_apply]
  show max (Ideal.div _ (max (Ideal.sqrt (shapeCast S4000x1 _ shapeCasts_S4000_S4000x1 (ix2 p (0 : Fin 1)))) _)) _ = _
  rw [shapeCast_col_rg2, laneSum_at_rg2, zterm_at_rg2]
  refine congrArg₂ max (congrArg₂ Ideal.div rfl (congrArg₂ max (congrArg Ideal.sqrt (Finset.sum_congr rfl fun k _ => ?_)) rfl)) rfl
  rw [mulf_apply, zterm_at_rg2]

/-! ## From the blocks to the array -/

variable (V : (c : Dev nD) → (b : Ref sig .tc) → Buf (Elt Ideal) ((c : Thread nD τ).loc b))

theorem hz_rg2 : (![0, 0] : Fin 2 → Nat) = fun _ => 0 := funext fun a => match a with
  | ⟨0, _⟩ => rfl
  | ⟨1, _⟩ => rfl

/-- The printed index maps, decided over the grid: the three row-blocked operands move with the output's block, whose
    index is the point's number; the two weights and the bias stay at block (0, 0). -/
theorem idx_facts_rg2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The neighbour-sum block of point t at (p, k) is the array's entry at row t · 4000 + p. -/
theorem blk0_at_rg2 (c : Dev nD) (t : Fin cfg2.N) (p : Fin 4000) (k : Fin 128) (r : Fin 200000) (hr : r.val = t.val * 4000 + p.val) :
    iblk2 (F := Ideal) V c 0 t (ix2 p k) = V c main_v11 (ix2 r k) := by
  obtain ⟨e0, e1, -⟩ := idx_facts_rg2 t
  show V c main_v11 (((cfg2.win 0).blk t).view.emb (ix2 p k)) = V c main_v11 (ix2 r k)
  refine congrArg _ (funext fun a => Fin.ext ?_)
  match a with
  | ⟨0, _⟩ => show win2_0.index t (0 : Fin 2) * 4000 + 1 * p.val = r.val; omega
  | ⟨1, _⟩ => show win2_0.index t (1 : Fin 2) * 128 + 1 * k.val = k.val; omega

/-- The degree block of point t at (p, 0) is the array's entry at row t · 4000 + p. -/
theorem blk1_at_rg2 (c : Dev nD) (t : Fin cfg2.N) (p : Fin 4000) (u : Fin 1) (r : Fin 200000) (hr : r.val = t.val * 4000 + p.val) :
    iblk2 (F := Ideal) V c 1 t (ix2 p u) = V c main_v16 (ix2 r u) := by
  obtain ⟨-, -, e0, e1, -⟩ := idx_facts_rg2 t
  show V c main_v16 (((cfg2.win 1).blk t).view.emb (ix2 p u)) = V c main_v16 (ix2 r u)
  refine congrArg _ (funext fun a => Fin.ext ?_)
  match a with
  | ⟨0, _⟩ => show win2_1.index t (0 : Fin 2) * 4000 + 1 * p.val = r.val; omega
  | ⟨1, _⟩ => show win2_1.index t (1 : Fin 2) * 1 + 1 * u.val = u.val; omega

/-- The destination block of point t at (p, k) is the array's entry at row t · 4000 + p. -/
theorem blk2_at_rg2 (c : Dev nD) (t : Fin cfg2.N) (p : Fin 4000) (k : Fin 128) (r : Fin 200000) (hr : r.val = t.val * 4000 + p.val) :
    iblk2 (F := Ideal) V c 2 t (ix2 p k) = V c main_v4 (ix2 r k) := by
  obtain ⟨-, -, -, -, e0, e1, -⟩ := idx_facts_rg2 t
  show V c main_v4 (((cfg2.win 2).blk t).view.emb (ix2 p k)) = V c main_v4 (ix2 r k)
  refine congrArg _ (funext fun a => Fin.ext ?_)
  match a with
  | ⟨0, _⟩ => show win2_2.index t (0 : Fin 2) * 4000 + 1 * p.val = r.val; omega
  | ⟨1, _⟩ => show win2_2.index t (1 : Fin 2) * 128 + 1 * k.val = k.val; omega

/-- The left weight's block at every point is the whole array. -/
theorem blk3_at_rg2 (c : Dev nD) (t : Fin cfg2.N) (k : Fin 128) (q : Fin 128) :
    iblk2 (F := Ideal) V c 3 t (ix2 k q) = V c main_v17 (ix2 k q) := by
  obtain ⟨-, -, -, -, -, -, e0, e1, -⟩ := idx_facts_rg2 t
  show V c main_v17 (((cfg2.win 3).blk t).view.emb (ix2 k q)) = V c main_v17 (ix2 k q)
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- The right weight's block at every point is the whole array. -/
theorem blk4_at_rg2 (c : Dev nD) (t : Fin cfg2.N) (k : Fin 128) (q : Fin 128) :
    iblk2 (F := Ideal) V c 4 t (ix2 k q) = V c main_v18 (ix2 k q) := by
  obtain ⟨-, -, -, -, -, -, -, -, e0, e1, -⟩ := idx_facts_rg2 t
  show V c main_v18 (((cfg2.win 4).blk t).view.emb (ix2 k q)) = V c main_v18 (ix2 k q)
  refine congrArg _ (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

/-- The bias row's block at every point is the whole row. -/
theorem blk5_at_rg2 (c : Dev nD) (t : Fin cfg2.N) (u : Fin 1) (q : Fin 128) :
    iblk2 (F := Ideal) V c 5 t (ix2 u q) = V c main_v19 (ix2 u q) := by
  obtain ⟨-, -, -, -, -, -, -, -, -, -, e0, e1, -⟩ := idx_facts_rg2 t
  show V c main_v19 (((cfg2.win 5).blk t).view.emb (ix2 u q)) = V c main_v19 (ix2 u q)
  refine congrArg _ (funext fun a => Fin.ext ?_)
  match a with
  | ⟨0, _⟩ => show win2_5.index t (0 : Fin 2) * 1 + 1 * u.val = u.val; omega
  | ⟨1, _⟩ => show win2_5.index t (1 : Fin 2) * 128 + 1 * q.val = q.val; omega

/-- The layer's core of point t's blocks at (p, q) is the core of the arrays at (t · 4000 + p, q). -/
theorem core_blk_rg2 (c : Dev nD) (t : Fin cfg2.N) (p : Fin 4000) (q : Fin 128) (r : Fin 200000) (hr : r.val = t.val * 4000 + p.val) :
    Cert.Spec.combCore (R := 4000) (K := 128) (C := 128) (iblk2 (F := Ideal) V c 0 t) (iblk2 (F := Ideal) V c 1 t) (iblk2 (F := Ideal) V c 2 t) (iblk2 (F := Ideal) V c 3 t) (iblk2 (F := Ideal) V c 4 t) (iblk2 (F := Ideal) V c 5 t) p q
      = Cert.Spec.combCore (R := 200000) (K := 128) (C := 128) (V c main_v11) (V c main_v16) (V c main_v4) (V c main_v17) (V c main_v18) (V c main_v19) r q := by
  unfold Cert.Spec.combCore
  rw [blk1_at_rg2 V c t p 0 r hr, blk5_at_rg2 V c t 0 q]
  refine congrArg₂ (· + ·) (congrArg₂ (· + ·) (Finset.sum_congr rfl fun k _ => ?_) rfl) (Finset.sum_congr rfl fun k _ => ?_)
  · rw [blk0_at_rg2 V c t p k r hr, blk3_at_rg2 V c t k q]
  · rw [blk2_at_rg2 V c t p k r hr, blk4_at_rg2 V c t k q]

/-- WHAT POINT t WRITES BACK is block t of the normalised, rectified layer of the operand arrays as the region finds them. -/
theorem flushed_eq_rg2 (c : Dev nD) (t : Fin cfg2.N) :
    (dat2 (F := Ideal) V c).flushed 6 t = ((cfg2.win 6).blk t).view.read (Elt Ideal)
      (Cert.Spec.combNormG (R := 200000) (K := 128) (C := 128) (V c main_v11) (V c main_v16) (V c main_v4) (V c main_v17) (V c main_v18) (V c main_v19)) := by
  show (cfg2.win 6).cut (grid2.coords t) ((dat2 (F := Ideal) V c).after 6 t) = _
  rw [after2_6]
  unfold out2_6
  rw [View.canon_unit_zero hz_rg2]
  simp only [View.ld_unit_zero (S := S4000x128) hz_rg2, View.ld_unit_zero (S := S4000x1) hz_rg2, View.ld_unit_zero (S := S128x128) hz_rg2, View.ld_unit_zero (S := S1x128) hz_rg2]
  obtain ⟨-, -, -, -, -, -, -, -, -, -, -, -, e0, e1⟩ := idx_facts_rg2 t
  funext (j : S4000x128.Idx)
  obtain ⟨p, q, rfl⟩ : ∃ (p : Fin 4000) (q : Fin 128), j = ix2 p q := ⟨j 0, j 1, eq_ix2 j⟩
  have ht : t.val < 50 := lt_of_lt_of_eq t.isLt N_2
  have hr : t.val * 4000 + p.val < 200000 := by omega
  have hemb : ((cfg2.win 6).blk t).view.emb (ix2 p q) = ix2 (⟨t.val * 4000 + p.val, hr⟩ : Fin 200000) q := by
    funext a; apply Fin.ext
    match a with
    | ⟨0, _⟩ => show win2_6.index t (0 : Fin 2) * 4000 + 1 * p.val = t.val * 4000 + p.val; omega
    | ⟨1, _⟩ => show win2_6.index t (1 : Fin 2) * 128 + 1 * q.val = q.val; omega
  show k2_pay1 (F := Ideal) (iblk2 V c 0 t) (iblk2 V c 1 t) (iblk2 V c 2 t) (iblk2 V c 3 t) (iblk2 V c 4 t) (iblk2 V c 5 t) (ix2 p q)
    = Cert.Spec.combNormG (R := 200000) (K := 128) (C := 128) (V c main_v11) (V c main_v16) (V c main_v4) (V c main_v17) (V c main_v18) (V c main_v19) (((cfg2.win 6).blk t).view.emb (ix2 p q))
  rw [pay_at_rg2, hemb]
  unfold Cert.Spec.combNormG
  show max (Ideal.div (Cert.Spec.combCore _ _ _ _ _ _ p q) (max (Ideal.sqrt (∑ x : Fin 128, Cert.Spec.combCore _ _ _ _ _ _ p x * Cert.Spec.combCore _ _ _ _ _ _ p x)) _)) _
    = max (Ideal.div (Cert.Spec.combCore _ _ _ _ _ _ (⟨t.val * 4000 + p.val, hr⟩ : Fin 200000) q) (max (Ideal.sqrt (∑ x : Fin 128, Cert.Spec.combCore _ _ _ _ _ _ (⟨t.val * 4000 + p.val, hr⟩ : Fin 200000) x * Cert.Spec.combCore _ _ _ _ _ _ (⟨t.val * 4000 + p.val, hr⟩ : Fin 200000) x)) _)) _
  rw [core_blk_rg2 V c t p q ⟨t.val * 4000 + p.val, hr⟩ rfl]
  refine congrArg₂ max (congrArg₂ Ideal.div rfl (congrArg₂ max (congrArg Ideal.sqrt (Finset.sum_congr rfl fun x _ => ?_)) rfl)) rfl
  rw [core_blk_rg2 V c t p x ⟨t.val * 4000 + p.val, hr⟩ rfl]

/-- An index of the array is in point t's block iff each coordinate is in the block's range on its axis. -/
theorem mem_blk_rg2 (t : Fin cfg2.N) (i : S200000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v20).slice (win2_6.rect t)).set ↔ _
  rw [View.set_slice_whole, Rect.mem_set_unit]
  exact Iff.rfl

/-- Every row r of the array is in the block of point r / 4000, which writes back. -/
theorem cover_rg2 (i : S200000x128.Idx) : ∃ t : Fin cfg2.N, (cfg2.win 6).flush t = true ∧ i ∈ ((cfg2.win 6).blk t).view.set := by
  have hi0 : (i 0).val < 200000 := (i 0).isLt
  have hi1 : (i 1).val < 128 := (i 1).isLt
  have hlt : (i 0).val / 4000 < cfg2.N := lt_of_lt_of_eq (by omega : (i 0).val / 4000 < 50) N_2.symm
  obtain ⟨-, -, -, -, -, -, -, -, -, -, -, -, e0, e1⟩ := idx_facts_rg2 ⟨(i 0).val / 4000, hlt⟩
  refine ⟨⟨(i 0).val / 4000, hlt⟩, flush2_6 _, ?_⟩
  rw [mem_blk_rg2]
  intro a
  match a with
  | ⟨0, _⟩ =>
    show win2_6.index ⟨(i 0).val / 4000, hlt⟩ (0 : Fin 2) * 4000 ≤ (i 0).val ∧ (i 0).val < win2_6.index ⟨(i 0).val / 4000, hlt⟩ (0 : Fin 2) * 4000 + 4000
    have e0' : win2_6.index ⟨(i 0).val / 4000, hlt⟩ (0 : Fin 2) = (i 0).val / 4000 := e0
    omega
  | ⟨1, _⟩ =>
    show win2_6.index ⟨(i 0).val / 4000, hlt⟩ (1 : Fin 2) * 128 ≤ (i 1).val ∧ (i 1).val < win2_6.index ⟨(i 0).val / 4000, hlt⟩ (1 : Fin 2) * 128 + 128
    omega

/-- THE ARRAY AFTER THE REGION: the normalised, rectified layer of the operand arrays as the region finds them. -/
theorem region2 (c : Dev nD) :
    (Gen.dat2 (F := Ideal) V c).arrAt 6 cfg2.N = Cert.Spec.combNormG (R := 200000) (K := 128) (C := 128) (V c main_v11) (V c main_v16) (V c main_v4) (V c main_v17) (V c main_v18) (V c main_v19) :=
  (dat2 (F := Ideal) V c).arrAt_eq_of_cover 6 _ (fun t _ => flushed_eq_rg2 V c t) (fun i => cover_rg2 i)

end Cert.KernelIdeal.RegionValue

end
-- ==== Proof.Region3.lean ====
/-
  Region 3 of the program: one SAGE layer with its row normalisation and rectifier, over 50000 rows in 25 blocks of
  2000 rows.

  What is proved, at the extended reals (every operation exact, the roundings the identity):

  * at an index (p, q) of a block, the body's value before the normalisation is the layer's core
        (∑ₖ agg(p,k) / max(deg(p), 1) · wl(k,q)) + b(q) + ∑ₖ xd(p,k) · wr(k,q)
    of the loaded blocks: a block product into a zero accumulator is the sum over the contraction index of the products
    of the operands' entries, a column broadcast along the lanes reads the column's entry of the row, a row broadcast
    down the rows reads the row's entry of the lane;
  * the body's result at (p, q) is max(z(p,q) / max(√(∑_c z(p,c)²), ε), 0): the lane sum of a block at a row is the sum
    of the row's entries, and the sum's terms are the core again (used once for the entry and once inside the row's sum
    of squares);
  * block t of each row-blocked operand is rows t·2000 … t·2000 + 1999 of its array, the weights' and the bias's blocks are
    the whole arrays, so what point t writes back is block t of the layer of the whole arrays;
  * every row r lies in the block of point r / 2000, so after the region the output array is the layer of the operand
    arrays as the region finds them (`region3`).
-/
import proofs.«423856_j90606630076836_1_alg».proof.Proof.Gen.KernelIdeal.Frame
import proofs.«423856_j90606630076836_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.RegionValue

open Cert.KernelIdeal Cert.KernelIdeal.Gen Idealize.ShloMosaic.ValueIdx

/-! ## The block product at an index -/

/-- The left operand's row coordinate at output index i is i's row. -/
theorem lhs_rg3_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column coordinate is the contraction index. -/
theorem lhs_rg3_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row coordinate is the contraction index. -/
theorem rhs_rg3_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column coordinate at output index i is i's column. -/
theorem rhs_rg3_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block product into the zero accumulator at (p, q): the row p of the left operand against the column q of the right. -/
theorem matmul_at_rg3 {φ₁ φ₂ : FTy} (a : FVec Ideal S2000x128 φ₁) (w : FVec Ideal S128x128 φ₂) (p : Fin 2000) (q : Fin 128) :
    matmul dot_S2000x128_S128x128_S2000x128_1_0_0_1_n_n none a w (constant (F := Ideal) S2000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun ax => Fin.ext (by
    match ax with
    | ⟨0, _⟩ => exact lhs_rg3_0 _ _
    | ⟨1, _⟩ => exact (lhs_rg3_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun ax => Fin.ext (by
    match ax with
    | ⟨0, _⟩ => exact (rhs_rg3_0 _ _).trans hk
    | ⟨1, _⟩ => exact rhs_rg3_1 _ _)
  rw [el, er]

/-! ## The keepdims layout operations at an index -/

/-- An [a, 1] column broadcast to [a, b] reads, at (p, c), the column's entry of row p. -/
theorem broadcastTo_col_rg3 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] array cast to an [a, 1] column reads, at (p, 0), the operand at p. -/
theorem shapeCast_col_rg3 {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The lane sum of a block at row p: the sum of the row's entries. -/
theorem laneSum_at_rg3 (src : FVec Ideal S2000x128 .f32) (hφ : FKind.Formats FTy.f32) (hacc : (0x00000000#32 : BitVec 32) = 0x00000000#32) (p : Fin 2000) :
    multiReduction (F := Ideal) .add [1] S2000 src 0x00000000#32 reduces_S2000x128_S2000 hφ hacc (ix1 p) = ∑ k : Fin 128, src (ix2 p k) := by
  refine (Ideal.multiReduction_add_single src 0x00000000#32 reduces_S2000x128_S2000 hφ hacc (ix1 p)).trans ?_
  refine Finset.sum_congr rfl fun k _ => congrArg src (funext fun ax => Fin.ext ?_)
  match ax with
  | ⟨0, _⟩ => rfl
  | ⟨1, _⟩ => rfl

/-! ## The body's payload at an index of the block -/

/-- The body's value before the normalisation, as one term of the loaded blocks: the neighbour sum divided by the
    larger of the degree and one, against the left weight, plus the bias row, plus the destination rows against the
    right weight. -/
def zterm_rg3 (v0 : Vec Ideal S2000x128 .f32) (v2 : Vec Ideal S2000x1 .f32) (v9 : Vec Ideal S2000x128 .f32) (v12 : Vec Ideal S128x128 .f32) (v15 : Vec Ideal S128x128 .f32) (v19 : Vec Ideal S1x128 .f32) : FVec Ideal S2000x128 .f32 :=
  addf
    (addf
      (matmul dot_S2000x128_S128x128_S2000x128_1_0_0_1_n_n none
        (truncf .bf16 (divf (shapeCast S2000x128 v0 shapeCasts_S2000x128_S2000x128)
          (broadcastTo S2000x128 (maximumf (shapeCast S2000x1 v2 shapeCasts_S2000x1_S2000x1) (broadcast S2000x1 (Scalar.ofBits .f32 0x3F800000#32))) broadcasts_S2000x1_S2000x128)) bitsLt_bf16_f32)
        (truncf .bf16 (shapeCast S128x128 v12 shapeCasts_S128x128_S128x128) bitsLt_bf16_f32)
        (constant S2000x128 .f32 0x00000000#32))
      (broadcastTo S2000x128 (shapeCast S1x128 v19 shapeCasts_S1x128_S1x128) broadcasts_S1x128_S2000x128))
    (matmul dot_S2000x128_S128x128_S2000x128_1_0_0_1_n_n none
      (truncf .bf16 (shapeCast S2000x128 v9 shapeCasts_S2000x128_S2000x128) bitsLt_bf16_f32)
      (truncf .bf16 (shapeCast S128x128 v15 shapeCasts_S128x128_S128x128) bitsLt_bf16_f32)
      (constant S2000x128 .f32 0x00000000#32))

/-- The payload is the rectifier of that value divided, row by row, by the larger of the row's Euclidean norm and ε. -/
theorem pay_eq_rg3 (v0 : Vec Ideal S2000x128 .f32) (v2 : Vec Ideal S2000x1 .f32) (v9 : Vec Ideal S2000x128 .f32) (v12 : Vec Ideal S128x128 .f32) (v15 : Vec Ideal S128x128 .f32) (v19 : Vec Ideal S1x128 .f32) :
    k3_pay1 (F := Ideal) v0 v2 v9 v12 v15 v19
      = maximumf
          (divf (zterm_rg3 v0 v2 v9 v12 v15 v19)
            (broadcastTo S2000x128
              (maximumf
                (sqrt (shapeCast S2000x1
                  (multiReduction (F := Ideal) .add [1] S2000 (mulf (zterm_rg3 v0 v2 v9 v12 v15 v19) (zterm_rg3 v0 v2 v9 v12 v15 v19)) 0x00000000#32 reduces_S2000x128_S2000 (.inl rfl) rfl)
                  shapeCasts_S2000_S2000x1))
                (broadcast S2000x1 (Scalar.ofBits .f32 0x2B8CBCCC#32)))
              broadcasts_S2000x1_S2000x128))
          (broadcast S2000x128 (Scalar.ofBits .f32 0x00000000#32)) := rfl

/-- The value before the normalisation at (p, q) of the block is the layer's core at (p, q) of the blocks. -/
theorem zterm_at_rg3 (v0 : Vec Ideal S2000x128 .f32) (v2 : Vec Ideal S2000x1 .f32) (v9 : Vec Ideal S2000x128 .f32) (v12 : Vec Ideal S128x128 .f32) (v15 : Vec Ideal S128x128 .f32) (v19 : Vec Ideal S1x128 .f32) (p : Fin 2000) (q : Fin 128) :
    zterm_rg3 v0 v2 v9 v12 v15 v19 (ix2 p q) = Cert.Spec.combCore (R := 2000) (K := 128) (C := 128) v0 v2 v9 v12 v15 v19 p q := by
  unfold zterm_rg3 Cert.Spec.combCore
  simp only [shapeCast_self]
  rw [addf_apply, addf_apply, matmul_at_rg3, matmul_at_rg3, broadcastTo_1b_ab_apply]
  refine congrArg₂ (· + ·) (congrArg₂ (· + ·) (Finset.sum_congr rfl fun k _ => ?_) rfl) (Finset.sum_congr rfl fun k _ => ?_)
  · rw [truncf_apply, truncf_apply, divf_apply, broadcastTo_col_rg3, maximumf_apply, broadcast_apply]
    rfl
  · rw [truncf_apply, truncf_apply]

/-- THE PAYLOAD AT (p, q) of the block: the normalised, rectified layer of the loaded blocks at (p, q). -/
theorem pay_at_rg3 (v0 : Vec Ideal S2000x128 .f32) (v2 : Vec Ideal S2000x1 .f32) (v9 : Vec Ideal S2000x128 .f32) (v12 : Vec Ideal S128x128 .f32) (v15 : Vec Ideal S128x128 .f32) (v19 : Vec Ideal S1x128 .f32) (p : Fin 2000) (q : Fin 128) :
    k3_pay1 (F := Ideal) v0 v2 v9 v12 v15 v19 (ix2 p q) = Cert.Spec.combNormG (R := 2000) (K := 128) (C := 128) v0 v2 v9 v12 v15 v19 (ix2 p q) := by
  rw [pay_eq_rg3]
  unfold Cert.Spec.combNormG
  rw [maximumf_apply, divf_apply, broadcastTo_col_rg3, maximumf_apply, broadcast_apply, broadcast_apply]
  show max (Ideal.div _ (max (Ideal.sqrt (shapeCast S2000x1 _ shapeCasts_S2000_S2000x1 (ix2 p (0 : Fin 1)))) _)) _ = _
  rw [shapeCast_col_rg3, laneSum_at_rg3, zterm_at_rg3]
  refine congrArg₂ max (congrArg₂ Ideal.div rfl (congrArg₂ max (congrArg Ideal.sqrt (Finset.sum_congr rfl fun k _ => ?_)) rfl)) rfl
  rw [mulf_apply, zterm_at_rg3]

/-! ## From the blocks to the array -/

variable (V : (c : Dev nD) → (b : Ref sig .tc) → Buf (Elt Ideal) ((c : Thread nD τ).loc b))

theorem hz_rg3 : (![0, 0] : Fin 2 → Nat) = fun _ => 0 := funext fun a => match a with
  | ⟨0, _⟩ => rfl
  | ⟨1, _⟩ => rfl

/-- The printed index maps, decided over the grid: the three row-blocked operands move with the output's block, whose
    index is the point's number; the two weights and the bias stay at block (0, 0). -/
theorem idx_facts_rg3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The neighbour-sum block of point t at (p, k) is the array's entry at row t · 2000 + p. -/
theorem blk0_at_rg3 (c : Dev nD) (t : Fin cfg3.N) (p : Fin 2000) (k : Fin 128) (r : Fin 50000) (hr : r.val = t.val * 2000 + p.val) :
    iblk3 (F := Ideal) V c 0 t (ix2 p k) = V c main_v24 (ix2 r k) := by
  obtain ⟨e0, e1, -⟩ := idx_facts_rg3 t
  show V c main_v24 (((cfg3.win 0).blk t).view.emb (ix2 p k)) = V c main_v24 (ix2 r k)
  refine congrArg _ (funext fun a => Fin.ext ?_)
  match a with
  | ⟨0, _⟩ => show win3_0.index t (0 : Fin 2) * 2000 + 1 * p.val = r.val; omega
  | ⟨1, _⟩ => show win3_0.index t (1 : Fin 2) * 128 + 1 * k.val = k.val; omega

/-- The degree block of point t at (p, 0) is the array's entry at row t · 2000 + p. -/
theorem blk1_at_rg3 (c : Dev nD) (t : Fin cfg3.N) (p : Fin 2000) (u : Fin 1) (r : Fin 50000) (hr : r.val = t.val * 2000 + p.val) :
    iblk3 (F := Ideal) V c 1 t (ix2 p u) = V c main_v29 (ix2 r u) := by
  obtain ⟨-, -, e0, e1, -⟩ := idx_facts_rg3 t
  show V c main_v29 (((cfg3.win 1).blk t).view.emb (ix2 p u)) = V c main_v29 (ix2 r u)
  refine congrArg _ (funext fun a => Fin.ext ?_)
  match a with
  | ⟨0, _⟩ => show win3_1.index t (0 : Fin 2) * 2000 + 1 * p.val = r.val; omega
  | ⟨1, _⟩ => show win3_1.index t (1 : Fin 2) * 1 + 1 * u.val = u.val; omega

/-- The destination block of point t at (p, k) is the array's entry at row t · 2000 + p. -/
theorem blk2_at_rg3 (c : Dev nD) (t : Fin cfg3.N) (p : Fin 2000) (k : Fin 128) (r : Fin 50000) (hr : r.val = t.val * 2000 + p.val) :
    iblk3 (F := Ideal) V c 2 t (ix2 p k) = V c main_v7 (ix2 r k) := by
  obtain ⟨-, -, -, -, e0, e1, -⟩ := idx_facts_rg3 t
  show V c main_v7 (((cfg3.win 2).blk t).view.emb (ix2 p k)) = V c main_v7 (ix2 r k)
  refine congrArg _ (funext fun a => Fin.ext ?_)
  match a with
  | ⟨0, _⟩ => show win3_2.index t (0 : Fin 2) * 2000 + 1 * p.val = r.val; omega
  | ⟨1, _⟩ => show win3_2.index t (1 : Fin 2) * 128 + 1 * k.val = k.val; omega

/-- The left weight's block at every point is the whole array. -/
theorem blk3_at_rg3 (c : Dev nD) (t : Fin cfg3.N) (k : Fin 128) (q : Fin 128) :
    iblk3 (F := Ideal) V c 3 t (ix2 k q) = V c main_v30 (ix2 k q) := by
  obtain ⟨-, -, -, -, -, -, e0, e1, -⟩ := idx_facts_rg3 t
  show V c main_v30 (((cfg3.win 3).blk t).view.emb (ix2 k q)) = V c main_v30 (ix2 k q)
  refine congrArg _ (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

/-- The right weight's block at every point is the whole array. -/
theorem blk4_at_rg3 (c : Dev nD) (t : Fin cfg3.N) (k : Fin 128) (q : Fin 128) :
    iblk3 (F := Ideal) V c 4 t (ix2 k q) = V c main_v31 (ix2 k q) := by
  obtain ⟨-, -, -, -, -, -, -, -, e0, e1, -⟩ := idx_facts_rg3 t
  show V c main_v31 (((cfg3.win 4).blk t).view.emb (ix2 k q)) = V c main_v31 (ix2 k q)
  refine congrArg _ (funext fun a => Fin.ext ?_)
  match a with
  | ⟨0, _⟩ => show win3_4.index t (0 : Fin 2) * 128 + 1 * k.val = k.val; omega
  | ⟨1, _⟩ => show win3_4.index t (1 : Fin 2) * 128 + 1 * q.val = q.val; omega

/-- The bias row's block at every point is the whole row. -/
theorem blk5_at_rg3 (c : Dev nD) (t : Fin cfg3.N) (u : Fin 1) (q : Fin 128) :
    iblk3 (F := Ideal) V c 5 t (ix2 u q) = V c main_v32 (ix2 u q) := by
  obtain ⟨-, -, -, -, -, -, -, -, -, -, e0, e1, -⟩ := idx_facts_rg3 t
  show V c main_v32 (((cfg3.win 5).blk t).view.emb (ix2 u q)) = V c main_v32 (ix2 u q)
  refine congrArg _ (funext fun a => Fin.ext ?_)
  match a with
  | ⟨0, _⟩ => show win3_5.index t (0 : Fin 2) * 1 + 1 * u.val = u.val; omega
  | ⟨1, _⟩ => show win3_5.index t (1 : Fin 2) * 128 + 1 * q.val = q.val; omega

/-- The layer's core of point t's blocks at (p, q) is the core of the arrays at (t · 2000 + p, q). -/
theorem core_blk_rg3 (c : Dev nD) (t : Fin cfg3.N) (p : Fin 2000) (q : Fin 128) (r : Fin 50000) (hr : r.val = t.val * 2000 + p.val) :
    Cert.Spec.combCore (R := 2000) (K := 128) (C := 128) (iblk3 (F := Ideal) V c 0 t) (iblk3 (F := Ideal) V c 1 t) (iblk3 (F := Ideal) V c 2 t) (iblk3 (F := Ideal) V c 3 t) (iblk3 (F := Ideal) V c 4 t) (iblk3 (F := Ideal) V c 5 t) p q
      = Cert.Spec.combCore (R := 50000) (K := 128) (C := 128) (V c main_v24) (V c main_v29) (V c main_v7) (V c main_v30) (V c main_v31) (V c main_v32) r q := by
  unfold Cert.Spec.combCore
  rw [blk1_at_rg3 V c t p 0 r hr, blk5_at_rg3 V c t 0 q]
  refine congrArg₂ (· + ·) (congrArg₂ (· + ·) (Finset.sum_congr rfl fun k _ => ?_) rfl) (Finset.sum_congr rfl fun k _ => ?_)
  · rw [blk0_at_rg3 V c t p k r hr, blk3_at_rg3 V c t k q]
  · rw [blk2_at_rg3 V c t p k r hr, blk4_at_rg3 V c t k q]

/-- WHAT POINT t WRITES BACK is block t of the normalised, rectified layer of the operand arrays as the region finds them. -/
theorem flushed_eq_rg3 (c : Dev nD) (t : Fin cfg3.N) :
    (dat3 (F := Ideal) V c).flushed 6 t = ((cfg3.win 6).blk t).view.read (Elt Ideal)
      (Cert.Spec.combNormG (R := 50000) (K := 128) (C := 128) (V c main_v24) (V c main_v29) (V c main_v7) (V c main_v30) (V c main_v31) (V c main_v32)) := by
  show (cfg3.win 6).cut (grid3.coords t) ((dat3 (F := Ideal) V c).after 6 t) = _
  rw [after3_6]
  unfold out3_6
  rw [View.canon_unit_zero hz_rg3]
  simp only [View.ld_unit_zero (S := S2000x128) hz_rg3, View.ld_unit_zero (S := S2000x1) hz_rg3, View.ld_unit_zero (S := S128x128) hz_rg3, View.ld_unit_zero (S := S1x128) hz_rg3]
  obtain ⟨-, -, -, -, -, -, -, -, -, -, -, -, e0, e1⟩ := idx_facts_rg3 t
  funext (j : S2000x128.Idx)
  obtain ⟨p, q, rfl⟩ : ∃ (p : Fin 2000) (q : Fin 128), j = ix2 p q := ⟨j 0, j 1, eq_ix2 j⟩
  have ht : t.val < 25 := lt_of_lt_of_eq t.isLt N_3
  have hr : t.val * 2000 + p.val < 50000 := by omega
  have hemb : ((cfg3.win 6).blk t).view.emb (ix2 p q) = ix2 (⟨t.val * 2000 + p.val, hr⟩ : Fin 50000) q := by
    funext a; apply Fin.ext
    match a with
    | ⟨0, _⟩ => show win3_6.index t (0 : Fin 2) * 2000 + 1 * p.val = t.val * 2000 + p.val; omega
    | ⟨1, _⟩ => show win3_6.index t (1 : Fin 2) * 128 + 1 * q.val = q.val; omega
  show k3_pay1 (F := Ideal) (iblk3 V c 0 t) (iblk3 V c 1 t) (iblk3 V c 2 t) (iblk3 V c 3 t) (iblk3 V c 4 t) (iblk3 V c 5 t) (ix2 p q)
    = Cert.Spec.combNormG (R := 50000) (K := 128) (C := 128) (V c main_v24) (V c main_v29) (V c main_v7) (V c main_v30) (V c main_v31) (V c main_v32) (((cfg3.win 6).blk t).view.emb (ix2 p q))
  rw [pay_at_rg3, hemb]
  unfold Cert.Spec.combNormG
  show max (Ideal.div (Cert.Spec.combCore _ _ _ _ _ _ p q) (max (Ideal.sqrt (∑ x : Fin 128, Cert.Spec.combCore _ _ _ _ _ _ p x * Cert.Spec.combCore _ _ _ _ _ _ p x)) _)) _
    = max (Ideal.div (Cert.Spec.combCore _ _ _ _ _ _ (⟨t.val * 2000 + p.val, hr⟩ : Fin 50000) q) (max (Ideal.sqrt (∑ x : Fin 128, Cert.Spec.combCore _ _ _ _ _ _ (⟨t.val * 2000 + p.val, hr⟩ : Fin 50000) x * Cert.Spec.combCore _ _ _ _ _ _ (⟨t.val * 2000 + p.val, hr⟩ : Fin 50000) x)) _)) _
  rw [core_blk_rg3 V c t p q ⟨t.val * 2000 + p.val, hr⟩ rfl]
  refine congrArg₂ max (congrArg₂ Ideal.div rfl (congrArg₂ max (congrArg Ideal.sqrt (Finset.sum_congr rfl fun x _ => ?_)) rfl)) rfl
  rw [core_blk_rg3 V c t p x ⟨t.val * 2000 + p.val, hr⟩ rfl]

/-- An index of the array is in point t's block iff each coordinate is in the block's range on its axis. -/
theorem mem_blk_rg3 (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v33).slice (win3_6.rect t)).set ↔ _
  rw [View.set_slice_whole, Rect.mem_set_unit]
  exact Iff.rfl

/-- Every row r of the array is in the block of point r / 2000, which writes back. -/
theorem cover_rg3 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  have hlt : (i 0).val / 2000 < cfg3.N := lt_of_lt_of_eq (by omega : (i 0).val / 2000 < 25) N_3.symm
  obtain ⟨-, -, -, -, -, -, -, -, -, -, -, -, e0, e1⟩ := idx_facts_rg3 ⟨(i 0).val / 2000, hlt⟩
  refine ⟨⟨(i 0).val / 2000, hlt⟩, flush3_6 _, ?_⟩
  rw [mem_blk_rg3]
  intro a
  match a with
  | ⟨0, _⟩ =>
    show win3_6.index ⟨(i 0).val / 2000, hlt⟩ (0 : Fin 2) * 2000 ≤ (i 0).val ∧ (i 0).val < win3_6.index ⟨(i 0).val / 2000, hlt⟩ (0 : Fin 2) * 2000 + 2000
    have e0' : win3_6.index ⟨(i 0).val / 2000, hlt⟩ (0 : Fin 2) = (i 0).val / 2000 := e0
    omega
  | ⟨1, _⟩ =>
    show win3_6.index ⟨(i 0).val / 2000, hlt⟩ (1 : Fin 2) * 128 ≤ (i 1).val ∧ (i 1).val < win3_6.index ⟨(i 0).val / 2000, hlt⟩ (1 : Fin 2) * 128 + 128
    omega

/-- THE ARRAY AFTER THE REGION: the normalised, rectified layer of the operand arrays as the region finds them. -/
theorem region3 (c : Dev nD) :
    (Gen.dat3 (F := Ideal) V c).arrAt 6 cfg3.N = Cert.Spec.combNormG (R := 50000) (K := 128) (C := 128) (V c main_v24) (V c main_v29) (V c main_v7) (V c main_v30) (V c main_v31) (V c main_v32) :=
  (dat3 (F := Ideal) V c).arrAt_eq_of_cover 6 _ (fun t _ => flushed_eq_rg3 V c t) (fun i => cover_rg3 i)

end Cert.KernelIdeal.RegionValue

end
-- ==== Proof.Region4.lean ====
/-
  Region 4 (a SAGE layer without normalisation on 200000 rows, 50 row blocks of 4000): what the output array holds after
  the region, as one function of the operand arrays at entry, on the extended reals.

  * The body's arithmetic at an index (p, q) of a block: the matrix product into a zero accumulator is the sum over the
    contraction axis (the four axis equations of the dot's dimension numbers, then a re-indexing of the sum through the
    one contraction coordinate); the degree column broadcast along the rows reads row p; the bias row broadcast along
    the rows reads column q; the format changes are the identity. The sum of the three terms is the layer's value
    z = (agg / max(deg, 1)) · wl + b + xd · wr at (p, q) of the blocks.
  * From blocks to the array: the block index maps over the grid (row-blocked operands at block (t, 0) with the output,
    the weights and the bias at block (0, 0)), so element (p, q) of point t's output block is the layer's value at row
    4000 t + p, column q of the arrays; every row r lies in the block of point r / 4000; hence the whole array.
-/
import proofs.«423856_j90606630076836_1_alg».proof.Proof.Gen.KernelIdeal.Frame
import proofs.«423856_j90606630076836_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The offsets of a rectangle that starts at the block's origin are zero on both axes. -/
theorem zeroOff_r4 : (![0, 0] : Fin 2 → Nat) = fun _ => 0 := funext fun a => by fin_cases a <;> rfl

/-! ## The product of a row block with a whole weight, read at an index -/

/-- The left operand's row coordinate is the result's row. -/
theorem dot_lhs0_r4 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- The left operand's column coordinate is the contraction position. -/
theorem dot_lhs1_r4 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
/-- The right operand's row coordinate is the contraction position. -/
theorem dot_rhs0_r4 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
/-- The right operand's column coordinate is the result's column. -/
theorem dot_rhs1_r4 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The matrix product into a zero accumulator at (p, q): the sum over k of the left operand at (p, k) times the right
    operand at (k, q). -/
theorem matmul_apply_r4 (a : FVec Ideal S4000x128 .bf16) (w : FVec Ideal S128x64 .bf16) (p : Fin 4000) (q : Fin 64) :
    matmul dot_S4000x128_S128x64_S4000x64_1_0_0_1_n_n none a w (constant (F := Ideal) S4000x64 .f32 0x00000000#32) (ix2 p q)
      = ∑ k : Fin 128, a (ix2 p k) * w (ix2 k q) := by
  refine (Ideal.matmul_constant_zero_apply dot_S4000x128_S128x64_S4000x64_1_0_0_1_n_n none a w (ix2 p q)).trans ?_
  rw [← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k := funext fun ax => Fin.ext (by
    match ax with
    | ⟨0, _⟩ => exact dot_lhs0_r4 _ _
    | ⟨1, _⟩ => exact (dot_lhs1_r4 _ _).trans hk)
  have er : dot_S4000x128_S128x64_S4000x64_1_0_0_1_n_n.rhsIdx (ix2 p q) ((contrEquiv1 dot_S4000x128_S128x64_S4000x64_1_0_0_1_n_n 128 rfl rfl).symm k) = ix2 k q := funext fun ax => Fin.ext (by
    match ax with
    | ⟨0, _⟩ => exact (dot_rhs0_r4 _ _).trans hk
    | ⟨1, _⟩ => exact dot_rhs1_r4 _ _)
  rw [el, er]

/-! ## A column broadcast along the rows -/

/-- An [a, 1] array broadcast to [a, b] reads, at (p, c), the operand's row p. -/
theorem broadcastTo_col_apply_r4 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at an index of the block -/

/-- The stored block at (p, q): the mean of the neighbour sum's row p against column q of the left weight, plus the
    bias at q, plus row p of the destination features against column q of the right weight. -/
theorem payload_apply_r4 (x0 : Vec Ideal S4000x128 .f32) (x1 : Vec Ideal S4000x1 .f32) (x2 : Vec Ideal S4000x128 .f32)
    (x3 x4 : Vec Ideal S128x64 .f32) (x5 : Vec Ideal S1x64 .f32) (p : Fin 4000) (q : Fin 64) :
    Gen.k4_pay1 x0 x1 x2 x3 x4 x5 (ix2 p q)
      = ((∑ k : Fin 128, Ideal.div (x0 (ix2 p k)) (max (x1 (ix2 p (0 : Fin 1))) (Ideal.ofBits .f32 0x3F800000#32)) * x3 (ix2 k q))
          + x5 (ix2 (0 : Fin 1) q))
        + ∑ k : Fin 128, x2 (ix2 p k) * x4 (ix2 k q) := by
  unfold Gen.k4_pay1
  simp only [shapeCast_self]
  rw [addf_apply, addf_apply, matmul_apply_r4, matmul_apply_r4, broadcastTo_1b_ab_apply]
  simp only [truncf_apply, divf_apply, broadcastTo_col_apply_r4, maximumf_apply, broadcast_apply]
  rfl

/-! ## From blocks to the array -/

variable (V : (c : Dev nD) → (b : Ref sig .tc) → Buf (Elt Ideal) ((c : Thread nD τ).loc b))

/-- The block index maps over the grid: the three row-blocked operands move with the output, at block (t, 0); the two
    weights and the bias stay at block (0, 0). -/
theorem idx_facts_r4 : ∀ t : Fin cfg4.N,
    (win4_0.index t (0 : Fin 2) = win4_6.index t (0 : Fin 2) ∧ win4_0.index t (1 : Fin 2) = 0)
    ∧ (win4_1.index t (0 : Fin 2) = win4_6.index t (0 : Fin 2) ∧ win4_1.index t (1 : Fin 2) = 0)
    ∧ (win4_2.index t (0 : Fin 2) = win4_6.index t (0 : Fin 2) ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = t.val ∧ win4_6.index t (1 : Fin 2) = 0) :=
  (by decide +kernel : ∀ t : Fin grid4.N, _)

/-- The grid has 50 points. -/
theorem point_lt_r4 (t : Fin cfg4.N) : t.val < 50 := lt_of_lt_of_eq t.isLt Gen.N_4

/-- The neighbour sum's block at point t is rows 4000 t … 4000 t + 3999 of its array. -/
theorem agg_block_r4 (c : Dev nD) (t : Fin cfg4.N) (p : Fin 4000) (k : Fin 128) (r : Fin 200000) (hr : r.val = t.val * 4000 + p.val) :
    (Gen.iblk4 V c 0 t : Vec Ideal S4000x128 .f32) (ix2 p k) = (V c main_v37 : Cert.Spec.Mat 200000 128) (ix2 r k) := by
  obtain ⟨⟨e0, e1⟩, -, -, -, -, -, ⟨e6, -⟩⟩ := idx_facts_r4 t
  show V c main_v37 (((cfg4.win 0).blk t).view.emb (ix2 p k)) = V c main_v37 (ix2 r k)
  refine congrArg _ (funext fun a => Fin.ext ?_)
  match a with
  | ⟨0, _⟩ => show win4_0.index t (0 : Fin 2) * 4000 + 1 * p.val = r.val; omega
  | ⟨1, _⟩ => show win4_0.index t (1 : Fin 2) * 128 + 1 * k.val = k.val; omega

/-- The degree column's block at point t is rows 4000 t … 4000 t + 3999 of its array. -/
theorem deg_block_r4 (c : Dev nD) (t : Fin cfg4.N) (p : Fin 4000) (r : Fin 200000) (hr : r.val = t.val * 4000 + p.val) :
    (Gen.iblk4 V c 1 t : Vec Ideal S4000x1 .f32) (ix2 p (0 : Fin 1)) = (V c main_v42 : Cert.Spec.Mat 200000 1) (ix2 r (0 : Fin 1)) := by
  obtain ⟨-, ⟨e0, e1⟩, -, -, -, -, ⟨e6, -⟩⟩ := idx_facts_r4 t
  show V c main_v42 (((cfg4.win 1).blk t).view.emb (ix2 p (0 : Fin 1))) = V c main_v42 (ix2 r (0 : Fin 1))
  refine congrArg _ (funext fun a => Fin.ext ?_)
  match a with
  | ⟨0, _⟩ => show win4_1.index t (0 : Fin 2) * 4000 + 1 * p.val = r.val; omega
  | ⟨1, _⟩ => show win4_1.index t (1 : Fin 2) * 1 + 1 * 0 = 0; omega

/-- The destination features' block at point t is rows 4000 t … 4000 t + 3999 of its array. -/
theorem xd_block_r4 (c : Dev nD) (t : Fin cfg4.N) (p : Fin 4000) (k : Fin 128) (r : Fin 200000) (hr : r.val = t.val * 4000 + p.val) :
    (Gen.iblk4 V c 2 t : Vec Ideal S4000x128 .f32) (ix2 p k) = (V c main_v20 : Cert.Spec.Mat 200000 128) (ix2 r k) := by
  obtain ⟨-, -, ⟨e0, e1⟩, -, -, -, ⟨e6, -⟩⟩ := idx_facts_r4 t
  show V c main_v20 (((cfg4.win 2).blk t).view.emb (ix2 p k)) = V c main_v20 (ix2 r k)
  refine congrArg _ (funext fun a => Fin.ext ?_)
  match a with
  | ⟨0, _⟩ => show win4_2.index t (0 : Fin 2) * 4000 + 1 * p.val = r.val; omega
  | ⟨1, _⟩ => show win4_2.index t (1 : Fin 2) * 128 + 1 * k.val = k.val; omega

/-- The left weight's block at every point is the whole array. -/
theorem wl_block_r4 (c : Dev nD) (t : Fin cfg4.N) (k : Fin 128) (q : Fin 64) :
    (Gen.iblk4 V c 3 t : Vec Ideal S128x64 .f32) (ix2 k q) = (V c main_v43 : Cert.Spec.Mat 128 64) (ix2 k q) := by
  obtain ⟨-, -, -, ⟨e0, e1⟩, -, -, -⟩ := idx_facts_r4 t
  show V c main_v43 (((cfg4.win 3).blk t).view.emb (ix2 k q)) = V c main_v43 (ix2 k q)
  refine congrArg _ (funext fun a => Fin.ext ?_)
  match a with
  | ⟨0, _⟩ => show win4_3.index t (0 : Fin 2) * 128 + 1 * k.val = k.val; omega
  | ⟨1, _⟩ => show win4_3.index t (1 : Fin 2) * 64 + 1 * q.val = q.val; omega

/-- The right weight's block at every point is the whole array. -/
theorem wr_block_r4 (c : Dev nD) (t : Fin cfg4.N) (k : Fin 128) (q : Fin 64) :
    (Gen.iblk4 V c 4 t : Vec Ideal S128x64 .f32) (ix2 k q) = (V c main_v44 : Cert.Spec.Mat 128 64) (ix2 k q) := by
  obtain ⟨-, -, -, -, ⟨e0, e1⟩, -, -⟩ := idx_facts_r4 t
  show V c main_v44 (((cfg4.win 4).blk t).view.emb (ix2 k q)) = V c main_v44 (ix2 k q)
  refine congrArg _ (funext fun a => Fin.ext ?_)
  match a with
  | ⟨0, _⟩ => show win4_4.index t (0 : Fin 2) * 128 + 1 * k.val = k.val; omega
  | ⟨1, _⟩ => show win4_4.index t (1 : Fin 2) * 64 + 1 * q.val = q.val; omega

/-- The bias row's block at every point is the whole array. -/
theorem bias_block_r4 (c : Dev nD) (t : Fin cfg4.N) (q : Fin 64) :
    (Gen.iblk4 V c 5 t : Vec Ideal S1x64 .f32) (ix2 (0 : Fin 1) q) = (V c main_v45 : Cert.Spec.Mat 1 64) (ix2 (0 : Fin 1) q) := by
  obtain ⟨-, -, -, -, -, ⟨e0, e1⟩, -⟩ := idx_facts_r4 t
  show V c main_v45 (((cfg4.win 5).blk t).view.emb (ix2 (0 : Fin 1) q)) = V c main_v45 (ix2 (0 : Fin 1) q)
  refine congrArg _ (funext fun a => Fin.ext ?_)
  match a with
  | ⟨0, _⟩ => show win4_5.index t (0 : Fin 2) * 1 + 1 * 0 = 0; omega
  | ⟨1, _⟩ => show win4_5.index t (1 : Fin 2) * 64 + 1 * q.val = q.val; omega

/-- What point t writes back is block t of the layer's function of the operand arrays at entry. -/
theorem flushed_eq_r4 (c : Dev nD) (t : Fin cfg4.N) :
    (Gen.dat4 (F := Ideal) V c).flushed 6 t = ((cfg4.win 6).blk t).view.read (Elt Ideal)
      (Cert.Spec.combPlainG (R := 200000) (K := 128) (C := 64) (V c main_v37) (V c main_v42) (V c main_v20) (V c main_v43) (V c main_v44) (V c main_v45)) := by
  show (cfg4.win 6).cut (grid4.coords t) ((Gen.dat4 V c).after 6 t) = _
  rw [Gen.after4_6]
  unfold Gen.out4_6
  rw [View.canon_unit_zero zeroOff_r4]
  simp only [View.ld_unit_zero (S := S4000x128) zeroOff_r4, View.ld_unit_zero (S := S4000x1) zeroOff_r4,
    View.ld_unit_zero (S := S128x64) zeroOff_r4, View.ld_unit_zero (S := S1x64) zeroOff_r4]
  obtain ⟨-, -, -, -, -, -, ⟨e60, e61⟩⟩ := idx_facts_r4 t
  have ht := point_lt_r4 t
  funext j
  obtain ⟨p, q, rfl⟩ : ∃ (p : Fin 4000) (q : Fin 64), j = ix2 p q := ⟨j 0, j 1, eq_ix2 j⟩
  obtain ⟨r, hr, hemb⟩ : ∃ r : Fin 200000, r.val = t.val * 4000 + p.val ∧ ((cfg4.win 6).blk t).view.emb (ix2 p q) = ix2 r q := by
    refine ⟨⟨t.val * 4000 + p.val, by have := p.isLt; omega⟩, rfl, funext fun a => Fin.ext ?_⟩
    match a with
    | ⟨0, _⟩ => show win4_6.index t (0 : Fin 2) * 4000 + 1 * p.val = t.val * 4000 + p.val; omega
    | ⟨1, _⟩ => show win4_6.index t (1 : Fin 2) * 64 + 1 * q.val = q.val; omega
  show Gen.k4_pay1 (Gen.iblk4 V c 0 t) (Gen.iblk4 V c 1 t) (Gen.iblk4 V c 2 t) (Gen.iblk4 V c 3 t) (Gen.iblk4 V c 4 t) (Gen.iblk4 V c 5 t) (ix2 p q)
    = Cert.Spec.combPlainG (R := 200000) (K := 128) (C := 64) (V c main_v37) (V c main_v42) (V c main_v20) (V c main_v43) (V c main_v44) (V c main_v45) (((cfg4.win 6).blk t).view.emb (ix2 p q))
  rw [hemb, payload_apply_r4]
  show _ = Cert.Spec.combCore (R := 200000) (K := 128) (C := 64) (V c main_v37) (V c main_v42) (V c main_v20) (V c main_v43) (V c main_v44) (V c main_v45) r q
  unfold Cert.Spec.combCore
  simp only [agg_block_r4 V c t p _ r hr, deg_block_r4 V c t p r hr, xd_block_r4 V c t p _ r hr, wl_block_r4 V c t, wr_block_r4 V c t, bias_block_r4 V c t]

/-- An index of the array is in point t's block iff each coordinate is in the block's range on its axis. -/
theorem mem_blk_r4 (t : Fin cfg4.N) (i : S200000x64.Idx) :
    i ∈ ((cfg4.win 6).blk t).view.set ↔ ∀ a : Fin 2, win4_6.index t a * S4000x64.size a ≤ (i a).val ∧ (i a).val < win4_6.index t a * S4000x64.size a + S4000x64.size a := by
  show i ∈ ((View.whole main_v46).slice (win4_6.rect t)).set ↔ _
  rw [View.set_slice_whole, Rect.mem_set_unit]
  exact Iff.rfl

/-- Every index of the array is in the block of the point its row falls in: row r in block r / 4000. -/
theorem cover_r4 (i : S200000x64.Idx) :
    ∃ t : Fin cfg4.N, (cfg4.win 6).flush t = true ∧ i ∈ ((cfg4.win 6).blk t).view.set := by
  have hi0 : (i 0).val < 200000 := (i 0).isLt
  have hi1 : (i 1).val < 64 := (i 1).isLt
  obtain ⟨t, ht⟩ : ∃ t : Fin cfg4.N, t.val = (i 0).val / 4000 :=
    ⟨⟨(i 0).val / 4000, lt_of_lt_of_eq (show (i 0).val / 4000 < 50 by omega) Gen.N_4.symm⟩, rfl⟩
  obtain ⟨-, -, -, -, -, -, ⟨e60, e61⟩⟩ := idx_facts_r4 t
  refine ⟨t, Gen.flush4_6 t, ?_⟩
  rw [mem_blk_r4]
  intro a
  match a with
  | ⟨0, _⟩ => show win4_6.index t (0 : Fin 2) * 4000 ≤ (i 0).val ∧ (i 0).val < win4_6.index t (0 : Fin 2) * 4000 + 4000; omega
  | ⟨1, _⟩ => show win4_6.index t (1 : Fin 2) * 64 ≤ (i 1).val ∧ (i 1).val < win4_6.index t (1 : Fin 2) * 64 + 64; omega

/-- THE ARRAY AFTER THE REGION: the layer's function of the operand arrays as the region finds them. -/
theorem region4 (V : (c : Dev nD) → (b : Ref sig .tc) → Buf (Elt Ideal) ((c : Thread nD τ).loc b)) (c : Dev nD) :
    (Gen.dat4 (F := Ideal) V c).arrAt 6 cfg4.N
      = Cert.Spec.combPlainG (R := 200000) (K := 128) (C := 64) (V c main_v37) (V c main_v42) (V c main_v20) (V c main_v43) (V c main_v44) (V c main_v45) :=
  (Gen.dat4 (F := Ideal) V c).arrAt_eq_of_cover 6 _ (fun t _ => flushed_eq_r4 V c t) cover_r4

end Cert.KernelIdeal.RegionValue

end
-- ==== Proof.Region5.lean ====
/-
  Region 5 (a SAGE layer without normalisation on 50000 rows, 25 row blocks of 2000): what the output array holds after
  the region, as one function of the operand arrays at entry, on the extended reals.

  * The body's arithmetic at an index (p, q) of a block: the matrix product into a zero accumulator is the sum over the
    contraction axis (the four axis equations of the dot's dimension numbers, then a re-indexing of the sum through the
    one contraction coordinate); the degree column broadcast along the rows reads row p; the bias row broadcast along
    the rows reads column q; the format changes are the identity. The sum of the three terms is the layer's value
    z = (agg / max(deg, 1)) · wl + b + xd · wr at (p, q) of the blocks.
  * From blocks to the array: the block index maps over the grid (row-blocked operands at block (t, 0) with the output,
    the weights and the bias at block (0, 0)), so element (p, q) of point t's output block is the layer's value at row
    2000 t + p, column q of the arrays; every row r lies in the block of point r / 2000; hence the whole array.
-/
import proofs.«423856_j90606630076836_1_alg».proof.Proof.Gen.KernelIdeal.Frame
import proofs.«423856_j90606630076836_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The offsets of a rectangle that starts at the block's origin are zero on both axes. -/
theorem zeroOff_r5 : (![0, 0] : Fin 2 → Nat) = fun _ => 0 := funext fun a => by fin_cases a <;> rfl

/-! ## The product of a row block with a whole weight, read at an index -/

/-- The left operand's row coordinate is the result's row. -/
theorem dot_lhs0_r5 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- The left operand's column coordinate is the contraction position. -/
theorem dot_lhs1_r5 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- The right operand's row coordinate is the contraction position. -/
theorem dot_rhs0_r5 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- The right operand's column coordinate is the result's column. -/
theorem dot_rhs1_r5 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The matrix product into a zero accumulator at (p, q): the sum over k of the left operand at (p, k) times the right
    operand at (k, q). -/
theorem matmul_apply_r5 (a : FVec Ideal S2000x128 .bf16) (w : FVec Ideal S128x64 .bf16) (p : Fin 2000) (q : Fin 64) :
    matmul dot_S2000x128_S128x64_S2000x64_1_0_0_1_n_n none a w (constant (F := Ideal) S2000x64 .f32 0x00000000#32) (ix2 p q)
      = ∑ k : Fin 128, a (ix2 p k) * w (ix2 k q) := by
  refine (Ideal.matmul_constant_zero_apply dot_S2000x128_S128x64_S2000x64_1_0_0_1_n_n none a w (ix2 p q)).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun ax => Fin.ext (by
    match ax with
    | ⟨0, _⟩ => exact dot_lhs0_r5 _ _
    | ⟨1, _⟩ => exact (dot_lhs1_r5 _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun ax => Fin.ext (by
    match ax with
    | ⟨0, _⟩ => exact (dot_rhs0_r5 _ _).trans hk
    | ⟨1, _⟩ => exact dot_rhs1_r5 _ _)
  rw [el, er]

/-! ## A column broadcast along the rows -/

/-- An [a, 1] array broadcast to [a, b] reads, at (p, c), the operand's row p. -/
theorem broadcastTo_col_apply_r5 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at an index of the block -/

/-- The stored block at (p, q): the mean of the neighbour sum's row p against column q of the left weight, plus the
    bias at q, plus row p of the destination features against column q of the right weight. -/
theorem payload_apply_r5 (x0 : Vec Ideal S2000x128 .f32) (x1 : Vec Ideal S2000x1 .f32) (x2 : Vec Ideal S2000x128 .f32)
    (x3 x4 : Vec Ideal S128x64 .f32) (x5 : Vec Ideal S1x64 .f32) (p : Fin 2000) (q : Fin 64) :
    Gen.k5_pay1 x0 x1 x2 x3 x4 x5 (ix2 p q)
      = ((∑ k : Fin 128, Ideal.div (x0 (ix2 p k)) (max (x1 (ix2 p (0 : Fin 1))) (Ideal.ofBits .f32 0x3F800000#32)) * x3 (ix2 k q))
          + x5 (ix2 (0 : Fin 1) q))
        + ∑ k : Fin 128, x2 (ix2 p k) * x4 (ix2 k q) := by
  unfold Gen.k5_pay1
  simp only [shapeCast_self]
  rw [addf_apply, addf_apply, matmul_apply_r5, matmul_apply_r5, broadcastTo_1b_ab_apply]
  simp only [truncf_apply, divf_apply, broadcastTo_col_apply_r5, maximumf_apply, broadcast_apply]
  rfl

/-! ## From blocks to the array -/

variable (V : (c : Dev nD) → (b : Ref sig .tc) → Buf (Elt Ideal) ((c : Thread nD τ).loc b))

/-- The block index maps over the grid: the three row-blocked operands move with the output, at block (t, 0); the two
    weights and the bias stay at block (0, 0). -/
theorem idx_facts_r5 : ∀ t : Fin cfg5.N,
    (win5_0.index t (0 : Fin 2) = win5_6.index t (0 : Fin 2) ∧ win5_0.index t (1 : Fin 2) = 0)
    ∧ (win5_1.index t (0 : Fin 2) = win5_6.index t (0 : Fin 2) ∧ win5_1.index t (1 : Fin 2) = 0)
    ∧ (win5_2.index t (0 : Fin 2) = win5_6.index t (0 : Fin 2) ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = t.val ∧ win5_6.index t (1 : Fin 2) = 0) :=
  (by decide +kernel : ∀ t : Fin grid5.N, _)

/-- The grid has 25 points. -/
theorem point_lt_r5 (t : Fin cfg5.N) : t.val < 25 := lt_of_lt_of_eq t.isLt Gen.N_5

/-- The neighbour sum's block at point t is rows 2000 t … 2000 t + 3999 of its array. -/
theorem agg_block_r5 (c : Dev nD) (t : Fin cfg5.N) (p : Fin 2000) (k : Fin 128) (r : Fin 50000) (hr : r.val = t.val * 2000 + p.val) :
    (Gen.iblk5 V c 0 t : Vec Ideal S2000x128 .f32) (ix2 p k) = (V c main_v50 : Cert.Spec.Mat 50000 128) (ix2 r k) := by
  obtain ⟨⟨e0, e1⟩, -, -, -, -, -, ⟨e6, -⟩⟩ := idx_facts_r5 t
  show V c main_v50 (((cfg5.win 0).blk t).view.emb (ix2 p k)) = V c main_v50 (ix2 r k)
  refine congrArg _ (funext fun a => Fin.ext ?_)
  match a with
  | ⟨0, _⟩ => show win5_0.index t (0 : Fin 2) * 2000 + 1 * p.val = r.val; omega
  | ⟨1, _⟩ => show win5_0.index t (1 : Fin 2) * 128 + 1 * k.val = k.val; omega

/-- The degree column's block at point t is rows 2000 t … 2000 t + 3999 of its array. -/
theorem deg_block_r5 (c : Dev nD) (t : Fin cfg5.N) (p : Fin 2000) (r : Fin 50000) (hr : r.val = t.val * 2000 + p.val) :
    (Gen.iblk5 V c 1 t : Vec Ideal S2000x1 .f32) (ix2 p (0 : Fin 1)) = (V c main_v55 : Cert.Spec.Mat 50000 1) (ix2 r (0 : Fin 1)) := by
  obtain ⟨-, ⟨e0, e1⟩, -, -, -, -, ⟨e6, -⟩⟩ := idx_facts_r5 t
  show V c main_v55 (((cfg5.win 1).blk t).view.emb (ix2 p (0 : Fin 1))) = V c main_v55 (ix2 r (0 : Fin 1))
  refine congrArg _ (funext fun a => Fin.ext ?_)
  match a with
  | ⟨0, _⟩ => show win5_1.index t (0 : Fin 2) * 2000 + 1 * p.val = r.val; omega
  | ⟨1, _⟩ => show win5_1.index t (1 : Fin 2) * 1 + 1 * 0 = 0; omega

/-- The destination features' block at point t is rows 2000 t … 2000 t + 3999 of its array. -/
theorem xd_block_r5 (c : Dev nD) (t : Fin cfg5.N) (p : Fin 2000) (k : Fin 128) (r : Fin 50000) (hr : r.val = t.val * 2000 + p.val) :
    (Gen.iblk5 V c 2 t : Vec Ideal S2000x128 .f32) (ix2 p k) = (V c main_v33 : Cert.Spec.Mat 50000 128) (ix2 r k) := by
  obtain ⟨-, -, ⟨e0, e1⟩, -, -, -, ⟨e6, -⟩⟩ := idx_facts_r5 t
  show V c main_v33 (((cfg5.win 2).blk t).view.emb (ix2 p k)) = V c main_v33 (ix2 r k)
  refine congrArg _ (funext fun a => Fin.ext ?_)
  match a with
  | ⟨0, _⟩ => show win5_2.index t (0 : Fin 2) * 2000 + 1 * p.val = r.val; omega
  | ⟨1, _⟩ => show win5_2.index t (1 : Fin 2) * 128 + 1 * k.val = k.val; omega

/-- The left weight's block at every point is the whole array. -/
theorem wl_block_r5 (c : Dev nD) (t : Fin cfg5.N) (k : Fin 128) (q : Fin 64) :
    (Gen.iblk5 V c 3 t : Vec Ideal S128x64 .f32) (ix2 k q) = (V c main_v56 : Cert.Spec.Mat 128 64) (ix2 k q) := by
  obtain ⟨-, -, -, ⟨e0, e1⟩, -, -, -⟩ := idx_facts_r5 t
  show V c main_v56 (((cfg5.win 3).blk t).view.emb (ix2 k q)) = V c main_v56 (ix2 k q)
  refine congrArg _ (funext fun a => Fin.ext ?_)
  match a with
  | ⟨0, _⟩ => show win5_3.index t (0 : Fin 2) * 128 + 1 * k.val = k.val; omega
  | ⟨1, _⟩ => show win5_3.index t (1 : Fin 2) * 64 + 1 * q.val = q.val; omega

/-- The right weight's block at every point is the whole array. -/
theorem wr_block_r5 (c : Dev nD) (t : Fin cfg5.N) (k : Fin 128) (q : Fin 64) :
    (Gen.iblk5 V c 4 t : Vec Ideal S128x64 .f32) (ix2 k q) = (V c main_v57 : Cert.Spec.Mat 128 64) (ix2 k q) := by
  obtain ⟨-, -, -, -, ⟨e0, e1⟩, -, -⟩ := idx_facts_r5 t
  show V c main_v57 (((cfg5.win 4).blk t).view.emb (ix2 k q)) = V c main_v57 (ix2 k q)
  refine congrArg _ (funext fun a => Fin.ext ?_)
  match a with
  | ⟨0, _⟩ => show win5_4.index t (0 : Fin 2) * 128 + 1 * k.val = k.val; omega
  | ⟨1, _⟩ => show win5_4.index t (1 : Fin 2) * 64 + 1 * q.val = q.val; omega

/-- The bias row's block at every point is the whole array. -/
theorem bias_block_r5 (c : Dev nD) (t : Fin cfg5.N) (q : Fin 64) :
    (Gen.iblk5 V c 5 t : Vec Ideal S1x64 .f32) (ix2 (0 : Fin 1) q) = (V c main_v58 : Cert.Spec.Mat 1 64) (ix2 (0 : Fin 1) q) := by
  obtain ⟨-, -, -, -, -, ⟨e0, e1⟩, -⟩ := idx_facts_r5 t
  show V c main_v58 (((cfg5.win 5).blk t).view.emb (ix2 (0 : Fin 1) q)) = V c main_v58 (ix2 (0 : Fin 1) q)
  refine congrArg _ (funext fun a => Fin.ext ?_)
  match a with
  | ⟨0, _⟩ => show win5_5.index t (0 : Fin 2) * 1 + 1 * 0 = 0; omega
  | ⟨1, _⟩ => show win5_5.index t (1 : Fin 2) * 64 + 1 * q.val = q.val; omega

/-- What point t writes back is block t of the layer's function of the operand arrays at entry. -/
theorem flushed_eq_r5 (c : Dev nD) (t : Fin cfg5.N) :
    (Gen.dat5 (F := Ideal) V c).flushed 6 t = ((cfg5.win 6).blk t).view.read (Elt Ideal)
      (Cert.Spec.combPlainG (R := 50000) (K := 128) (C := 64) (V c main_v50) (V c main_v55) (V c main_v33) (V c main_v56) (V c main_v57) (V c main_v58)) := by
  show (cfg5.win 6).cut (grid5.coords t) ((Gen.dat5 V c).after 6 t) = _
  rw [Gen.after5_6]
  unfold Gen.out5_6
  rw [View.canon_unit_zero zeroOff_r5]
  simp only [View.ld_unit_zero (S := S2000x128) zeroOff_r5, View.ld_unit_zero (S := S2000x1) zeroOff_r5,
    View.ld_unit_zero (S := S128x64) zeroOff_r5, View.ld_unit_zero (S := S1x64) zeroOff_r5]
  obtain ⟨-, -, -, -, -, -, ⟨e60, e61⟩⟩ := idx_facts_r5 t
  have ht := point_lt_r5 t
  funext j
  obtain ⟨p, q, rfl⟩ : ∃ (p : Fin 2000) (q : Fin 64), j = ix2 p q := ⟨j 0, j 1, eq_ix2 j⟩
  obtain ⟨r, hr, hemb⟩ : ∃ r : Fin 50000, r.val = t.val * 2000 + p.val ∧ ((cfg5.win 6).blk t).view.emb (ix2 p q) = ix2 r q := by
    refine ⟨⟨t.val * 2000 + p.val, by have := p.isLt; omega⟩, rfl, funext fun a => Fin.ext ?_⟩
    match a with
    | ⟨0, _⟩ => show win5_6.index t (0 : Fin 2) * 2000 + 1 * p.val = t.val * 2000 + p.val; omega
    | ⟨1, _⟩ => show win5_6.index t (1 : Fin 2) * 64 + 1 * q.val = q.val; omega
  show Gen.k5_pay1 (Gen.iblk5 V c 0 t) (Gen.iblk5 V c 1 t) (Gen.iblk5 V c 2 t) (Gen.iblk5 V c 3 t) (Gen.iblk5 V c 4 t) (Gen.iblk5 V c 5 t) (ix2 p q)
    = Cert.Spec.combPlainG (R := 50000) (K := 128) (C := 64) (V c main_v50) (V c main_v55) (V c main_v33) (V c main_v56) (V c main_v57) (V c main_v58) (((cfg5.win 6).blk t).view.emb (ix2 p q))
  rw [hemb, payload_apply_r5]
  show _ = Cert.Spec.combCore (R := 50000) (K := 128) (C := 64) (V c main_v50) (V c main_v55) (V c main_v33) (V c main_v56) (V c main_v57) (V c main_v58) r q
  unfold Cert.Spec.combCore
  simp only [agg_block_r5 V c t p _ r hr, deg_block_r5 V c t p r hr, xd_block_r5 V c t p _ r hr, wl_block_r5 V c t, wr_block_r5 V c t, bias_block_r5 V c t]

/-- An index of the array is in point t's block iff each coordinate is in the block's range on its axis. -/
theorem mem_blk_r5 (t : Fin cfg5.N) (i : S50000x64.Idx) :
    i ∈ ((cfg5.win 6).blk t).view.set ↔ ∀ a : Fin 2, win5_6.index t a * S2000x64.size a ≤ (i a).val ∧ (i a).val < win5_6.index t a * S2000x64.size a + S2000x64.size a := by
  show i ∈ ((View.whole main_v59).slice (win5_6.rect t)).set ↔ _
  rw [View.set_slice_whole, Rect.mem_set_unit]
  exact Iff.rfl

/-- Every index of the array is in the block of the point its row falls in: row r in block r / 2000. -/
theorem cover_r5 (i : S50000x64.Idx) :
    ∃ t : Fin cfg5.N, (cfg5.win 6).flush t = true ∧ i ∈ ((cfg5.win 6).blk t).view.set := by
  have hi0 : (i 0).val < 50000 := (i 0).isLt
  have hi1 : (i 1).val < 64 := (i 1).isLt
  obtain ⟨t, ht⟩ : ∃ t : Fin cfg5.N, t.val = (i 0).val / 2000 :=
    ⟨⟨(i 0).val / 2000, lt_of_lt_of_eq (show (i 0).val / 2000 < 25 by omega) Gen.N_5.symm⟩, rfl⟩
  obtain ⟨-, -, -, -, -, -, ⟨e60, e61⟩⟩ := idx_facts_r5 t
  refine ⟨t, Gen.flush5_6 t, ?_⟩
  rw [mem_blk_r5]
  intro a
  match a with
  | ⟨0, _⟩ => show win5_6.index t (0 : Fin 2) * 2000 ≤ (i 0).val ∧ (i 0).val < win5_6.index t (0 : Fin 2) * 2000 + 2000; omega
  | ⟨1, _⟩ => show win5_6.index t (1 : Fin 2) * 64 ≤ (i 1).val ∧ (i 1).val < win5_6.index t (1 : Fin 2) * 64 + 64; omega

/-- THE ARRAY AFTER THE REGION: the layer's function of the operand arrays as the region finds them. -/
theorem region5 (V : (c : Dev nD) → (b : Ref sig .tc) → Buf (Elt Ideal) ((c : Thread nD τ).loc b)) (c : Dev nD) :
    (Gen.dat5 (F := Ideal) V c).arrAt 6 cfg5.N
      = Cert.Spec.combPlainG (R := 50000) (K := 128) (C := 64) (V c main_v50) (V c main_v55) (V c main_v33) (V c main_v56) (V c main_v57) (V c main_v58) :=
  (Gen.dat5 (F := Ideal) V c).arrAt_eq_of_cover 6 _ (fun t _ => flushed_eq_r5 V c t) cover_r5

end Cert.KernelIdeal.RegionValue

end
-- ==== Proof.Region6.lean ====
/-
  Region 6, the classifier: over 50 row blocks of 4000 rows, each block of the output column is the lane sum of the
  product of the two operand blocks. Proved here: after the region the 200000 × 1 output array is, row by row, the
  inner product of the two 200000 × 64 operand arrays' rows (`Cert.Spec.dotG`), on the extended reals.

  * `dotPayload6_apply`  : the body's arithmetic at row p of a block, a sum over the 64 lanes.
  * `blockIndex6_facts`  : the three windows' block index maps over the 50 grid points.
  * `flushed6_eq_dotG`   : what grid point t writes back is block t of the inner-product column.
  * `outBlocks6_cover`   : row r lies in the block of point r / 4000.
  * `region6`           : the whole-array statement.
-/
import proofs.«423856_j90606630076836_1_alg».proof.Proof.Gen.KernelIdeal.Frame
import proofs.«423856_j90606630076836_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The lane sum of a product block at row p: the sum over the 64 lanes of the two rows' products. -/
theorem dotPayload6_apply (x0 x1 : Vec Ideal S4000x64 .f32) (p : Fin 4000) (q : Fin 1) :
    Gen.k6_pay1 (F := Ideal) x0 x1 (ix2 p q) = ∑ k : Fin 64, x0 (ix2 p k) * x1 (ix2 p k) := by
  unfold Gen.k6_pay1
  dsimp only
  rw [shapeCast_apply _ _ (ix2 p q) (ix1 p) (by
    rw [Shape.rowMajor_val_one, Shape.rowMajor_val_two]
    show p.val = p.val * 1 + q.val
    have := q.isLt; omega)]
  refine (Ideal.multiReduction_add_single _ _ _ _ _ (ix1 p)).trans ?_
  show ∑ k : Fin 64, _ = _
  refine Finset.sum_congr rfl fun k _ => ?_
  rw [mulf_apply, shapeCast_self, shapeCast_self]
  have e : (reduces_S4000x64_S4000).lift (ix1 p) k = ix2 p k := by
    funext a; match a with | ⟨0, _⟩ => rfl | ⟨1, _⟩ => rfl
  rw [e]

theorem zeroOffsets6 : (![0, 0] : Fin 2 → Nat) = fun _ => 0 := funext fun a => by fin_cases a <;> rfl

/-- The printed index maps, decided once over the 50 grid points: the two input windows move with the output window
    along the rows and stay at column block 0; the output's row block is the point's number. -/
theorem blockIndex6_facts : ∀ t : Fin cfg6.N, win6_0.index t (0 : Fin 2) = win6_2.index t (0 : Fin 2)
    ∧ win6_0.index t (1 : Fin 2) = 0
    ∧ win6_1.index t (0 : Fin 2) = win6_2.index t (0 : Fin 2)
    ∧ win6_1.index t (1 : Fin 2) = 0
    ∧ win6_2.index t (0 : Fin 2) = t.val
    ∧ win6_2.index t (1 : Fin 2) = 0 :=
  (by decide +kernel : ∀ t : Fin grid6.N, _)

/-- A product of two array reads moves along equations of the two indices. -/
theorem mulRead6_congr (a b : Cert.Spec.Mat 200000 64) {i i' j j' : S200000x64.Idx} (hi : i = i') (hj : j = j') :
    a i * b j = a i' * b j' := by rw [hi, hj]

variable (V : (c : Dev nD) → (b : Ref sig .tc) → Buf (Elt Ideal) ((c : Thread nD τ).loc b))

/-- What grid point t writes back is block t of the row-wise inner product of the two operand arrays. -/
theorem flushed6_eq_dotG (c : Dev nD) (t : Fin cfg6.N) :
    (Gen.dat6 (F := Ideal) V c).flushed 2 t
      = ((cfg6.win 2).blk t).view.read (Elt Ideal) (Cert.Spec.dotG (R := 200000) (C := 64) (V c main_v60) (V c main_v61)) := by
  show (cfg6.win 2).cut (grid6.coords t) ((Gen.dat6 (F := Ideal) V c).after 2 t) = _
  rw [Gen.after6_2]
  unfold Gen.out6_2
  rw [View.canon_unit_zero zeroOffsets6]
  simp only [View.ld_unit_zero (S := S4000x64) zeroOffsets6]
  obtain ⟨e0, e1, e2, e3, e4, e5⟩ := blockIndex6_facts t
  refine funext fun (j : S4000x1.Idx) => ?_
  obtain ⟨p, q, rfl⟩ : ∃ (p : Fin 4000) (q : Fin 1), j = ix2 p q := ⟨j 0, j 1, eq_ix2 j⟩
  show Gen.k6_pay1 (F := Ideal) (Gen.iblk6 V c 0 t) (Gen.iblk6 V c 1 t) (ix2 p q)
    = Cert.Spec.dotG (R := 200000) (C := 64) (V c main_v60) (V c main_v61) (((cfg6.win 2).blk t).view.emb (ix2 p q))
  refine (dotPayload6_apply _ _ p q).trans ?_
  unfold Cert.Spec.dotG
  refine Finset.sum_congr rfl fun k _ => ?_
  have h0 : ((cfg6.win 0).blk t).view.emb (ix2 p k) = ix2 ((((cfg6.win 2).blk t).view.emb (ix2 p q)) 0) k := by
    funext a; apply Fin.ext
    match a with
    | ⟨0, _⟩ => show win6_0.index t (0 : Fin 2) * 4000 + 1 * p.val = win6_2.index t (0 : Fin 2) * 4000 + 1 * p.val; omega
    | ⟨1, _⟩ => show win6_0.index t (1 : Fin 2) * 64 + 1 * k.val = k.val; omega
  have h1 : ((cfg6.win 1).blk t).view.emb (ix2 p k) = ix2 ((((cfg6.win 2).blk t).view.emb (ix2 p q)) 0) k := by
    funext a; apply Fin.ext
    match a with
    | ⟨0, _⟩ => show win6_1.index t (0 : Fin 2) * 4000 + 1 * p.val = win6_2.index t (0 : Fin 2) * 4000 + 1 * p.val; omega
    | ⟨1, _⟩ => show win6_1.index t (1 : Fin 2) * 64 + 1 * k.val = k.val; omega
  exact mulRead6_congr (V c main_v60) (V c main_v61) h0 h1

/-- An index of the output array is in point t's block iff each coordinate is in the block's range on its axis. -/
theorem mem_outBlock6 (t : Fin cfg6.N) (i : S200000x1.Idx) :
    i ∈ ((cfg6.win 2).blk t).view.set ↔ ∀ a : Fin 2, win6_2.index t a * S4000x1.size a ≤ (i a).val ∧ (i a).val < win6_2.index t a * S4000x1.size a + S4000x1.size a := by
  show i ∈ ((View.whole main_v62).slice (win6_2.rect t)).set ↔ _
  rw [View.set_slice_whole, Rect.mem_set_unit]
  exact Iff.rfl

/-- Every row r of the output array lies in the block of grid point r / 4000. -/
theorem outBlocks6_cover (i : S200000x1.Idx) :
    ∃ t : Fin cfg6.N, (cfg6.win 2).flush t = true ∧ i ∈ ((cfg6.win 2).blk t).view.set := by
  have hi0 : (i 0).val < 200000 := (i 0).isLt
  have hi1 : (i 1).val < 1 := (i 1).isLt
  have hN : cfg6.N = 50 := N_6
  refine ⟨⟨(i 0).val / 4000, by rw [hN]; omega⟩, flush6_2 _, ?_⟩
  rw [mem_outBlock6]
  obtain ⟨e0, e1, e2, e3, e4, e5⟩ := blockIndex6_facts ⟨(i 0).val / 4000, by rw [hN]; omega⟩
  intro a
  match a with
  | ⟨0, _⟩ =>
    show win6_2.index _ (0 : Fin 2) * 4000 ≤ (i 0).val ∧ (i 0).val < win6_2.index _ (0 : Fin 2) * 4000 + 4000
    rw [e4]; show (i 0).val / 4000 * 4000 ≤ (i 0).val ∧ (i 0).val < (i 0).val / 4000 * 4000 + 4000; omega
  | ⟨1, _⟩ =>
    show win6_2.index _ (1 : Fin 2) * 1 ≤ (i 1).val ∧ (i 1).val < win6_2.index _ (1 : Fin 2) * 1 + 1
    rw [e5]; omega

/-- After region 6 the output array holds, at every row, the inner product of the two operand arrays' rows. -/
theorem region6 (V) (c : Dev nD) : (Gen.dat6 (F := Ideal) V c).arrAt 2 cfg6.N = Cert.Spec.dotG (R := 200000) (C := 64) (V c main_v60) (V c main_v61) :=
  (Gen.dat6 (F := Ideal) V c).arrAt_eq_of_cover 2 _ (fun t _ => flushed6_eq_dotG V c t) outBlocks6_cover

end Cert.KernelIdeal.RegionValue

end
-- ==== Proof.Chain.lean ====
/-
  The kernel's program computes, layer by layer, what the reference computes.

  `W j` is a core's buffer contents at boundary j of the kernel's @main (the generated fold through its 22 segments), and
  `val_main_vN` the value of the reference's operation N as a function of the arguments. With every index array in range:
  the encoder outputs (boundaries 4 and 6) are the reference's h_user and h_app; the first SAGE layer's outputs
  (boundaries 9 and 12) its u1 and a1; the second layer's (15 and 18) its u2 and a2; and the result buffer (boundary 22)
  its result. Each step: the region leaves its layer function of its operands (the region's value), each operand is what
  the preceding stretch of host operations made of buffers that still hold an argument or an earlier layer (kept across
  the segments between), a row read with the index in range is the plain gather on both sides, and the reference's layer
  is the same function of the same arrays.
-/
import proofs.«423856_j90606630076836_1_alg».proof.Proof.Gen.KernelIdeal.Frame
import proofs.«423856_j90606630076836_1_alg».proof.Proof.Gen.ReferenceIdeal.Read
import proofs.«423856_j90606630076836_1_alg».proof.Proof.Spec
import proofs.«423856_j90606630076836_1_alg».proof.Proof.Range
import proofs.«423856_j90606630076836_1_alg».proof.Proof.Keep
import proofs.«423856_j90606630076836_1_alg».proof.Proof.Takes
import proofs.«423856_j90606630076836_1_alg».proof.Proof.Glue
import proofs.«423856_j90606630076836_1_alg».proof.Proof.RefUnwrap
import proofs.«423856_j90606630076836_1_alg».proof.Proof.RefStagesA
import proofs.«423856_j90606630076836_1_alg».proof.Proof.RefStagesB
import proofs.«423856_j90606630076836_1_alg».proof.Proof.Region0
import proofs.«423856_j90606630076836_1_alg».proof.Proof.Region1
import proofs.«423856_j90606630076836_1_alg».proof.Proof.Region2
import proofs.«423856_j90606630076836_1_alg».proof.Proof.Region3
import proofs.«423856_j90606630076836_1_alg».proof.Proof.Region4
import proofs.«423856_j90606630076836_1_alg».proof.Proof.Region5
import proofs.«423856_j90606630076836_1_alg».proof.Proof.Region6
import Idealize.ShloMosaic.PureOps.Ideal

set_option maxRecDepth 16384

noncomputable section

namespace Cert.Chain

open Cert.KernelIdeal Cert.KernelIdeal.Gen Cert.KernelIdeal.Keep Cert.KernelIdeal.Takes Cert.KernelIdeal.Glue Cert.KernelIdeal.RegionValue
open Cert.ReferenceIdeal.Read Cert.RefStages Cert.RefUnwrap Cert.Range
open Idealize.ShloMosaic Idealize.ShloMosaic.TcCoe Idealize.ShloMosaic.StableHlo
open Idealize.SL.Sem

/-! ## Equal operands give equal layers -/

theorem fuse_congr {R K C : Nat} {x x' : Spec.Mat R K} {e e' : Spec.Mat R C} {w w' : Spec.Mat K C} {b b' : Spec.Mat 1 C}
    (hx : x = x') (he : e = e') (hw : w = w') (hb : b = b') : Spec.fuseG x e w b = Spec.fuseG x' e' w' b' := by
  subst hx he hw hb; rfl

theorem combNorm_congr {R K C : Nat} {g g' : Spec.Mat R K} {d d' : Spec.Mat R 1} {x x' : Spec.Mat R K} {l l' r r' : Spec.Mat K C} {b b' : Spec.Mat 1 C}
    (hg : g = g') (hd : d = d') (hx : x = x') (hl : l = l') (hr : r = r') (hb : b = b') :
    Spec.combNormG g d x l r b = Spec.combNormG g' d' x' l' r' b' := by
  subst hg hd hx hl hr hb; rfl

theorem combPlain_congr {R K C : Nat} {g g' : Spec.Mat R K} {d d' : Spec.Mat R 1} {x x' : Spec.Mat R K} {l l' r r' : Spec.Mat K C} {b b' : Spec.Mat 1 C}
    (hg : g = g') (hd : d = d') (hx : x = x') (hl : l = l') (hr : r = r') (hb : b = b') :
    Spec.combPlainG g d x l r b = Spec.combPlainG g' d' x' l' r' b' := by
  subst hg hd hx hl hr hb; rfl

theorem dot_congr {R C : Nat} {a a' b b' : Spec.Mat R C} (ha : a = a') (hb : b = b') : Spec.dotG a b = Spec.dotG a' b' := by
  subst ha hb; rfl

variable (m : (ℓ : Loc nD τ sig) → Buf (Elt Ideal) ℓ) (ρ : Dev nD → PrngReg) (c : Dev nD)

set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)
local notation "a17" => m ((c : Thread nD τ).loc main_arg17)
local notation "a18" => m ((c : Thread nD τ).loc main_arg18)
local notation "a19" => m ((c : Thread nD τ).loc main_arg19)
local notation "a20" => m ((c : Thread nD τ).loc main_arg20)
local notation "a21" => m ((c : Thread nD τ).loc main_arg21)
local notation "a22" => m ((c : Thread nD τ).loc main_arg22)
local notation "a23" => m ((c : Thread nD τ).loc main_arg23)
local notation "a24" => m ((c : Thread nD τ).loc main_arg24)
local notation "a25" => m ((c : Thread nD τ).loc main_arg25)

/-! ## The encoders -/

/-- The user encoder's output buffer holds the reference's h_user. -/
theorem k_hu (h0 : InRange (M := 200000) a0 500000) : W4 m ρ c (Proc.devRef .tc main_v4) = (val_main_v12 (F := Ideal) a0 a1 a8 a10 a11) := by
  have e1 : V3 m ρ c main_arg1 = a1 := at3_arg1 m ρ c
  have e2 : V3 m ρ c main_v0 = val_main_v6 (F := Ideal) a0 a8 :=
    (at3_v0 m ρ c).trans ((take_v0 (W0 m ρ c) h0).trans (by rw [val_main_v6, unwrap_v5 a0 h0]; rfl))
  have e3 : V3 m ρ c main_v2 = val_main_v7 (F := Ideal) a10 :=
    (glue_v2 (W2 m ρ c)).trans (by rw [at2_arg10 m ρ c]; rfl)
  have e4 : V3 m ρ c main_v3 = val_main_v10 (F := Ideal) a11 :=
    (glue_v3 (W2 m ρ c)).trans (by rw [at2_arg11 m ρ c]; rfl)
  exact (W4_arr m ρ c 4).trans ((region0 (V3 m ρ) c).trans ((fuse_congr e1 e2 e3 e4).trans (s_hu a0 a1 a8 a10 a11).symm))

/-- The app encoder's output buffer holds the reference's h_app. -/
theorem k_ha (h2 : InRange (M := 50000) a2 100000) : W6 m ρ c (Proc.devRef .tc main_v7) = (val_main_v25 (F := Ideal) a2 a3 a9 a12 a13) := by
  have e1 : V5 m ρ c main_arg3 = a3 := at5_arg3 m ρ c
  have e2 : V5 m ρ c main_v1 = val_main_v19 (F := Ideal) a2 a9 :=
    (at5_v1 m ρ c).trans ((take_v1 (W1 m ρ c) (by rw [at1_arg2 m ρ c]; exact h2)).trans
      (by rw [at1_arg9 m ρ c, at1_arg2 m ρ c, val_main_v19, unwrap_v18 a2 h2]; rfl))
  have e3 : V5 m ρ c main_v5 = val_main_v20 (F := Ideal) a12 :=
    (glue_v5 (W4 m ρ c)).trans (by rw [at4_arg12 m ρ c]; rfl)
  have e4 : V5 m ρ c main_v6 = val_main_v23 (F := Ideal) a13 :=
    (glue_v6 (W4 m ρ c)).trans (by rw [at4_arg13 m ρ c]; rfl)
  exact (W6_arr m ρ c 4).trans ((region1 (V5 m ρ) c).trans ((fuse_congr e1 e2 e3 e4).trans (s_ha a2 a3 a9 a12 a13).symm))

/-! ## The first SAGE layer -/

/-- The user side of layer 1: the region's output buffer holds the reference's u1. -/
theorem k_u1 (h0 : InRange (M := 200000) a0 500000) (h2 : InRange (M := 50000) a2 100000) (h5 : InRange (M := 600000) a5 50000) : W9 m ρ c (Proc.devRef .tc main_v20) = (val_main_v58 (F := Ideal) a0 a1 a2 a3 a4 a5 a8 a9 a10 a11 a12 a13 a14 a15 a16) := by
  have e1 : V8 m ρ c main_v11 = val_main_v35 (F := Ideal) a2 a3 a4 a5 a9 a12 a13 :=
    (glue_v11 (W7 m ρ c)).trans (by
      rw [at7_arg4 m ρ c, show W7 m ρ c (Proc.devRef .tc main_v8) = _ from take_v8 (W6 m ρ c) (by rw [at6_arg5 m ρ c]; exact h5), at6_arg5 m ρ c, k_ha m ρ c h2,
        val_main_v35, val_main_v32, unwrap_v31 a5 h5]; rfl)
  have e2 : V8 m ρ c main_v16 = broadcastInDim Cert.ReferenceIdeal.S200000x1 ![0] Cert.ReferenceIdeal.Gen.bcast_S200000_S200000x1_0 (val_main_v39 (F := Ideal) a4) :=
    (glue_v16 (W7 m ρ c)).trans (by rw [at7_arg4 m ρ c]; rfl)
  have e3 : V8 m ρ c main_v4 = (val_main_v12 (F := Ideal) a0 a1 a8 a10 a11) := (at8_v4 m ρ c).trans (k_hu m ρ c h0)
  have e4 : V8 m ρ c main_v17 = val_main_v45 (F := Ideal) a14 := (glue_v17 (W7 m ρ c)).trans (by rw [at7_arg14 m ρ c]; rfl)
  have e5 : V8 m ρ c main_v18 = val_main_v50 (F := Ideal) a16 := (glue_v18 (W7 m ρ c)).trans (by rw [at7_arg16 m ρ c]; rfl)
  have e6 : V8 m ρ c main_v19 = val_main_v47 (F := Ideal) a15 := (glue_v19 (W7 m ρ c)).trans (by rw [at7_arg15 m ρ c]; rfl)
  exact (W9_arr m ρ c 6).trans ((region2 (V8 m ρ) c).trans ((combNorm_congr e1 e2 e3 e4 e5 e6).trans (s_u1 a0 a1 a2 a3 a4 a5 a8 a9 a10 a11 a12 a13 a14 a15 a16).symm))

/-- The app side of layer 1: the region's output buffer holds the reference's a1. -/
theorem k_a1 (h0 : InRange (M := 200000) a0 500000) (h2 : InRange (M := 50000) a2 100000) (h4 : InRange (M := 600000) a4 200000) (h5 : InRange (M := 600000) a5 50000) : W12 m ρ c (Proc.devRef .tc main_v33) = (val_main_v91 (F := Ideal) a0 a1 a2 a3 a4 a5 a8 a9 a10 a11 a12 a13 a17 a18 a19) := by
  have e1 : V11 m ρ c main_v24 = val_main_v68 (F := Ideal) a0 a1 a4 a5 a8 a10 a11 :=
    (glue_v24 (W10 m ρ c)).trans (by
      rw [at10_arg5 m ρ c, show W10 m ρ c (Proc.devRef .tc main_v21) = _ from take_v21 (W9 m ρ c) (by rw [at9_arg4 m ρ c]; exact h4), at9_arg4 m ρ c, at9_v4 m ρ c, k_hu m ρ c h0,
        val_main_v68, val_main_v65, unwrap_v64 a4 h4]; rfl)
  have e2 : V11 m ρ c main_v29 = broadcastInDim Cert.ReferenceIdeal.S50000x1 ![0] Cert.ReferenceIdeal.Gen.bcast_S50000_S50000x1_0 (val_main_v72 (F := Ideal) a5) :=
    (glue_v29 (W10 m ρ c)).trans (by rw [at10_arg5 m ρ c]; rfl)
  have e3 : V11 m ρ c main_v7 = (val_main_v25 (F := Ideal) a2 a3 a9 a12 a13) := (at11_v7 m ρ c).trans (k_ha m ρ c h2)
  have e4 : V11 m ρ c main_v30 = val_main_v78 (F := Ideal) a17 := (glue_v30 (W10 m ρ c)).trans (by rw [at10_arg17 m ρ c]; rfl)
  have e5 : V11 m ρ c main_v31 = val_main_v83 (F := Ideal) a19 := (glue_v31 (W10 m ρ c)).trans (by rw [at10_arg19 m ρ c]; rfl)
  have e6 : V11 m ρ c main_v32 = val_main_v80 (F := Ideal) a18 := (glue_v32 (W10 m ρ c)).trans (by rw [at10_arg18 m ρ c]; rfl)
  exact (W12_arr m ρ c 6).trans ((region3 (V11 m ρ) c).trans ((combNorm_congr e1 e2 e3 e4 e5 e6).trans (s_a1 a0 a1 a2 a3 a4 a5 a8 a9 a10 a11 a12 a13 a17 a18 a19).symm))

/-! ## The second SAGE layer -/

/-- The user side of layer 2: the region's output buffer holds the reference's u2. -/
theorem k_u2 (h0 : InRange (M := 200000) a0 500000) (h2 : InRange (M := 50000) a2 100000) (h4 : InRange (M := 600000) a4 200000) (h5 : InRange (M := 600000) a5 50000) : W15 m ρ c (Proc.devRef .tc main_v46) = (val_main_v118 (F := Ideal) a0 a1 a2 a3 a4 a5 a8 a9 a10 a11 a12 a13 a14 a15 a16 a17 a18 a19 a20 a21 a22) := by
  have e1 : V14 m ρ c main_v37 = val_main_v101 (F := Ideal) a0 a1 a2 a3 a4 a5 a8 a9 a10 a11 a12 a13 a17 a18 a19 :=
    (glue_v37 (W13 m ρ c)).trans (by
      rw [at13_arg4 m ρ c, show W13 m ρ c (Proc.devRef .tc main_v34) = _ from take_v34 (W12 m ρ c) (by rw [at12_arg5 m ρ c]; exact h5), at12_arg5 m ρ c, k_a1 m ρ c h0 h2 h4 h5,
        val_main_v101, val_main_v98, unwrap_v97 a5 h5]; rfl)
  have e2 : V14 m ρ c main_v42 = broadcastInDim Cert.ReferenceIdeal.S200000x1 ![0] Cert.ReferenceIdeal.Gen.bcast_S200000_S200000x1_0 (val_main_v105 (F := Ideal) a4) :=
    (glue_v42 (W13 m ρ c)).trans (by rw [at13_arg4 m ρ c]; rfl)
  have e3 : V14 m ρ c main_v20 = (val_main_v58 (F := Ideal) a0 a1 a2 a3 a4 a5 a8 a9 a10 a11 a12 a13 a14 a15 a16) := (at14_v20 m ρ c).trans (k_u1 m ρ c h0 h2 h5)
  have e4 : V14 m ρ c main_v43 = val_main_v111 (F := Ideal) a20 := (glue_v43 (W13 m ρ c)).trans (by rw [at13_arg20 m ρ c]; rfl)
  have e5 : V14 m ρ c main_v44 = val_main_v116 (F := Ideal) a22 := (glue_v44 (W13 m ρ c)).trans (by rw [at13_arg22 m ρ c]; rfl)
  have e6 : V14 m ρ c main_v45 = val_main_v113 (F := Ideal) a21 := (glue_v45 (W13 m ρ c)).trans (by rw [at13_arg21 m ρ c]; rfl)
  exact (W15_arr m ρ c 6).trans ((region4 (V14 m ρ) c).trans ((combPlain_congr e1 e2 e3 e4 e5 e6).trans (s_u2 a0 a1 a2 a3 a4 a5 a8 a9 a10 a11 a12 a13 a14 a15 a16 a17 a18 a19 a20 a21 a22).symm))

/-- The app side of layer 2: the region's output buffer holds the reference's a2. -/
theorem k_a2 (h0 : InRange (M := 200000) a0 500000) (h2 : InRange (M := 50000) a2 100000) (h4 : InRange (M := 600000) a4 200000) (h5 : InRange (M := 600000) a5 50000) : W18 m ρ c (Proc.devRef .tc main_v59) = (val_main_v145 (F := Ideal) a0 a1 a2 a3 a4 a5 a8 a9 a10 a11 a12 a13 a14 a15 a16 a17 a18 a19 a23 a24 a25) := by
  have e1 : V17 m ρ c main_v50 = val_main_v128 (F := Ideal) a0 a1 a2 a3 a4 a5 a8 a9 a10 a11 a12 a13 a14 a15 a16 :=
    (glue_v50 (W16 m ρ c)).trans (by
      rw [at16_arg5 m ρ c, show W16 m ρ c (Proc.devRef .tc main_v47) = _ from take_v47 (W15 m ρ c) (by rw [at15_arg4 m ρ c]; exact h4), at15_arg4 m ρ c, at15_v20 m ρ c, k_u1 m ρ c h0 h2 h5,
        val_main_v128, val_main_v125, unwrap_v124 a4 h4]; rfl)
  have e2 : V17 m ρ c main_v55 = broadcastInDim Cert.ReferenceIdeal.S50000x1 ![0] Cert.ReferenceIdeal.Gen.bcast_S50000_S50000x1_0 (val_main_v132 (F := Ideal) a5) :=
    (glue_v55 (W16 m ρ c)).trans (by rw [at16_arg5 m ρ c]; rfl)
  have e3 : V17 m ρ c main_v33 = (val_main_v91 (F := Ideal) a0 a1 a2 a3 a4 a5 a8 a9 a10 a11 a12 a13 a17 a18 a19) := (at17_v33 m ρ c).trans (k_a1 m ρ c h0 h2 h4 h5)
  have e4 : V17 m ρ c main_v56 = val_main_v138 (F := Ideal) a23 := (glue_v56 (W16 m ρ c)).trans (by rw [at16_arg23 m ρ c]; rfl)
  have e5 : V17 m ρ c main_v57 = val_main_v143 (F := Ideal) a25 := (glue_v57 (W16 m ρ c)).trans (by rw [at16_arg25 m ρ c]; rfl)
  have e6 : V17 m ρ c main_v58 = val_main_v140 (F := Ideal) a24 := (glue_v58 (W16 m ρ c)).trans (by rw [at16_arg24 m ρ c]; rfl)
  exact (W18_arr m ρ c 6).trans ((region5 (V17 m ρ) c).trans ((combPlain_congr e1 e2 e3 e4 e5 e6).trans (s_a2 a0 a1 a2 a3 a4 a5 a8 a9 a10 a11 a12 a13 a14 a15 a16 a17 a18 a19 a23 a24 a25).symm))

/-! ## The classifier -/

/-- The result buffer holds the reference's result. -/
theorem k_out (h0 : InRange (M := 200000) a0 500000) (h2 : InRange (M := 50000) a2 100000) (h4 : InRange (M := 600000) a4 200000) (h5 : InRange (M := 600000) a5 50000) (h6 : InRange (M := 200000) a6 200000) (h7 : InRange (M := 200000) a7 50000) : W22 m ρ c (Proc.devRef .tc main_v63) = val_main_v161 (F := Ideal) a0 a1 a2 a3 a4 a5 a6 a7 a8 a9 a10 a11 a12 a13 a14 a15 a16 a17 a18 a19 a20 a21 a22 a23 a24 a25 := by
  have e1 : V20 m ρ c main_v60 = val_main_v152 (F := Ideal) a0 a1 a2 a3 a4 a5 a6 a8 a9 a10 a11 a12 a13 a14 a15 a16 a17 a18 a19 a20 a21 a22 :=
    (at20_v60 m ρ c).trans ((take_v60 (W18 m ρ c) (by rw [at18_arg6 m ρ c]; exact h6)).trans (by
      rw [at18_arg6 m ρ c, at18_v46 m ρ c, k_u2 m ρ c h0 h2 h4 h5, val_main_v152, unwrap_v151 a6 h6]; rfl))
  have e2 : V20 m ρ c main_v61 = val_main_v159 (F := Ideal) a0 a1 a2 a3 a4 a5 a7 a8 a9 a10 a11 a12 a13 a14 a15 a16 a17 a18 a19 a23 a24 a25 :=
    (take_v61 (W19 m ρ c) (by rw [at19_arg7 m ρ c]; exact h7)).trans (by
      rw [at19_arg7 m ρ c, at19_v59 m ρ c, k_a2 m ρ c h0 h2 h4 h5, val_main_v159, unwrap_v158 a7 h7]; rfl)
  have e3 : W21 m ρ c (Proc.devRef .tc main_v62) = Spec.dotG (R := 200000) (C := 64) (V20 m ρ c main_v60) (V20 m ρ c main_v61) :=
    (W21_arr m ρ c 2).trans (region6 (V20 m ρ) c)
  refine (glue_v63_apply (W21 m ρ c)).trans ?_
  rw [e3, dot_congr e1 e2]
  exact (s_out a0 a1 a2 a3 a4 a5 a6 a7 a8 a9 a10 a11 a12 a13 a14 a15 a16 a17 a18 a19 a20 a21 a22 a23 a24 a25).symm

end Cert.Chain

end
-- ==== Proof.lean ====
/-
  The certificate of a two-layer bipartite GraphSAGE link classifier: a Pallas program of seven kernel regions (two input
  encoders h = emb[idx] + x · Wᵀ + b, two SAGE layers of two sides each, mean-aggregate · W_lᵀ + b + x_dst · W_rᵀ, the first
  layer L2-normalised and rectified, and the row-wise inner product of the two sides at the supervision edges) against the
  same network in plain jnp.

  The statement carries, beside the finiteness of the float inputs, the evident domain of the six index arrays: every node
  id, edge endpoint and supervision endpoint lies in the range of the array it indexes. Outside it the two programs differ
  (the kernel's row read fills an out-of-range row with NaN where the reference's clamps the index), inside it every row
  read is the same plain gather.

  * The three frames: the two kernel programs' are the generated frame certificates; the reference's is its generated run
    with the result dropped.
  * `preserves`: the idealization rewrote nothing.
  * `algebraic`: the kernel program's run, restated with its result buffer named (the launch of the 22 segments read at
    the result as well), leaves there the fold of its segments; layer by layer that fold holds the reference's own values
    (Proof/Chain.lean: each region's output is its layer function of its operands, Proof/Region0 … Region6; each operand is
    what the host operations before it made of kept buffers, Proof/Keep, Takes, Glue; the reference's layers are the same
    functions, Proof/RefStagesA, RefStagesB, RefUnwrap); the reference's run ends at that same value of the agreeing arguments.
-/
import proofs.«423856_j90606630076836_1_alg».proof.Defs
import proofs.«423856_j90606630076836_1_alg».proof.Proof.Gen.Kernel
import proofs.«423856_j90606630076836_1_alg».proof.Proof.Gen.Kernel.Skeleton
import proofs.«423856_j90606630076836_1_alg».proof.Proof.Gen.Kernel.Launch
import proofs.«423856_j90606630076836_1_alg».proof.Proof.Gen.Kernel.Points
import proofs.«423856_j90606630076836_1_alg».proof.Proof.Gen.Kernel.Frame
import proofs.«423856_j90606630076836_1_alg».proof.Proof.Gen.KernelIdeal
import proofs.«423856_j90606630076836_1_alg».proof.Proof.Gen.KernelIdeal.Skeleton
import proofs.«423856_j90606630076836_1_alg».proof.Proof.Gen.KernelIdeal.Launch
import proofs.«423856_j90606630076836_1_alg».proof.Proof.Gen.KernelIdeal.Points
import proofs.«423856_j90606630076836_1_alg».proof.Proof.Gen.KernelIdeal.Frame
import proofs.«423856_j90606630076836_1_alg».proof.Proof.Gen.ReferenceIdeal
import proofs.«423856_j90606630076836_1_alg».proof.Proof.Gen.ReferenceIdeal.Run
import proofs.«423856_j90606630076836_1_alg».proof.Proof.Gen.ReferenceIdeal.Read
import proofs.«423856_j90606630076836_1_alg».proof.Proof.Gen.Pre_finite_inputs
import proofs.«423856_j90606630076836_1_alg».proof.Proof.KernelRun
import proofs.«423856_j90606630076836_1_alg».proof.Proof.PreKernel
import proofs.«423856_j90606630076836_1_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the same result: the kernel program's result buffer
    holds the fold of its segments, which is the reference's result function of the arguments. -/
theorem algebraic : Cert.algebraic_KernelIdeal_ReferenceIdeal := by
  intro m ρ m' ρ' hpre hagree
  refine ⟨fun c => Cert.KernelIdeal.Gen.W22 m ρ c (Proc.devRef .tc Cert.KernelIdeal.main_v63), Cert.KernelIdeal.GenRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨r0, r2, r4, r5, r6, r7⟩ := Cert.PreKernel.kernel_ranges m hpre c
  obtain ⟨g0, g1, g2, g3, g4, g5, g6, g7, g8, g9, g10, g11, g12, g13, g14, g15, g16, g17, g18, g19, g20, g21, g22, g23, g24, g25⟩ := hagree c
  rw [Cert.ReferenceIdeal.Read.val_main_v161_eq, g0, g1, g2, g3, g4, g5, g6, g7, g8, g9, g10, g11, g12, g13, g14, g15, g16, g17, g18, g19, g20, g21, g22, g23, g24, g25]
  exact (Cert.Chain.k_out m ρ c r0 r2 r4 r5 r6 r7).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
